-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4x128 : Shape := ⟨3, ![4096, 4, 128]⟩
abbrev S4096 : Shape := ⟨1, ![4096]⟩
abbrev S4x100000x3 : Shape := ⟨3, ![4, 100000, 3]⟩
abbrev S4x100 : Shape := ⟨2, ![4, 100]⟩
abbrev S_ : Shape := ⟨0, ![]⟩

class Facts : Prop where
  bcast_S_S4096x4x128 : S_.BroadcastsInDim S4096x4x128 (![] : Fin 0 → Fin S4096x4x128.rank)
  reducesTo_S4096x4x128_S_d0_1_2 : S4096x4x128.ReducesTo [0, 1, 2] S_
  h_S_ : 0 < S_.numel
  bcast_S_S4x100 : S_.BroadcastsInDim S4x100 (![] : Fin 0 → Fin S4x100.rank)
  reducesTo_S4x100_S_d0_1 : S4x100.ReducesTo [0, 1] S_
  bcast_S_S4x100000x3 : S_.BroadcastsInDim S4x100000x3 (![] : Fin 0 → Fin S4x100000x3.rank)
  reducesTo_S4x100000x3_S_d0_1_2 : S4x100000x3.ReducesTo [0, 1, 2] S_

variable [Facts]

def fn {F : FTy → Type} [FloatOps F] (main_arg0 : FVec F S4096x4x128 .f32) (main_arg1 : IVec S4096 32) (main_arg2 : IVec S4x100000x3 32) (main_arg3 : FVec F S4x100 .f32) : IVec S_ 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_c : IVec S_ 1 := constantI S_ 1 1#1
  let main_v3 : IVec S_ 1 := (fun x v => Host.reduce IntOp.andi x v reducesTo_S4096x4x128_S_d0_1_2 h_S_) main_v2 main_c
  let main_v4 : FVec F S4x100 .f32 := Host.absf main_arg3
  let main_cst_0 : FVec F S_ .f32 := constant S_ .f32 0x7F800000#32
  let main_v5 : FVec F S4x100 .f32 := broadcastInDim S4x100 ![] bcast_S_S4x100 main_cst_0
  let main_v6 : IVec S4x100 1 := cmpf .olt main_v4 main_v5
  let main_c_1 : IVec S_ 1 := constantI S_ 1 1#1
  let main_v7 : IVec S_ 1 := (fun x v => Host.reduce IntOp.andi x v reducesTo_S4x100_S_d0_1 h_S_) main_v6 main_c_1
  let main_v8 : IVec S_ 1 := andi main_v3 main_v7
  let main_c_2 : IVec S_ 32 := constantI S_ 32 0#32
  let main_v9 : IVec S4x100000x3 32 := broadcastInDim S4x100000x3 ![] bcast_S_S4x100000x3 main_c_2
  let main_v10 : IVec S4x100000x3 1 := cmpi .sge main_arg2 main_v9
  let main_c_3 : IVec S_ 32 := constantI S_ 32 4096#32
  let main_v11 : IVec S4x100000x3 32 := broadcastInDim S4x100000x3 ![] bcast_S_S4x100000x3 main_c_3
  let main_v12 : IVec S4x100000x3 1 := cmpi .slt main_arg2 main_v11
  let main_v13 : IVec S4x100000x3 1 := andi main_v10 main_v12
  let main_c_4 : IVec S_ 1 := constantI S_ 1 1#1
  let main_v14 : IVec S_ 1 := (fun x v => Host.reduce IntOp.andi x v reducesTo_S4x100000x3_S_d0_1_2 h_S_) main_v13 main_c_4
  let main_v15 : IVec S_ 1 := andi main_v8 main_v14
  main_v15
-- ==== Kernel.lean ====
abbrev S4096x4x128 : Shape := ⟨3, ![4096, 4, 128]⟩
abbrev S4096 : Shape := ⟨1, ![4096]⟩
abbrev S4x100000x3 : Shape := ⟨3, ![4, 100000, 3]⟩
abbrev S4x100 : Shape := ⟨2, ![4, 100]⟩
abbrev S4x4096x128 : Shape := ⟨3, ![4, 4096, 128]⟩
abbrev S4x100000x1 : Shape := ⟨3, ![4, 100000, 1]⟩
abbrev S4x100000 : Shape := ⟨2, ![4, 100000]⟩
abbrev S_ : Shape := ⟨0, ![]⟩
abbrev S4096x1 : Shape := ⟨2, ![4096, 1]⟩
abbrev S4x4096 : Shape := ⟨2, ![4, 4096]⟩
abbrev S1 : Shape := ⟨1, ![1]⟩
abbrev S1x1x1 : Shape := ⟨3, ![1, 1, 1]⟩
abbrev S4x100352 : Shape := ⟨2, ![4, 100352]⟩
abbrev S4x1x100352 : Shape := ⟨3, ![4, 1, 100352]⟩
abbrev S4x1x1 : Shape := ⟨3, ![4, 1, 1]⟩
abbrev S1x4096x128 : Shape := ⟨3, ![1, 4096, 128]⟩
abbrev S1x1x1024 : Shape := ⟨3, ![1, 1, 1024]⟩
abbrev S1x1 : Shape := ⟨2, ![1, 1]⟩
abbrev S4096x128 : Shape := ⟨2, ![4096, 128]⟩
abbrev S1x4096 : Shape := ⟨2, ![1, 4096]⟩
abbrev S1024 : Shape := ⟨1, ![1024]⟩
abbrev S1024x1 : Shape := ⟨2, ![1024, 1]⟩
abbrev S1024x4096 : Shape := ⟨2, ![1024, 4096]⟩
abbrev S1024x128 : Shape := ⟨2, ![1024, 128]⟩
abbrev S4 : Shape := ⟨1, ![4]⟩

abbrev nBuf : Space → Nat
  | .hbm => 81
  | .vmem => 15
  | .smem => 0
  | _ => 0

abbrev bufTy : (tb : Table) → Fin (tcTables nBuf tb) → BufTy
  | .hbm, ⟨0, _⟩ => ⟨S4096x4x128, .f32⟩
  | .hbm, ⟨1, _⟩ => ⟨S4096, .i32⟩
  | .hbm, ⟨2, _⟩ => ⟨S4x100000x3, .i32⟩
  | .hbm, ⟨3, _⟩ => ⟨S4x100, .f32⟩
  | .hbm, ⟨4, _⟩ => ⟨S4x4096x128, .f32⟩
  | .hbm, ⟨5, _⟩ => ⟨S4x4096x128, .bf16⟩
  | .hbm, ⟨6, _⟩ => ⟨S4x100000x1, .i32⟩
  | .hbm, ⟨7, _⟩ => ⟨S4x100000, .i32⟩
  | .hbm, ⟨8, _⟩ => ⟨S4x100000x1, .i32⟩
  | .hbm, ⟨9, _⟩ => ⟨S4x100000, .i32⟩
  | .hbm, ⟨10, _⟩ => ⟨S4x100000x1, .i32⟩
  | .hbm, ⟨11, _⟩ => ⟨S4x100000, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4x4096, .f32⟩
  | .hbm, ⟨21, _⟩ => ⟨S_, .i32⟩
  | .hbm, ⟨22, _⟩ => ⟨S4x100000, .i32⟩
  | .hbm, ⟨23, _⟩ => ⟨S4x100000, .i1⟩
  | .hbm, ⟨24, _⟩ => ⟨S_, .i32⟩
  | .hbm, ⟨25, _⟩ => ⟨S4x100000, .i32⟩
  | .hbm, ⟨26, _⟩ => ⟨S4x100000, .i32⟩
  | .hbm, ⟨27, _⟩ => ⟨S4x100000, .i32⟩
  | .hbm, ⟨28, _⟩ => ⟨S4x100000x1, .i32⟩
  | .hbm, ⟨29, _⟩ => ⟨S1, .i32⟩
  | .hbm, ⟨30, _⟩ => ⟨S_, .i32⟩
  | .hbm, ⟨31, _⟩ => ⟨S4x100000x1, .i32⟩
  | .hbm, ⟨32, _⟩ => ⟨S4x100000x1, .i1⟩
  | .hbm, ⟨33, _⟩ => ⟨S1x1x1, .i32⟩
  | .hbm, ⟨34, _⟩ => ⟨S4x100000x1, .i32⟩
  | .hbm, ⟨35, _⟩ => ⟨S4x100000x1, .i1⟩
  | .hbm, ⟨36, _⟩ => ⟨S4x100000x1, .i1⟩
  | .hbm, ⟨37, _⟩ => ⟨S_, .i1⟩
  | .hbm, ⟨38, _⟩ => ⟨S4x100000, .i1⟩
  | .hbm, ⟨39, _⟩ => ⟨S4x100000, .f32⟩
  | .hbm, ⟨40, _⟩ => ⟨S_, .f32⟩
  | .hbm, ⟨41, _⟩ => ⟨S4x100000, .f32⟩
  | .hbm, ⟨42, _⟩ => ⟨S4x100000, .f32⟩
  | .hbm, ⟨43, _⟩ => ⟨S_, .i32⟩
  | .hbm, ⟨44, _⟩ => ⟨S_, .i32⟩
  | .hbm, ⟨45, _⟩ => ⟨S4x100352, .i32⟩
  | .hbm, ⟨46, _⟩ => ⟨S_, .i32⟩
  | .hbm, ⟨47, _⟩ => ⟨S_, .i32⟩
  | .hbm, ⟨48, _⟩ => ⟨S4x100352, .i32⟩
  | .hbm, ⟨49, _⟩ => ⟨S_, .i32⟩
  | .hbm, ⟨50, _⟩ => ⟨S_, .i32⟩
  | .hbm, ⟨51, _⟩ => ⟨S4x100352, .i32⟩
  | .hbm, ⟨52, _⟩ => ⟨S_, .i32⟩
  | .hbm, ⟨53, _⟩ => ⟨S_, .f32⟩
  | .hbm, ⟨54, _⟩ => ⟨S4x100352, .f32⟩
  | .hbm, ⟨55, _⟩ => ⟨S_, .f32⟩
  | .hbm, ⟨56, _⟩ => ⟨S4x100000, .f32⟩
  | .hbm, ⟨57, _⟩ => ⟨S_, .i32⟩
  | .hbm, ⟨58, _⟩ => ⟨S_, .f32⟩
  | .hbm, ⟨59, _⟩ => ⟨S4x100352, .f32⟩
  | .hbm, ⟨60, _⟩ => ⟨S4x1x100352, .f32⟩
  | .hbm, ⟨61, _⟩ => ⟨S4x1x100352, .i32⟩
  | .hbm, ⟨62, _⟩ => ⟨S4x1x100352, .i32⟩
  | .hbm, ⟨63, _⟩ => ⟨S4x1x100352, .i32⟩
  | .hbm, ⟨64, _⟩ => ⟨S4x1x100352, .f32⟩
  | .hbm, ⟨65, _⟩ => ⟨S4x1x1, .f32⟩
  | .hbm, ⟨66, _⟩ => ⟨S4x1x1, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .i1⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x4096x128, .bf16⟩
  | .local _ .vmem, ⟨1, _⟩ => ⟨S1x1x1024, .f32⟩
  | .local _ .vmem, ⟨2, _⟩ => ⟨S1x1x1024, .f32⟩
  | .local _ .vmem, ⟨3, _⟩ => ⟨S1x1x1024, .i32⟩
  | .local _ .vmem, ⟨4, _⟩ => ⟨S1x1x1024, .i32⟩
  | .local _ .vmem, ⟨5, _⟩ => ⟨S1x1x1024, .i32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .i32⟩
  | .local _ .vmem, ⟨9, _⟩ => ⟨S1x1x1024, .f32⟩
  | .local _ .vmem, ⟨10, _⟩ => ⟨S1x1x1024, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_c_1 : Ref sig .tc := ⟨.hbm, 43, rfl⟩
abbrev main_call1_v0 : Ref sig .tc := ⟨.hbm, 44, rfl⟩
abbrev main_v16 : Ref sig .tc := ⟨.hbm, 45, rfl⟩
abbrev main_c_2 : Ref sig .tc := ⟨.hbm, 46, rfl⟩
abbrev main_call2_v0 : Ref sig .tc := ⟨.hbm, 47, rfl⟩
abbrev main_v17 : Ref sig .tc := ⟨.hbm, 48, rfl⟩
abbrev main_c_3 : Ref sig .tc := ⟨.hbm, 49, rfl⟩
abbrev main_call3_v0 : Ref sig .tc := ⟨.hbm, 50, rfl⟩
abbrev main_v18 : Ref sig .tc := ⟨.hbm, 51, rfl⟩
abbrev main_c_4 : Ref sig .tc := ⟨.hbm, 52, rfl⟩
abbrev main_call4_v0 : Ref sig .tc := ⟨.hbm, 53, rfl⟩
abbrev main_v19 : Ref sig .tc := ⟨.hbm, 54, rfl⟩
abbrev main_cst : Ref sig .tc := ⟨.hbm, 55, rfl⟩
abbrev main_v20 : Ref sig .tc := ⟨.hbm, 56, rfl⟩
abbrev main_c_5 : Ref sig .tc := ⟨.hbm, 57, rfl⟩
abbrev main_call5_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27_0 : Ref sig .tc := ⟨.hbm, 65, rfl⟩
abbrev main_v27_1 : Ref sig .tc := ⟨.hbm, 66, rfl⟩
abbrev main_v28 : Ref sig .tc := ⟨.hbm, 67, rfl⟩
abbrev main_v29 : Ref sig .tc := ⟨.hbm, 68, rfl⟩
abbrev main_cst_6 : Ref sig .tc := ⟨.hbm, 69, rfl⟩
abbrev main_v30 : Ref sig .tc := ⟨.hbm, 70, rfl⟩
abbrev main_v31 : Ref sig .tc := ⟨.hbm, 71, rfl⟩
abbrev main_cst_7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_8 : Ref sig .tc := ⟨.hbm, 77, rfl⟩
abbrev main_v36 : Ref sig .tc := ⟨.hbm, 78, rfl⟩
abbrev main_cst_9 : Ref sig .tc := ⟨.hbm, 79, rfl⟩
abbrev main_v37 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 98], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S4096x4x128_S4x4096x128_1_0_2 : S4096x4x128.Transposes [1, 0, 2] S4x4096x128
  bitsLt_bf16_f32 : FTy.bits .bf16 < FTy.bits .f32
  slices_S4x100000x3_S4x100000x1_0_0_0 : S4x100000x3.Slices ![0, 0, 0] S4x100000x1
  shapeCasts_S4x100000x1_S4x100000 : S4x100000x1.ShapeCasts S4x100000
  slices_S4x100000x3_S4x100000x1_0_0_1 : S4x100000x3.Slices ![0, 0, 1] S4x100000x1
  slices_S4x100000x3_S4x100000x1_0_0_2 : S4x100000x3.Slices ![0, 0, 2] S4x100000x1
  bcast_S_S4096 : S_.BroadcastsInDim S4096 (![] : Fin 0 → Fin S4096.rank)
  bcast_S4096_S4096x1_0 : S4096.BroadcastsInDim S4096x1 (![0] : Fin 1 → Fin S4096x1.rank)
  bcast_S_S4x100000 : S_.BroadcastsInDim S4x100000 (![] : Fin 0 → Fin S4x100000.rank)
  shapeCasts_S4x100000_S4x100000x1 : S4x100000.ShapeCasts S4x100000x1
  bcast_S_S4x100000x1 : S_.BroadcastsInDim S4x100000x1 (![] : Fin 0 → Fin S4x100000x1.rank)
  bcast_S1_S1x1x1_2 : S1.BroadcastsInDim S1x1x1 (![2] : Fin 1 → Fin S1x1x1.rank)
  bcast_S1x1x1_S4x100000x1_0_1_2 : S1x1x1.BroadcastsInDim S4x100000x1 (![0, 1, 2] : Fin 3 → Fin S4x100000x1.rank)
  reducesTo_S4x100000x1_S4x100000_d2 : S4x100000x1.ReducesTo [2] S4x100000
  h_S_ : 0 < S_.numel
  pads_S4x100000_S4x100352_000_03520 : S4x100000.Pads (![0, 0] : Fin 2 → Nat) ![0, 352] ![0, 0] S4x100352
  bcast_S4x100352_S4x1x100352_0_2 : S4x100352.BroadcastsInDim S4x1x100352 (![0, 2] : Fin 2 → Fin S4x1x100352.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  iota_S1x4096_d1_w32 : S1x4096.Iotas .tc 32 [1]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1024x1 : S1024.ShapeCasts S1024x1
  broadcasts_S1x4096_S1024x4096 : S1x4096.Broadcasts S1024x4096
  broadcasts_S1024x1_S1024x4096 : S1024x1.Broadcasts S1024x4096
  natLt_1_32 : 1 < 32
  reduces_S1024x128_S1024 : S1024x128.Reduces [1] S1024
  reduces_S1024x1_S1 : S1024x1.Reduces [0] S1
  shapeCasts_S1_S1x1 : S1.ShapeCasts S1x1
  shapeCasts_S4x1x1_S4 : S4x1x1.ShapeCasts S4
  bcast_S_S4 : S_.BroadcastsInDim S4 (![] : Fin 0 → Fin S4.rank)
  reducesTo_S4_S_d0 : S4.ReducesTo [0] S_
  gather_S4x100_S4096x1_S4x4096_0_1_n_n_1_1_41_wf : GatherDims.WF S4x100 S4096x1 S4x4096 [0] [1] [] [1] [] 1 ![4, 1]
  gather_S4x4096_S4x100000x1_S4x100000_n_1_0_0_1_2_11_wf : GatherDims.WF S4x4096 S4x100000x1 S4x100000 [] [1] [0] [1] [0] 2 ![1, 1]
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .bf16 = 32 ∨ (Rect.block (s := S4x4096x128) S1x4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x100352.size a
  hwx0_1 : ∀ i : grid0.Coords, EltTy.bits .f32 = 32 ∨ (Rect.block (s := S4x1x100352) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x100352.size a
  hwx0_2 : ∀ i : grid0.Coords, EltTy.bits .i32 = 32 ∨ (Rect.block (s := S4x1x100352) S1x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x100352.size a
  hwx0_3 : ∀ i : grid0.Coords, EltTy.bits .i32 = 32 ∨ (Rect.block (s := S4x1x100352) S1x1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S4x1x100352.size a
  hwx0_4 : ∀ i : grid0.Coords, EltTy.bits .i32 = 32 ∨ (Rect.block (s := S4x1x100352) S1x1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S4x1x100352.size a
  hwx0_5 : ∀ i : grid0.Coords, EltTy.bits .f32 = 32 ∨ (Rect.block (s := S4x1x100352) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S4x1x1.size a
  hwx0_7 : ∀ i : grid0.Coords, EltTy.bits .f32 = 32 ∨ (Rect.block (s := S4x1x1) S1x1x1.size (cc0_transform_7 i) (hinb0_7 i)).WholeWords (EltTy.packing .f32)

variable [Facts₀]

def gather_S4x100_S4096x1_S4x4096_0_1_n_n_1_1_41 : GatherDims S4x100 S4096x1 S4x4096 where
  offsetDims := [0]
  collapsedSliceDims := [1]
  operandBatchingDims := []
  startIndicesBatchingDims := []
  startIndexMap := [1]
  indexVectorDim := 1
  sliceSizes := ![4, 1]
  wf := gather_S4x100_S4096x1_S4x4096_0_1_n_n_1_1_41_wf
def gather_S4x4096_S4x100000x1_S4x100000_n_1_0_0_1_2_11 : GatherDims S4x4096 S4x100000x1 S4x100000 where
  offsetDims := []
  collapsedSliceDims := [1]
  operandBatchingDims := [0]
  startIndicesBatchingDims := [0]
  startIndexMap := [1]
  indexVectorDim := 2
  sliceSizes := ![1, 1]
  wf := gather_S4x4096_S4x100000x1_S4x100000_n_1_0_0_1_2_11_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_v1) S1x4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x4x128 : Shape := ⟨3, ![4096, 4, 128]⟩
abbrev S4096 : Shape := ⟨1, ![4096]⟩
abbrev S4x100000x3 : Shape := ⟨3, ![4, 100000, 3]⟩
abbrev S4x100 : Shape := ⟨2, ![4, 100]⟩
abbrev S4 : Shape := ⟨1, ![4]⟩
abbrev S4x1 : Shape := ⟨2, ![4, 1]⟩
abbrev S4x100000x1 : Shape := ⟨3, ![4, 100000, 1]⟩
abbrev S4x100000 : Shape := ⟨2, ![4, 100000]⟩
abbrev S_ : Shape := ⟨0, ![]⟩
abbrev S4x100000x2 : Shape := ⟨3, ![4, 100000, 2]⟩
abbrev S4x100000x128 : Shape := ⟨3, ![4, 100000, 128]⟩

abbrev nBuf : Space → Nat
  | .hbm => 155
  | .vmem => 0
  | .smem => 0
  | _ => 0

abbrev hbmTy0_0 (i : Nat) : BufTy := match i % 128 with
  | 0 => ⟨S4096x4x128, .f32⟩
  | 1 => ⟨S4096, .i32⟩
  | 2 => ⟨S4x100000x3, .i32⟩
  | 3 => ⟨S4x100, .f32⟩
  | 4 => ⟨S4, .i32⟩
  | 5 => ⟨S4x1, .i32⟩
  | 6 => ⟨S4x100000x1, .i32⟩
  | 7 => ⟨S4x100000, .i32⟩
  | 8 => ⟨S_, .i32⟩
  | 9 => ⟨S4x100000, .i32⟩
  | 10 => ⟨S4x100000, .i1⟩
  | 11 => ⟨S_, .i32⟩
  | 12 => ⟨S4x100000, .i32⟩
  | 13 => ⟨S4x100000, .i32⟩
  | 14 => ⟨S4x100000, .i32⟩
  | 15 => ⟨S_, .i32⟩
  | 16 => ⟨S4x1, .i32⟩
  | 17 => ⟨S4x1, .i1⟩
  | 18 => ⟨S_, .i32⟩
  | 19 => ⟨S4x1, .i32⟩
  | 20 => ⟨S4x1, .i32⟩
  | 21 => ⟨S4x1, .i32⟩
  | 22 => ⟨S4x100000, .i32⟩
  | 23 => ⟨S4x100000x1, .i32⟩
  | 24 => ⟨S4x100000x1, .i32⟩
  | 25 => ⟨S4x100000x2, .i32⟩
  | 26 => ⟨S4x100000x128, .f32⟩
  | 27 => ⟨S4x100000x1, .i32⟩
  | 28 => ⟨S4x100000, .i32⟩
  | 29 => ⟨S_, .i32⟩
  | 30 => ⟨S4x100000, .i32⟩
  | 31 => ⟨S4x100000, .i1⟩
  | 32 => ⟨S_, .i32⟩
  | 33 => ⟨S4x100000, .i32⟩
  | 34 => ⟨S4x100000, .i32⟩
  | 35 => ⟨S4x100000, .i32⟩
  | 36 => ⟨S_, .i32⟩
  | 37 => ⟨S4x1, .i32⟩
  | 38 => ⟨S4x1, .i1⟩
  | 39 => ⟨S_, .i32⟩
  | 40 => ⟨S4x1, .i32⟩
  | 41 => ⟨S4x1, .i32⟩
  | 42 => ⟨S4x1, .i32⟩
  | 43 => ⟨S4x100000, .i32⟩
  | 44 => ⟨S4x100000x1, .i32⟩
  | 45 => ⟨S4x100000x1, .i32⟩
  | 46 => ⟨S4x100000x2, .i32⟩
  | 47 => ⟨S4x100000x128, .f32⟩
  | 48 => ⟨S4x100000x1, .i32⟩
  | 49 => ⟨S4x100000, .i32⟩
  | 50 => ⟨S_, .i32⟩
  | 51 => ⟨S4x100000, .i32⟩
  | 52 => ⟨S4x100000, .i1⟩
  | 53 => ⟨S_, .i32⟩
  | 54 => ⟨S4x100000, .i32⟩
  | 55 => ⟨S4x100000, .i32⟩
  | 56 => ⟨S4x100000, .i32⟩
  | 57 => ⟨S_, .i32⟩
  | 58 => ⟨S4x1, .i32⟩
  | 59 => ⟨S4x1, .i1⟩
  | 60 => ⟨S_, .i32⟩
  | 61 => ⟨S4x1, .i32⟩
  | 62 => ⟨S4x1, .i32⟩
  | 63 => ⟨S4x1, .i32⟩
  | 64 => ⟨S4x100000, .i32⟩
  | 65 => ⟨S4x100000x1, .i32⟩
  | 66 => ⟨S4x100000x1, .i32⟩
  | 67 => ⟨S4x100000x2, .i32⟩
  | 68 => ⟨S4x100000x128, .f32⟩
  | 69 => ⟨S4x100000x128, .f32⟩
  | 70 => ⟨S4x100000x128, .f32⟩
  | 71 => ⟨S_, .f32⟩
  | 72 => ⟨S4x100000, .f32⟩
  | 73 => ⟨S_, .f32⟩
  | 74 => ⟨S4x100000, .f32⟩
  | 75 => ⟨S4x100000, .f32⟩
  | 76 => ⟨S4x100000, .f32⟩
  | 77 => ⟨S4x100000x128, .f32⟩
  | 78 => ⟨S4x100000x128, .f32⟩
  | 79 => ⟨S_, .f32⟩
  | 80 => ⟨S4x100000, .f32⟩
  | 81 => ⟨S_, .f32⟩
  | 82 => ⟨S4x100000, .f32⟩
  | 83 => ⟨S4x100000, .f32⟩
  | 84 => ⟨S4x100000, .f32⟩
  | 85 => ⟨S4x100000x1, .i32⟩
  | 86 => ⟨S4x100000, .i32⟩
  | 87 => ⟨S_, .i32⟩
  | 88 => ⟨S4x100000, .i32⟩
  | 89 => ⟨S4x100000, .i1⟩
  | 90 => ⟨S_, .i32⟩
  | 91 => ⟨S4x100000, .i32⟩
  | 92 => ⟨S4x100000, .i32⟩
  | 93 => ⟨S4x100000, .i32⟩
  | 94 => ⟨S4x100000x1, .i32⟩
  | 95 => ⟨S4x100000, .i32⟩
  | 96 => ⟨S_, .i32⟩
  | 97 => ⟨S4x1, .i32⟩
  | 98 => ⟨S4x1, .i1⟩
  | 99 => ⟨S_, .i32⟩
  | 100 => ⟨S4x1, .i32⟩
  | 101 => ⟨S4x1, .i32⟩
  | 102 => ⟨S4x1, .i32⟩
  | 103 => ⟨S_, .i32⟩
  | 104 => ⟨S4x100000, .i32⟩
  | 105 => ⟨S4x100000, .i1⟩
  | 106 => ⟨S_, .i32⟩
  | 107 => ⟨S4x100000, .i32⟩
  | 108 => ⟨S4x100000, .i32⟩
  | 109 => ⟨S4x100000, .i32⟩
  | 110 => ⟨S4x100000, .i32⟩
  | 111 => ⟨S4x100000x1, .i32⟩
  | 112 => ⟨S4x100000x1, .i32⟩
  | 113 => ⟨S4x100000x2, .i32⟩
  | 114 => ⟨S4x100000, .f32⟩
  | 115 => ⟨S4x100000, .f32⟩
  | 116 => ⟨S_, .f32⟩
  | 117 => ⟨S4x100000, .f32⟩
  | 118 => ⟨S4x100000, .f32⟩
  | 119 => ⟨S_, .f32⟩
  | 120 => ⟨S4x100000, .f32⟩
  | 121 => ⟨S4x100000, .f32⟩
  | 122 => ⟨S4x100000, .f32⟩
  | 123 => ⟨S_, .f32⟩
  | 124 => ⟨S4x100000, .f32⟩
  | 125 => ⟨S4x100000, .f32⟩
  | 126 => ⟨S_, .f32⟩
  | 127 => ⟨S4x100000, .f32⟩
  | _ => ⟨S4096x4x128, .f32⟩

abbrev hbmTy0_1 (i : Nat) : BufTy := match i % 128 with
  | 0 => ⟨S4x100000, .f32⟩
  | 1 => ⟨S_, .f32⟩
  | 2 => ⟨S4x100000, .f32⟩
  | 3 => ⟨S4x100000, .i1⟩
  | 4 => ⟨S_, .f32⟩
  | 5 => ⟨S4x100000, .f32⟩
  | 6 => ⟨S4x100000, .i1⟩
  | 7 => ⟨S4x100000, .i1⟩
  | 8 => ⟨S4x100000, .i32⟩
  | 9 => ⟨S_, .i32⟩
  | 10 => ⟨S4, .i32⟩
  | 11 => ⟨S4, .f32⟩
  | 12 => ⟨S4x100000, .f32⟩
  | 13 => ⟨S_, .f32⟩
  | 14 => ⟨S4, .f32⟩
  | 15 => ⟨S_, .f32⟩
  | 16 => ⟨S4, .f32⟩
  | 17 => ⟨S4, .i1⟩
  | 18 => ⟨S_, .f32⟩
  | 19 => ⟨S4, .f32⟩
  | 20 => ⟨S4, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | _ => ⟨S4096x4x128, .f32⟩

abbrev hbmTy (i : Nat) : BufTy := match i / 128 with
  | 0 => hbmTy0_0 i
  | 1 => hbmTy0_1 i
  | _ => ⟨S4096x4x128, .f32⟩

abbrev bufTy : (tb : Table) → Fin (tcTables nBuf tb) → BufTy
  | .hbm, ⟨i, _⟩ => hbmTy i
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_c_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_c_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_c_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_18 : Ref sig .tc := ⟨.hbm, 103, rfl⟩
abbrev main_v79 : Ref sig .tc := ⟨.hbm, 104, rfl⟩
abbrev main_v80 : Ref sig .tc := ⟨.hbm, 105, rfl⟩
abbrev main_c_19 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_call0_cst : Ref sig .tc := ⟨.hbm, 119, rfl⟩
abbrev main_call0_v0 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_call1_cst : Ref sig .tc := ⟨.hbm, 126, rfl⟩
abbrev main_call1_v0 : Ref sig .tc := ⟨.hbm, 127, rfl⟩
abbrev main_v96 : Ref sig .tc := ⟨.hbm, 128, rfl⟩
abbrev main_cst_22 : Ref sig .tc := ⟨.hbm, 129, rfl⟩
abbrev main_v97 : Ref sig .tc := ⟨.hbm, 130, rfl⟩
abbrev main_v98 : Ref sig .tc := ⟨.hbm, 131, rfl⟩
abbrev main_cst_23 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_24 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_25 : Ref sig .tc := ⟨.hbm, 141, rfl⟩
abbrev main_v106 : Ref sig .tc := ⟨.hbm, 142, rfl⟩
abbrev main_cst_26 : Ref sig .tc := ⟨.hbm, 143, rfl⟩
abbrev main_v107 : Ref sig .tc := ⟨.hbm, 144, rfl⟩
abbrev main_v108 : Ref sig .tc := ⟨.hbm, 145, rfl⟩
abbrev main_cst_27 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_28 : Ref sig .tc := ⟨.hbm, 151, rfl⟩
abbrev main_v113 : Ref sig .tc := ⟨.hbm, 152, rfl⟩
abbrev main_cst_29 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  slices_S4x100000x3_S4x100000x1_0_0_0 : S4x100000x3.Slices ![0, 0, 0] S4x100000x1
  shapeCasts_S4x100000x1_S4x100000 : S4x100000x1.ShapeCasts S4x100000
  bcast_S_S4x100000 : S_.BroadcastsInDim S4x100000 (![] : Fin 0 → Fin S4x100000.rank)
  bcast_S_S4x1 : S_.BroadcastsInDim S4x1 (![] : Fin 0 → Fin S4x1.rank)
  bcast_S4x1_S4x100000_0_1 : S4x1.BroadcastsInDim S4x100000 (![0, 1] : Fin 2 → Fin S4x100000.rank)
  bcast_S4x100000_S4x100000x1_0_1 : S4x100000.BroadcastsInDim S4x100000x1 (![0, 1] : Fin 2 → Fin S4x100000x1.rank)
  concatenates_S4x100000x1_S4x100000x1_S4x100000x2_d2 : Shape.Concatenates [S4x100000x1, S4x100000x1] S4x100000x2 2
  slices_S4x100000x3_S4x100000x1_0_0_1 : S4x100000x3.Slices ![0, 0, 1] S4x100000x1
  slices_S4x100000x3_S4x100000x1_0_0_2 : S4x100000x3.Slices ![0, 0, 2] S4x100000x1
  reducesTo_S4x100000x128_S4x100000_d2 : S4x100000x128.ReducesTo [2] S4x100000
  h_S_ : 0 < S_.numel
  natLt_1_32 : 1 < 32
  reducesTo_S4x100000_S4_d1 : S4x100000.ReducesTo [1] S4
  bcast_S_S4 : S_.BroadcastsInDim S4 (![] : Fin 0 → Fin S4.rank)
  reducesTo_S4_S_d0 : S4.ReducesTo [0] S_
  gather_S4096x4x128_S4x100000x2_S4x100000x128_2_01_n_n_01_2_11128_wf : GatherDims.WF S4096x4x128 S4x100000x2 S4x100000x128 [2] [0, 1] [] [0, 1] [] 2 ![1, 1, 128]
  gather_S4096_S4x100000x1_S4x100000_n_0_n_n_0_2_1_wf : GatherDims.WF S4096 S4x100000x1 S4x100000 [] [0] [] [0] [] 2 ![1]
  gather_S4x100_S4x100000x2_S4x100000_n_01_n_n_01_2_11_wf : GatherDims.WF S4x100 S4x100000x2 S4x100000 [] [0, 1] [] [0, 1] [] 2 ![1, 1]

variable [Facts₀]

def gather_S4096x4x128_S4x100000x2_S4x100000x128_2_01_n_n_01_2_11128 : GatherDims S4096x4x128 S4x100000x2 S4x100000x128 where
  offsetDims := [2]
  collapsedSliceDims := [0, 1]
  operandBatchingDims := []
  startIndicesBatchingDims := []
  startIndexMap := [0, 1]
  indexVectorDim := 2
  sliceSizes := ![1, 1, 128]
  wf := gather_S4096x4x128_S4x100000x2_S4x100000x128_2_01_n_n_01_2_11128_wf
def gather_S4096_S4x100000x1_S4x100000_n_0_n_n_0_2_1 : GatherDims S4096 S4x100000x1 S4x100000 where
  offsetDims := []
  collapsedSliceDims := [0]
  operandBatchingDims := []
  startIndicesBatchingDims := []
  startIndexMap := [0]
  indexVectorDim := 2
  sliceSizes := ![1]
  wf := gather_S4096_S4x100000x1_S4x100000_n_0_n_n_0_2_1_wf
def gather_S4x100_S4x100000x2_S4x100000_n_01_n_n_01_2_11 : GatherDims S4x100 S4x100000x2 S4x100000 where
  offsetDims := []
  collapsedSliceDims := [0, 1]
  operandBatchingDims := []
  startIndicesBatchingDims := []
  startIndexMap := [0, 1]
  indexVectorDim := 2
  sliceSizes := ![1, 1]
  wf := gather_S4x100_S4x100000x2_S4x100000_n_01_n_n_01_2_11_wf

class Facts : Prop extends Facts₀ where

variable [Facts]
-- ==== Proof.Spec.lean ====
/-
  The margin loss over triplets, as plain functions on the extended reals.

  A triplet (anchor, positive, negative) of rows of 128 entries and a per-triplet threshold b give two hinge terms:
  the positive term max(‖a − p‖ε − b + margin, 0) and the negative term max(b − ‖a − n‖ε + margin, 0), where
  ‖u − v‖ε is the root of the sum of squared differences plus a small guard. For each of four groups the terms are
  summed over all triplets of the group and the triplets with a positive term are counted; a group's loss is the
  sum divided by the count (the sum itself when nothing is counted); the result is the mean of the four losses.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Margin

open Idealize.ShloMosaic

/-- The guard added under the root. -/
abbrev epsE : EReal := Ideal.ofBits .f32 0x322BCC77#32
/-- The margin. -/
abbrev mgE : EReal := Ideal.ofBits .f32 0x3E4CCCCD#32
/-- One, as the float pattern spells it. -/
abbrev oneE : EReal := Ideal.ofBits .f32 0x3F800000#32
/-- Four, as the float pattern spells it. -/
abbrev fourE : EReal := Ideal.ofBits .f32 0x40800000#32

/-- The guarded distance of two rows: the root of the sum of squared differences plus the guard. -/
def dist (u v : Fin 128 → EReal) : EReal :=
  Ideal.sqrt ((∑ d : Fin 128, (u d - v d) * (u d - v d)) + epsE)

/-- The positive hinge term of a triplet with threshold `b`. -/
def posL (u v : Fin 128 → EReal) (b : EReal) : EReal := max (dist u v - b + mgE) 0

/-- The negative hinge term of a triplet with threshold `b`. -/
def negL (u w : Fin 128 → EReal) (b : EReal) : EReal := max (b - dist u w + mgE) 0

/-- A triplet is counted when one of its two terms is positive. -/
def counted (p n : EReal) : Prop := 0 < p ∨ 0 < n

instance (p n : EReal) : Decidable (counted p n) := by unfold counted; infer_instance

/-! ## The inputs: a table of rows, labels of the rows, triplets of row numbers, thresholds per (group, label) -/

open Idealize.ShloMosaic.ValueIdx

/-- A 32-bit word read signed and clamped into [0, 4095]: the row it names. -/
def rowIx (w : BitVec 32) : Fin 4096 := ⟨min w.toInt.toNat (4096 - 1), by omega⟩

/-- A 32-bit word read signed and clamped into [0, 99]: the label column it names. -/
def colIx (w : BitVec 32) : Fin 100 := ⟨min w.toInt.toNat (100 - 1), by omega⟩

/-- A label word with a negative value counted from the end of the 100 labels. -/
def normLabel (w : BitVec 32) : BitVec 32 :=
  Scalar.select (IntOp.cmpi .slt w 0#32) (IntOp.addi w 100#32) w

section
variable (X : (⟨3, ![4096, 4, 128]⟩ : Shape).Idx → EReal) (L : (⟨1, ![4096]⟩ : Shape).Idx → BitVec 32)
  (Tr : (⟨3, ![4, 100000, 3]⟩ : Shape).Idx → BitVec 32) (B : (⟨2, ![4, 100]⟩ : Shape).Idx → EReal)

/-- Row `n` of group `k`. -/
def rowOf (n : Fin 4096) (k : Fin 4) : Fin 128 → EReal := fun d => X (ix3 n k d)

/-- The row that member `j` (anchor 0, positive 1, negative 2) of triplet `t` of group `k` names. -/
def memIx (k : Fin 4) (t : Fin 100000) (j : Fin 3) : Fin 4096 := rowIx (Tr (ix3 k t j))

/-- The threshold of triplet `t` of group `k`: the group's threshold at the label of the anchor's row. -/
def thr (k : Fin 4) (t : Fin 100000) : EReal := B (ix2 k (colIx (normLabel (L (ix1 (memIx Tr k t 0))))))

/-- The positive term of triplet `t` of group `k`. -/
def posT (k : Fin 4) (t : Fin 100000) : EReal :=
  posL (rowOf X (memIx Tr k t 0) k) (rowOf X (memIx Tr k t 1) k) (thr L Tr B k t)

/-- The negative term of triplet `t` of group `k`. -/
def negT (k : Fin 4) (t : Fin 100000) : EReal :=
  negL (rowOf X (memIx Tr k t 0) k) (rowOf X (memIx Tr k t 2) k) (thr L Tr B k t)

/-- The terms of group `k` summed over its triplets. -/
def totalOf (k : Fin 4) : EReal := ∑ t : Fin 100000, (posT X L Tr B k t + negT X L Tr B k t)

/-- The number of counted triplets of group `k`, as a real number. -/
def countOf (k : Fin 4) : EReal :=
  (((Finset.univ.filter fun t : Fin 100000 => counted (posT X L Tr B k t) (negT X L Tr B k t)).card : ℝ) : EReal)

end

/-- A group's loss from its summed terms and its count: the sum when nothing is counted, else sum / max(count, 1). -/
def lossK (tot cnt : EReal) : EReal :=
  if cnt = 0 then tot else Ideal.div tot (max cnt oneE)

/-- The mean of the four groups' losses. -/
def result (tot cnt : Fin 4 → EReal) : EReal :=
  Ideal.div (∑ k : Fin 4, lossK (tot k) (cnt k)) fourE

/-- The margin loss of the inputs. -/
def loss (X : (⟨3, ![4096, 4, 128]⟩ : Shape).Idx → EReal) (L : (⟨1, ![4096]⟩ : Shape).Idx → BitVec 32)
    (Tr : (⟨3, ![4, 100000, 3]⟩ : Shape).Idx → BitVec 32) (B : (⟨2, ![4, 100]⟩ : Shape).Idx → EReal) : EReal :=
  result (totalOf X L Tr B) (countOf X L Tr B)

/-- Every triplet entry names a row: read unsigned it is below 4096. -/
def InRange (Tr : (⟨3, ![4, 100000, 3]⟩ : Shape).Idx → BitVec 32) : Prop := ∀ i, (Tr i).toNat < 4096

/-- An in-range word names the row of its own value. -/
theorem rowIx_of_lt {w : BitVec 32} (h : w.toNat < 4096) : rowIx w = ⟨w.toNat, h⟩ := by
  apply Fin.ext
  show min w.toInt.toNat (4096 - 1) = w.toNat
  rw [StableHlo.Predicate.toInt_eq_toNat_of_lt (by omega), Int.toNat_natCast]
  omega

end Cert.Margin

end
-- ==== Proof.PreDecode.lean ====
/-
  The precondition read back. The printed precondition is the conjunction of three whole-array tests: every entry of
  the table finite, every threshold finite, and every triplet entry at least 0 and below 4096 as a signed word. From
  its being all ones follows the one fact the value proof uses: every triplet entry, read unsigned, is below 4096.
-/
import proofs.«402186_j57732950393273_3_alg».proof.Pre_finite_inputs
import Idealize.ShloMosaic.Lib.ReduceAll
import Idealize.ShloMosaic.Lib.StableHlo.Predicate
import Idealize.ShloMosaic.Lib.ValueIdx

noncomputable section

namespace Cert.Margin.PreDecode

open Idealize.ShloMosaic Idealize.ShloMosaic.ValueIdx Cert.Pre_finite_inputs

variable [Cert.Pre_finite_inputs.Facts] {F : FTy → Type} [FloatOps F]

/-- A signed word at least 0 and below 4096 is, read unsigned, below 4096. -/
private theorem toNat_lt_of_signed (w : BitVec 32) (h0 : IntOp.cmpi .sge w (0#32) = 1#1)
    (h1 : IntOp.cmpi .slt w (4096#32) = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := w.isLt
  rw [BitVec.toInt_eq_toNat_cond] at h0 h1
  split at h0 <;> omega

/-- The precondition all ones: every triplet entry read unsigned is below 4096. -/
theorem inRange_of_pre (a0 : FVec F S4096x4x128 .f32) (a1 : IVec S4096 32) (a2 : IVec S4x100000x3 32)
    (a3 : FVec F S4x100 .f32) (h : Cert.Pre_finite_inputs.fn (F := F) a0 a1 a2 a3 = fun _ => 1#1) :
    ∀ i : S4x100000x3.Idx, (a2 i).toNat < 4096 := by
  intro i
  -- the whole-array conjunction at its one index: its last conjunct, the test of the triplets, is one
  have h0 := congrFun h (fun d => d.elim0)
  unfold Cert.Pre_finite_inputs.fn at h0
  have h14 := (IntOp.andi_eq_one.1 h0).2
  -- a conjunction over all entries that is one is one at every entry
  haveI : Subsingleton S_.Idx := ⟨fun a b => funext fun d => d.elim0⟩
  have hi := Host.reduce_andi_all _ _ _ _ _ h14 i
  -- at entry i both compares, against the constants 0 and 4096, are one
  obtain ⟨hge, hlt⟩ := IntOp.andi_eq_one.1 hi
  exact toNat_lt_of_signed (a2 i) hge hlt

end Cert.Margin.PreDecode

end
-- ==== Proof.Gathers.lean ====
/-
  Host gathers read at an index. Four arrangements of `stablehlo.gather` whose every start-indexed operand axis is
  collapsed (slice size 1): the result element reads the operand at the start indices it names, each read signed and
  clamped into its axis; an operand axis that is not start-indexed is read at the result's own coordinate.
-/
import Idealize.ShloMosaic.Lib.StableHlo.Predicate
import Idealize.ShloMosaic.Lib.ValueIdx

namespace Cert.Margin.Gathers

open Idealize.ShloMosaic Idealize.ShloMosaic.ValueIdx

/-- A word read signed and clamped into [0, N − 1]. -/
def clampIdx (N : Nat) (hN : 0 < N) {w : Nat} (b : BitVec w) : Fin N := ⟨min b.toInt.toNat (N - 1), by omega⟩

/-- A 32-bit word whose unsigned value is already an index below N ≤ 2³¹ is not moved by the clamp. -/
theorem clampIdx_of_lt {N : Nat} (hN : 0 < N) (b : BitVec 32) (h : b.toNat < N) (h31 : N ≤ 2 ^ 31) :
    clampIdx N hN b = ⟨b.toNat, h⟩ := by
  refine Fin.ext ?_
  show min b.toInt.toNat (N - 1) = b.toNat
  rw [StableHlo.Predicate.toInt_eq_toNat_of_lt (by omega), Int.toNat_natCast]
  omega

/-! ## Columns of a [K × C] table picked by an [n × 1] column of indices -/

/-- Operand [K, C], start indices [n, 1], result [K, n]: axis 0 whole (the result's offset axis 0), axis 1 collapsed
    and start-indexed, the index vector on axis 1. -/
abbrev colsDims (K C n : Nat) (wf : GatherDims.WF ⟨2, ![K, C]⟩ ⟨2, ![n, 1]⟩ ⟨2, ![K, n]⟩ [0] [1] [] [1] [] 1 ![K, 1]) :
    GatherDims ⟨2, ![K, C]⟩ ⟨2, ![n, 1]⟩ ⟨2, ![K, n]⟩ where
  offsetDims := [0]
  collapsedSliceDims := [1]
  operandBatchingDims := []
  startIndicesBatchingDims := []
  startIndexMap := [1]
  indexVectorDim := 1
  sliceSizes := ![K, 1]
  wf := wf

theorem gather_cols_apply {α : Type} {K C n w : Nat} (hC : 0 < C)
    (wf : GatherDims.WF ⟨2, ![K, C]⟩ ⟨2, ![n, 1]⟩ ⟨2, ![K, n]⟩ [0] [1] [] [1] [] 1 ![K, 1])
    (x : (⟨2, ![K, C]⟩ : Shape).Idx → α) (idx : IVec ⟨2, ![n, 1]⟩ w) (k : Fin K) (e : Fin n) :
    Host.gather (colsDims K C n wf) x idx (ix2 k e) = x (ix2 k (clampIdx C hC (idx (ix2 e 0)))) := by
  unfold Host.gather
  congr 1
  funext a
  refine Fin.ext ?_
  match a with
  | ⟨0, _⟩ =>
    show (colsDims K C n wf).start (ix2 k e) idx 0 + (colsDims K C n wf).batchCoord (ix2 k e) 0
      + (colsDims K C n wf).offCoord (ix2 k e) 0 = k.val
    rw [GatherDims.batchCoord_eq_zero _ _ _ List.not_mem_nil]
    unfold GatherDims.start
    rw [dif_neg (show (0 : Fin 2) ∉ (colsDims K C n wf).startIndexMap from (by decide : (0 : Fin 2) ∉ ([1] : List (Fin 2))))]
    unfold GatherDims.offCoord
    rw [dif_pos (show (0 : Fin 2) ∈ (colsDims K C n wf).sKept from (GatherDims.mem_sKept _ _).mpr ⟨(by decide : (0 : Fin 2) ∉ ([1] : List (Fin 2))), List.not_mem_nil⟩)]
    simp only [Nat.zero_add, Nat.add_zero]
    rfl
  | ⟨1, _⟩ =>
    show (colsDims K C n wf).start (ix2 k e) idx 1 + (colsDims K C n wf).batchCoord (ix2 k e) 1
      + (colsDims K C n wf).offCoord (ix2 k e) 1 = (clampIdx C hC (idx (ix2 e 0))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims K C n wf).startIndexMap from List.mem_singleton.mpr rfl)]
    have hsi : (colsDims K C n wf).siIdx (ix2 k e) ⟨List.idxOf (1 : Fin 2) (colsDims K C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## One entry per (row, position) along the last axis of a [K × N] table -/

/-- Operand [K, N], start indices [K, T, 1], result [K, T]: axis 0 a batching axis paired with the start indices'
    axis 0, axis 1 collapsed and start-indexed, the index vector on axis 2. -/
abbrev alongDims (K N T : Nat) (wf : GatherDims.WF ⟨2, ![K, N]⟩ ⟨3, ![K, T, 1]⟩ ⟨2, ![K, T]⟩ [] [1] [0] [1] [0] 2 ![1, 1]) :
    GatherDims ⟨2, ![K, N]⟩ ⟨3, ![K, T, 1]⟩ ⟨2, ![K, T]⟩ where
  offsetDims := []
  collapsedSliceDims := [1]
  operandBatchingDims := [0]
  startIndicesBatchingDims := [0]
  startIndexMap := [1]
  indexVectorDim := 2
  sliceSizes := ![1, 1]
  wf := wf

theorem gather_along_apply {α : Type} {K N T w : Nat} (hN : 0 < N)
    (wf : GatherDims.WF ⟨2, ![K, N]⟩ ⟨3, ![K, T, 1]⟩ ⟨2, ![K, T]⟩ [] [1] [0] [1] [0] 2 ![1, 1])
    (x : (⟨2, ![K, N]⟩ : Shape).Idx → α) (idx : IVec ⟨3, ![K, T, 1]⟩ w) (k : Fin K) (t : Fin T) :
    Host.gather (alongDims K N T wf) x idx (ix2 k t) = x (ix2 k (clampIdx N hN (idx (ix3 k t 0)))) := by
  unfold Host.gather
  congr 1
  funext a
  refine Fin.ext ?_
  match a with
  | ⟨0, _⟩ =>
    show (alongDims K N T wf).start (ix2 k t) idx 0 + (alongDims K N T wf).batchCoord (ix2 k t) 0
      + (alongDims K N T wf).offCoord (ix2 k t) 0 = k.val
    have hb : (0 : Fin 2) ∈ (alongDims K N T wf).operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show (alongDims K N T wf).start (ix2 k t) idx 1 + (alongDims K N T wf).batchCoord (ix2 k t) 1
      + (alongDims K N T wf).offCoord (ix2 k t) 1 = (clampIdx N hN (idx (ix3 k t 0))).val
    rw [GatherDims.batchCoord_eq_zero _ _ _ (show (1 : Fin 2) ∉ (alongDims K N T wf).operandBatchingDims from
        (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims K N T wf).startIndexMap from List.mem_singleton.mpr rfl)]
    have hsi : (alongDims K N T wf).siIdx (ix2 k t) ⟨List.idxOf (1 : Fin 2) (alongDims K N T wf).startIndexMap,
        List.idxOf_lt_length_iff.2 (List.mem_singleton.mpr rfl)⟩ = ix3 k t 0 := by
      funext b; refine Fin.ext ?_
      match b with
      | ⟨0, _⟩ => rfl
      | ⟨1, _⟩ => rfl
      | ⟨2, _⟩ => rfl
    rw [hsi]
    rfl

/-! ## Rows of an [N × K × D] table picked by pairs (row, group) -/

/-- Operand [N, K, D], start indices [K', T, 2], result [K', T, D]: axes 0 and 1 collapsed and start-indexed by the
    pair, axis 2 whole (the result's offset axis 2), the index vector on axis 2. -/
abbrev rowsDims (N K D K' T : Nat)
    (wf : GatherDims.WF ⟨3, ![N, K, D]⟩ ⟨3, ![K', T, 2]⟩ ⟨3, ![K', T, D]⟩ [2] [0, 1] [] [0, 1] [] 2 ![1, 1, D]) :
    GatherDims ⟨3, ![N, K, D]⟩ ⟨3, ![K', T, 2]⟩ ⟨3, ![K', T, D]⟩ where
  offsetDims := [2]
  collapsedSliceDims := [0, 1]
  operandBatchingDims := []
  startIndicesBatchingDims := []
  startIndexMap := [0, 1]
  indexVectorDim := 2
  sliceSizes := ![1, 1, D]
  wf := wf

theorem gather_rows_apply {α : Type} {N K D K' T w : Nat} (hN : 0 < N) (hK : 0 < K)
    (wf : GatherDims.WF ⟨3, ![N, K, D]⟩ ⟨3, ![K', T, 2]⟩ ⟨3, ![K', T, D]⟩ [2] [0, 1] [] [0, 1] [] 2 ![1, 1, D])
    (x : (⟨3, ![N, K, D]⟩ : Shape).Idx → α) (idx : IVec ⟨3, ![K', T, 2]⟩ w) (k : Fin K') (t : Fin T) (e : Fin D) :
    Host.gather (rowsDims N K D K' T wf) x idx (ix3 k t e)
      = x (ix3 (clampIdx N hN (idx (ix3 k t 0))) (clampIdx K hK (idx (ix3 k t 1))) e) := by
  unfold Host.gather
  congr 1
  funext a
  refine Fin.ext ?_
  have h0 : (0 : Fin 3) ∈ ([0, 1] : List (Fin 3)) := by decide
  have h1 : (1 : Fin 3) ∈ ([0, 1] : List (Fin 3)) := by decide
  have h2 : (2 : Fin 3) ∉ ([0, 1] : List (Fin 3)) := by decide
  match a with
  | ⟨0, _⟩ =>
    show (rowsDims N K D K' T wf).start (ix3 k t e) idx 0 + (rowsDims N K D K' T wf).batchCoord (ix3 k t e) 0
      + (rowsDims N K D K' T wf).offCoord (ix3 k t e) 0 = (clampIdx N hN (idx (ix3 k t 0))).val
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 3) ∈ (rowsDims N K D K' T wf).startIndexMap from h0)]
    have hsi : (rowsDims N K D K' T wf).siIdx (ix3 k t e) ⟨List.idxOf (0 : Fin 3) (rowsDims N K D K' T wf).startIndexMap,
        List.idxOf_lt_length_iff.2 h0⟩ = ix3 k t 0 := by
      funext b; refine Fin.ext ?_
      match b with
      | ⟨0, _⟩ => rfl
      | ⟨1, _⟩ => rfl
      | ⟨2, _⟩ => rfl
    rw [hsi]
    rfl
  | ⟨1, _⟩ =>
    show (rowsDims N K D K' T wf).start (ix3 k t e) idx 1 + (rowsDims N K D K' T wf).batchCoord (ix3 k t e) 1
      + (rowsDims N K D K' T wf).offCoord (ix3 k t e) 1 = (clampIdx K hK (idx (ix3 k t 1))).val
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 3) ∈ (rowsDims N K D K' T wf).startIndexMap from h1)]
    have hsi : (rowsDims N K D K' T wf).siIdx (ix3 k t e) ⟨List.idxOf (1 : Fin 3) (rowsDims N K D K' T wf).startIndexMap,
        List.idxOf_lt_length_iff.2 h1⟩ = ix3 k t 1 := by
      funext b; refine Fin.ext ?_
      match b with
      | ⟨0, _⟩ => rfl
      | ⟨1, _⟩ => rfl
      | ⟨2, _⟩ => rfl
    rw [hsi]
    rfl
  | ⟨2, _⟩ =>
    show (rowsDims N K D K' T wf).start (ix3 k t e) idx 2 + (rowsDims N K D K' T wf).batchCoord (ix3 k t e) 2
      + (rowsDims N K D K' T wf).offCoord (ix3 k t e) 2 = e.val
    rw [GatherDims.batchCoord_eq_zero _ _ _ List.not_mem_nil]
    unfold GatherDims.start
    rw [dif_neg (show (2 : Fin 3) ∉ (rowsDims N K D K' T wf).startIndexMap from h2)]
    unfold GatherDims.offCoord
    rw [dif_pos (show (2 : Fin 3) ∈ (rowsDims N K D K' T wf).sKept from
      (GatherDims.mem_sKept _ _).mpr ⟨h2, List.not_mem_nil⟩)]
    simp only [Nat.zero_add, Nat.add_zero]
    rfl

/-! ## Entries of a [K × C] table picked by pairs (group, column) -/

/-- Operand [K, C], start indices [K', T, 2], result [K', T]: both axes collapsed and start-indexed by the pair, the
    index vector on axis 2. -/
abbrev pairDims (K C K' T : Nat)
    (wf : GatherDims.WF ⟨2, ![K, C]⟩ ⟨3, ![K', T, 2]⟩ ⟨2, ![K', T]⟩ [] [0, 1] [] [0, 1] [] 2 ![1, 1]) :
    GatherDims ⟨2, ![K, C]⟩ ⟨3, ![K', T, 2]⟩ ⟨2, ![K', T]⟩ where
  offsetDims := []
  collapsedSliceDims := [0, 1]
  operandBatchingDims := []
  startIndicesBatchingDims := []
  startIndexMap := [0, 1]
  indexVectorDim := 2
  sliceSizes := ![1, 1]
  wf := wf

theorem gather_pair_apply {α : Type} {K C K' T w : Nat} (hK : 0 < K) (hC : 0 < C)
    (wf : GatherDims.WF ⟨2, ![K, C]⟩ ⟨3, ![K', T, 2]⟩ ⟨2, ![K', T]⟩ [] [0, 1] [] [0, 1] [] 2 ![1, 1])
    (x : (⟨2, ![K, C]⟩ : Shape).Idx → α) (idx : IVec ⟨3, ![K', T, 2]⟩ w) (k : Fin K') (t : Fin T) :
    Host.gather (pairDims K C K' T wf) x idx (ix2 k t)
      = x (ix2 (clampIdx K hK (idx (ix3 k t 0))) (clampIdx C hC (idx (ix3 k t 1)))) := by
  unfold Host.gather
  congr 1
  funext a
  refine Fin.ext ?_
  have h0 : (0 : Fin 2) ∈ ([0, 1] : List (Fin 2)) := by decide
  have h1 : (1 : Fin 2) ∈ ([0, 1] : List (Fin 2)) := by decide
  match a with
  | ⟨0, _⟩ =>
    show (pairDims K C K' T wf).start (ix2 k t) idx 0 + (pairDims K C K' T wf).batchCoord (ix2 k t) 0
      + (pairDims K C K' T wf).offCoord (ix2 k t) 0 = (clampIdx K hK (idx (ix3 k t 0))).val
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 2) ∈ (pairDims K C K' T wf).startIndexMap from h0)]
    have hsi : (pairDims K C K' T wf).siIdx (ix2 k t) ⟨List.idxOf (0 : Fin 2) (pairDims K C K' T wf).startIndexMap,
        List.idxOf_lt_length_iff.2 h0⟩ = ix3 k t 0 := by
      funext b; refine Fin.ext ?_
      match b with
      | ⟨0, _⟩ => rfl
      | ⟨1, _⟩ => rfl
      | ⟨2, _⟩ => rfl
    rw [hsi]
    rfl
  | ⟨1, _⟩ =>
    show (pairDims K C K' T wf).start (ix2 k t) idx 1 + (pairDims K C K' T wf).batchCoord (ix2 k t) 1
      + (pairDims K C K' T wf).offCoord (ix2 k t) 1 = (clampIdx C hC (idx (ix3 k t 1))).val
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 2) ∈ (pairDims K C K' T wf).startIndexMap from h1)]
    have hsi : (pairDims K C K' T wf).siIdx (ix2 k t) ⟨List.idxOf (1 : Fin 2) (pairDims K C K' T wf).startIndexMap,
        List.idxOf_lt_length_iff.2 h1⟩ = ix3 k t 1 := by
      funext b; refine Fin.ext ?_
      match b with
      | ⟨0, _⟩ => rfl
      | ⟨1, _⟩ => rfl
      | ⟨2, _⟩ => rfl
    rw [hsi]
    rfl

end Cert.Margin.Gathers
-- ==== Proof.RefValue.lean ====
/-
  The reference program's value, up to a group's summed terms. Its three row gathers read the table at the rows the
  triplet's members name, its threshold gather reads the group's threshold at the anchor row's label; from these its
  two guarded distances, its two hinge terms and their sum over the triplets are the specification's, index by index.
-/
import proofs.«402186_j57732950393273_3_alg».proof.Proof.RefRead
import proofs.«402186_j57732950393273_3_alg».proof.Proof.Spec
import proofs.«402186_j57732950393273_3_alg».proof.Proof.Gathers
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Margin.RefValue

open Idealize.ShloMosaic Idealize.ShloMosaic.ValueIdx Cert.ReferenceIdeal Cert.ReferenceIdeal.ReadP Cert.Margin

/-! ## Words: a row's and a group's number counted from the end, and clamped -/

/-- A word that names a row is not negative, so counting it from the end of the 4096 rows leaves it as it is. -/
private theorem norm_row {w : BitVec 32} (h : w.toNat < 4096) :
    Scalar.select (IntOp.cmpi .slt w 0#32) (IntOp.addi w 4096#32) w = w := by
  have h0 : IntOp.cmpi .slt w 0#32 = 0#1 := by
    apply eq_zero_of_ne_one
    intro h1
    have := (StableHlo.Predicate.slt_iff_toNat (a := w) (b := 0#32) (by omega) (by decide)).mp h1
    simp at this
  rw [h0, select_zero]

/-- A group's number is not negative either: counted from the end of the four groups it is itself. -/
private theorem norm_grp (k : Fin 4) :
    Scalar.select (IntOp.cmpi .slt (BitVec.ofNat 32 k.val) 0#32) (IntOp.addi (BitVec.ofNat 32 k.val) 4#32)
      (BitVec.ofNat 32 k.val) = BitVec.ofNat 32 k.val := by
  fin_cases k <;> rfl

/-- A group's number read signed and clamped into [0, 3] is the group. -/
private theorem clamp_grp (k : Fin 4) : Gathers.clampIdx 4 (by decide) (BitVec.ofNat 32 k.val) = k := by
  fin_cases k <;> rfl

/-! ## A pair of columns joined along the last axis, read at either column -/

private theorem cat_at0 {α : Type} (a b : S4x100000x1.Idx → α)
    (hc : Shape.Concatenates [S4x100000x1, S4x100000x1] S4x100000x2 2) (k : Fin 4) (t : Fin 100000) :
    concatenate S4x100000x2 2 [⟨S4x100000x1, a⟩, ⟨S4x100000x1, b⟩] hc (ix3 k t 0) = a (ix3 k t 0) :=
  concatenate_pair_apply_left 2 a b hc (ix3 k t 0) rfl (ix3 k t 0)
    (fun c => match c with | ⟨0, _⟩ => rfl | ⟨1, _⟩ => rfl | ⟨2, _⟩ => rfl)

private theorem cat_at1 {α : Type} (a b : S4x100000x1.Idx → α)
    (hc : Shape.Concatenates [S4x100000x1, S4x100000x1] S4x100000x2 2) (k : Fin 4) (t : Fin 100000) :
    concatenate S4x100000x2 2 [⟨S4x100000x1, a⟩, ⟨S4x100000x1, b⟩] hc (ix3 k t 1) = b (ix3 k t 0) :=
  concatenate_pair_apply_right 2 a b hc (ix3 k t 1) rfl rfl (ix3 k t 0)
    (fun c hne => match c, hne with
      | ⟨0, _⟩, _ => rfl
      | ⟨1, _⟩, _ => rfl
      | ⟨2, _⟩, hne => absurd rfl hne)
    rfl

variable (x0 : (⟨S4096x4x128, .f32⟩ : BufTy).Contents (Elt Ideal)) (x1 : (⟨S4096, .i32⟩ : BufTy).Contents (Elt Ideal))
  (x2 : (⟨S4x100000x3, .i32⟩ : BufTy).Contents (Elt Ideal)) (x3 : (⟨S4x100, .f32⟩ : BufTy).Contents (Elt Ideal))

/-! ## The triplets' three columns, the row each names, and the group's own number -/

private theorem v3_at (k : Fin 4) (t : Fin 100000) :
    val_main_v3 (F := Ideal) x2 (ix2 k t) = x2 (ix3 k t 0) := by
  rw [val_main_v3_apply, val_main_v2_apply]
  refine congrArg x2 (funext fun a => Fin.ext ?_)
  have hk := k.isLt
  have ht := t.isLt
  match a with
  | ⟨0, _⟩ => show (k.val * 100000 + t.val) / 100000 = k.val; omega
  | ⟨1, _⟩ => show (k.val * 100000 + t.val) / 1 % 100000 = t.val; omega
  | ⟨2, _⟩ => rfl

private theorem v20_at (k : Fin 4) (t : Fin 100000) :
    val_main_v20 (F := Ideal) x2 (ix2 k t) = x2 (ix3 k t 1) := by
  rw [val_main_v20_apply, val_main_v19_apply]
  refine congrArg x2 (funext fun a => Fin.ext ?_)
  have hk := k.isLt
  have ht := t.isLt
  match a with
  | ⟨0, _⟩ => show (k.val * 100000 + t.val) / 100000 = k.val; omega
  | ⟨1, _⟩ => show (k.val * 100000 + t.val) / 1 % 100000 = t.val; omega
  | ⟨2, _⟩ => rfl

private theorem v37_at (k : Fin 4) (t : Fin 100000) :
    val_main_v37 (F := Ideal) x2 (ix2 k t) = x2 (ix3 k t 2) := by
  rw [val_main_v37_apply, val_main_v36_apply]
  refine congrArg x2 (funext fun a => Fin.ext ?_)
  have hk := k.isLt
  have ht := t.isLt
  match a with
  | ⟨0, _⟩ => show (k.val * 100000 + t.val) / 100000 = k.val; omega
  | ⟨1, _⟩ => show (k.val * 100000 + t.val) / 1 % 100000 = t.val; omega
  | ⟨2, _⟩ => rfl

private theorem v8_at (h : InRange x2) (k : Fin 4) (t : Fin 100000) :
    val_main_v8 (F := Ideal) x2 (ix2 k t) = x2 (ix3 k t 0) := by
  rw [val_main_v8_apply, val_main_v5_apply, val_main_v7_apply, val_main_v4_apply, val_main_v6_apply,
    val_main_c_apply, val_main_c_0_apply, v3_at]
  exact norm_row (h _)

private theorem v25_at (h : InRange x2) (k : Fin 4) (t : Fin 100000) :
    val_main_v25 (F := Ideal) x2 (ix2 k t) = x2 (ix3 k t 1) := by
  rw [val_main_v25_apply, val_main_v22_apply, val_main_v24_apply, val_main_v21_apply, val_main_v23_apply,
    val_main_c_3_apply, val_main_c_4_apply, v20_at]
  exact norm_row (h _)

private theorem v42_at (h : InRange x2) (k : Fin 4) (t : Fin 100000) :
    val_main_v42 (F := Ideal) x2 (ix2 k t) = x2 (ix3 k t 2) := by
  rw [val_main_v42_apply, val_main_v39_apply, val_main_v41_apply, val_main_v38_apply, val_main_v40_apply,
    val_main_c_7_apply, val_main_c_8_apply, v37_at]
  exact norm_row (h _)

private theorem v13_at (k : Fin 4) : val_main_v13 (F := Ideal) (ix2 k 0) = BitVec.ofNat 32 k.val := by
  rw [val_main_v13_apply, val_main_v10_apply, val_main_v12_apply, val_main_v9_apply, val_main_v11_apply,
    val_main_c_1_apply, val_main_c_2_apply, val_main_v1_apply, val_main_v0_apply]
  exact norm_grp k

private theorem v14_at (k : Fin 4) (t : Fin 100000) :
    val_main_v14 (F := Ideal) (ix2 k t) = BitVec.ofNat 32 k.val := by
  rw [val_main_v14_apply, show idx_main_v14 (ix2 k t) = ix2 k 0 from funext fun a => by match a with | ⟨0, _⟩ => rfl | ⟨1, _⟩ => rfl]
  exact v13_at k

private theorem v16_at (k : Fin 4) (t : Fin 100000) :
    val_main_v16 (F := Ideal) (ix3 k t 0) = BitVec.ofNat 32 k.val := by
  rw [val_main_v16_apply, show idx_main_v16 (ix3 k t 0) = ix2 k t from funext fun a => by match a with | ⟨0, _⟩ => rfl | ⟨1, _⟩ => rfl]
  exact v14_at k t

private theorem v30_at (k : Fin 4) : val_main_v30 (F := Ideal) (ix2 k 0) = BitVec.ofNat 32 k.val := by
  rw [val_main_v30_apply, val_main_v27_apply, val_main_v29_apply, val_main_v26_apply, val_main_v28_apply,
    val_main_c_5_apply, val_main_c_6_apply, val_main_v1_apply, val_main_v0_apply]
  exact norm_grp k

private theorem v31_at (k : Fin 4) (t : Fin 100000) :
    val_main_v31 (F := Ideal) (ix2 k t) = BitVec.ofNat 32 k.val := by
  rw [val_main_v31_apply, show idx_main_v31 (ix2 k t) = ix2 k 0 from funext fun a => by match a with | ⟨0, _⟩ => rfl | ⟨1, _⟩ => rfl]
  exact v30_at k

private theorem v33_at (k : Fin 4) (t : Fin 100000) :
    val_main_v33 (F := Ideal) (ix3 k t 0) = BitVec.ofNat 32 k.val := by
  rw [val_main_v33_apply, show idx_main_v33 (ix3 k t 0) = ix2 k t from funext fun a => by match a with | ⟨0, _⟩ => rfl | ⟨1, _⟩ => rfl]
  exact v31_at k t

private theorem v47_at (k : Fin 4) : val_main_v47 (F := Ideal) (ix2 k 0) = BitVec.ofNat 32 k.val := by
  rw [val_main_v47_apply, val_main_v44_apply, val_main_v46_apply, val_main_v43_apply, val_main_v45_apply,
    val_main_c_9_apply, val_main_c_10_apply, val_main_v1_apply, val_main_v0_apply]
  exact norm_grp k

private theorem v48_at (k : Fin 4) (t : Fin 100000) :
    val_main_v48 (F := Ideal) (ix2 k t) = BitVec.ofNat 32 k.val := by
  rw [val_main_v48_apply, show idx_main_v48 (ix2 k t) = ix2 k 0 from funext fun a => by match a with | ⟨0, _⟩ => rfl | ⟨1, _⟩ => rfl]
  exact v47_at k

private theorem v50_at (k : Fin 4) (t : Fin 100000) :
    val_main_v50 (F := Ideal) (ix3 k t 0) = BitVec.ofNat 32 k.val := by
  rw [val_main_v50_apply, show idx_main_v50 (ix3 k t 0) = ix2 k t from funext fun a => by match a with | ⟨0, _⟩ => rfl | ⟨1, _⟩ => rfl]
  exact v48_at k t

private theorem v17_row (h : InRange x2) (k : Fin 4) (t : Fin 100000) :
    val_main_v17 (F := Ideal) x2 (ix3 k t 0) = x2 (ix3 k t 0) := by
  unfold val_main_v17
  refine (cat_at0 _ _ _ k t).trans ?_
  rw [val_main_v15_apply, show idx_main_v15 (ix3 k t 0) = ix2 k t from funext fun a => by match a with | ⟨0, _⟩ => rfl | ⟨1, _⟩ => rfl]
  exact v8_at x2 h k t

private theorem v17_grp (k : Fin 4) (t : Fin 100000) :
    val_main_v17 (F := Ideal) x2 (ix3 k t 1) = BitVec.ofNat 32 k.val := by
  unfold val_main_v17
  exact (cat_at1 _ _ _ k t).trans (v16_at k t)

private theorem v34_row (h : InRange x2) (k : Fin 4) (t : Fin 100000) :
    val_main_v34 (F := Ideal) x2 (ix3 k t 0) = x2 (ix3 k t 1) := by
  unfold val_main_v34
  refine (cat_at0 _ _ _ k t).trans ?_
  rw [val_main_v32_apply, show idx_main_v32 (ix3 k t 0) = ix2 k t from funext fun a => by match a with | ⟨0, _⟩ => rfl | ⟨1, _⟩ => rfl]
  exact v25_at x2 h k t

private theorem v34_grp (k : Fin 4) (t : Fin 100000) :
    val_main_v34 (F := Ideal) x2 (ix3 k t 1) = BitVec.ofNat 32 k.val := by
  unfold val_main_v34
  exact (cat_at1 _ _ _ k t).trans (v33_at k t)

private theorem v51_row (h : InRange x2) (k : Fin 4) (t : Fin 100000) :
    val_main_v51 (F := Ideal) x2 (ix3 k t 0) = x2 (ix3 k t 2) := by
  unfold val_main_v51
  refine (cat_at0 _ _ _ k t).trans ?_
  rw [val_main_v49_apply, show idx_main_v49 (ix3 k t 0) = ix2 k t from funext fun a => by match a with | ⟨0, _⟩ => rfl | ⟨1, _⟩ => rfl]
  exact v42_at x2 h k t

private theorem v51_grp (k : Fin 4) (t : Fin 100000) :
    val_main_v51 (F := Ideal) x2 (ix3 k t 1) = BitVec.ofNat 32 k.val := by
  unfold val_main_v51
  exact (cat_at1 _ _ _ k t).trans (v50_at k t)

/-! ## The row gathers -/

/-- The row gather read at an index: the table at the row and the group its pair of words names, each read signed
    and clamped into its axis, along the result's own last coordinate. -/
private theorem rows_read (idx : (⟨S4x100000x2, .i32⟩ : BufTy).Contents (Elt Ideal)) (k : Fin 4) (t : Fin 100000) (d : Fin 128) :
    Host.gather gather_S4096x4x128_S4x100000x2_S4x100000x128_2_01_n_n_01_2_11128 x0 idx (ix3 k t d)
      = x0 (ix3 (Gathers.clampIdx 4096 (by decide) (idx (ix3 k t 0))) (Gathers.clampIdx 4 (by decide) (idx (ix3 k t 1))) d) :=
  Gathers.gather_rows_apply (N := 4096) (K := 4) (D := 128) (K' := 4) (T := 100000) (by decide) (by decide)
    Facts₀.gather_S4096x4x128_S4x100000x2_S4x100000x128_2_01_n_n_01_2_11128_wf x0 idx k t d

/-- The anchor rows. -/
theorem rows_anchor (h : InRange x2) (k : Fin 4) (t : Fin 100000) (d : Fin 128) :
    val_main_v18 (F := Ideal) x0 x2 (ix3 k t d) = rowOf x0 (memIx x2 k t 0) k d := by
  unfold val_main_v18
  rw [rows_read, v17_row x2 h, v17_grp, clamp_grp]
  rfl

/-- The positive rows. -/
theorem rows_pos (h : InRange x2) (k : Fin 4) (t : Fin 100000) (d : Fin 128) :
    val_main_v35 (F := Ideal) x0 x2 (ix3 k t d) = rowOf x0 (memIx x2 k t 1) k d := by
  unfold val_main_v35
  rw [rows_read, v34_row x2 h, v34_grp, clamp_grp]
  rfl

/-- The negative rows. -/
theorem rows_neg (h : InRange x2) (k : Fin 4) (t : Fin 100000) (d : Fin 128) :
    val_main_v52 (F := Ideal) x0 x2 (ix3 k t d) = rowOf x0 (memIx x2 k t 2) k d := by
  unfold val_main_v52
  rw [rows_read, v51_row x2 h, v51_grp, clamp_grp]
  rfl

/-! ## The anchor row's label, and the group's threshold at it -/

private theorem v66_at (k : Fin 4) (t : Fin 100000) :
    val_main_v66 (F := Ideal) x2 (ix2 k t) = x2 (ix3 k t 0) := by
  rw [val_main_v66_apply, val_main_v65_apply]
  refine congrArg x2 (funext fun a => Fin.ext ?_)
  have hk := k.isLt
  have ht := t.isLt
  match a with
  | ⟨0, _⟩ => show (k.val * 100000 + t.val) / 100000 = k.val; omega
  | ⟨1, _⟩ => show (k.val * 100000 + t.val) / 1 % 100000 = t.val; omega
  | ⟨2, _⟩ => rfl

private theorem v71_at (h : InRange x2) (k : Fin 4) (t : Fin 100000) :
    val_main_v71 (F := Ideal) x2 (ix2 k t) = x2 (ix3 k t 0) := by
  rw [val_main_v71_apply, val_main_v68_apply, val_main_v70_apply, val_main_v67_apply, val_main_v69_apply,
    val_main_c_14_apply, val_main_c_15_apply, v66_at]
  exact norm_row (h _)

private theorem v78_at (k : Fin 4) : val_main_v78 (F := Ideal) (ix2 k 0) = BitVec.ofNat 32 k.val := by
  rw [val_main_v78_apply, val_main_v75_apply, val_main_v77_apply, val_main_v74_apply, val_main_v76_apply,
    val_main_c_16_apply, val_main_c_17_apply, val_main_v1_apply, val_main_v0_apply]
  exact norm_grp k

private theorem v84_at (k : Fin 4) (t : Fin 100000) :
    val_main_v84 (F := Ideal) (ix2 k t) = BitVec.ofNat 32 k.val := by
  rw [val_main_v84_apply, show idx_main_v84 (ix2 k t) = ix2 k 0 from funext fun a => by match a with | ⟨0, _⟩ => rfl | ⟨1, _⟩ => rfl]
  exact v78_at k

private theorem v85_at (k : Fin 4) (t : Fin 100000) :
    val_main_v85 (F := Ideal) (ix3 k t 0) = BitVec.ofNat 32 k.val := by
  rw [val_main_v85_apply, show idx_main_v85 (ix3 k t 0) = ix2 k t from funext fun a => by match a with | ⟨0, _⟩ => rfl | ⟨1, _⟩ => rfl]
  exact v84_at k t

private theorem v72_at (h : InRange x2) (k : Fin 4) (t : Fin 100000) :
    val_main_v72 (F := Ideal) x2 (ix3 k t 0) = x2 (ix3 k t 0) := by
  rw [val_main_v72_apply, show idx_main_v72 (ix3 k t 0) = ix2 k t from funext fun a => by match a with | ⟨0, _⟩ => rfl | ⟨1, _⟩ => rfl]
  exact v71_at x2 h k t

/-- The label gather: the label of the row the anchor names. -/
private theorem v73_at (h : InRange x2) (k : Fin 4) (t : Fin 100000) :
    val_main_v73 (F := Ideal) x1 x2 (ix2 k t) = x1 (ix1 (memIx x2 k t 0)) := by
  unfold val_main_v73
  refine (gather_take_apply (N := 4096) (R := 4) (C := 100000) (by decide)
    Facts₀.gather_S4096_S4x100000x1_S4x100000_n_0_n_n_0_2_1_wf x1 (val_main_v72 (F := Ideal) x2) (ix2 k t)).trans ?_
  have e : val_main_v72 (F := Ideal) x2 (takeIdx (ix2 k t)) = x2 (ix3 k t 0) := by
    rw [show takeIdx (ix2 k t) = ix3 k t 0 from funext fun a => by match a with | ⟨0, _⟩ => rfl | ⟨1, _⟩ => rfl | ⟨2, _⟩ => rfl]
    exact v72_at x2 h k t
  refine congrArg x1 (congrArg (ix1 (n := 4096)) (Fin.ext ?_))
  show min (val_main_v72 (F := Ideal) x2 (takeIdx (ix2 k t))).toInt.toNat (4096 - 1)
    = min (x2 (ix3 k t 0)).toInt.toNat (4096 - 1)
  rw [e]

/-- The label counted from the end of the 100 labels when negative. -/
private theorem v83_at (h : InRange x2) (k : Fin 4) (t : Fin 100000) :
    val_main_v83 (F := Ideal) x1 x2 (ix2 k t) = normLabel (x1 (ix1 (memIx x2 k t 0))) := by
  rw [val_main_v83_apply, val_main_v80_apply, val_main_v82_apply, val_main_v79_apply, val_main_v81_apply,
    val_main_c_18_apply, val_main_c_19_apply, v73_at x1 x2 h]
  rfl

private theorem v87_grp (k : Fin 4) (t : Fin 100000) :
    val_main_v87 (F := Ideal) x1 x2 (ix3 k t 0) = BitVec.ofNat 32 k.val := by
  unfold val_main_v87
  exact (cat_at0 _ _ _ k t).trans (v85_at k t)

private theorem v87_lab (h : InRange x2) (k : Fin 4) (t : Fin 100000) :
    val_main_v87 (F := Ideal) x1 x2 (ix3 k t 1) = normLabel (x1 (ix1 (memIx x2 k t 0))) := by
  unfold val_main_v87
  refine (cat_at1 _ _ _ k t).trans ?_
  rw [val_main_v86_apply, show idx_main_v86 (ix3 k t 0) = ix2 k t from funext fun a => by match a with | ⟨0, _⟩ => rfl | ⟨1, _⟩ => rfl]
  exact v83_at x1 x2 h k t

/-- The thresholds. -/
theorem thr_eq (h : InRange x2) (k : Fin 4) (t : Fin 100000) :
    val_main_v88 (F := Ideal) x1 x2 x3 (ix2 k t) = thr x1 x2 x3 k t := by
  unfold val_main_v88
  refine (Gathers.gather_pair_apply (K := 4) (C := 100) (K' := 4) (T := 100000) (by decide) (by decide)
    Facts₀.gather_S4x100_S4x100000x2_S4x100000_n_01_n_n_01_2_11_wf x3 (val_main_v87 (F := Ideal) x1 x2) k t).trans ?_
  rw [v87_grp, v87_lab x1 x2 h, clamp_grp]
  rfl

/-! ## The two distances and the two hinge terms -/

/-- The anchor's guarded distance to the positive. -/
private theorem dpos_eq (h : InRange x2) (k : Fin 4) (t : Fin 100000) :
    val_main_v58 (F := Ideal) x0 x2 (ix2 k t) = dist (rowOf x0 (memIx x2 k t 0) k) (rowOf x0 (memIx x2 k t 1) k) := by
  have hs : ∀ d : Fin 128, val_main_v54 (F := Ideal) x0 x2 (idx_main_v55 (ix2 k t) d)
      = (rowOf x0 (memIx x2 k t 0) k d - rowOf x0 (memIx x2 k t 1) k d)
        * (rowOf x0 (memIx x2 k t 0) k d - rowOf x0 (memIx x2 k t 1) k d) := by
    intro d
    rw [show idx_main_v55 (ix2 k t) d = ix3 k t d from funext fun a => by match a with | ⟨0, _⟩ => rfl | ⟨1, _⟩ => rfl | ⟨2, _⟩ => rfl,
      val_main_v54_apply, val_main_v53_apply, rows_anchor x0 x2 h, rows_pos x0 x2 h]
    rfl
  rw [val_main_v58_apply, val_main_v57_apply, val_main_v55_apply, val_main_v56_apply, val_main_cst_apply,
    val_main_cst_11_apply]
  simp only [hs]
  rw [Ideal.ofBits_def, Ideal.ofBits_def, Ideal.ofBits_zero_f32, zero_add]
  rfl

/-- The anchor's guarded distance to the negative. -/
private theorem dneg_eq (h : InRange x2) (k : Fin 4) (t : Fin 100000) :
    val_main_v64 (F := Ideal) x0 x2 (ix2 k t) = dist (rowOf x0 (memIx x2 k t 0) k) (rowOf x0 (memIx x2 k t 2) k) := by
  have hs : ∀ d : Fin 128, val_main_v60 (F := Ideal) x0 x2 (idx_main_v61 (ix2 k t) d)
      = (rowOf x0 (memIx x2 k t 0) k d - rowOf x0 (memIx x2 k t 2) k d)
        * (rowOf x0 (memIx x2 k t 0) k d - rowOf x0 (memIx x2 k t 2) k d) := by
    intro d
    rw [show idx_main_v61 (ix2 k t) d = ix3 k t d from funext fun a => by match a with | ⟨0, _⟩ => rfl | ⟨1, _⟩ => rfl | ⟨2, _⟩ => rfl,
      val_main_v60_apply, val_main_v59_apply, rows_anchor x0 x2 h, rows_neg x0 x2 h]
    rfl
  rw [val_main_v64_apply, val_main_v63_apply, val_main_v61_apply, val_main_v62_apply, val_main_cst_12_apply,
    val_main_cst_13_apply]
  simp only [hs]
  rw [Ideal.ofBits_def, Ideal.ofBits_def, Ideal.ofBits_zero_f32, zero_add]
  rfl

/-- The positive terms. -/
theorem pos_eq (h : InRange x2) (k : Fin 4) (t : Fin 100000) :
    val_main_v92 (F := Ideal) x0 x1 x2 x3 (ix2 k t) = posT x0 x1 x2 x3 k t := by
  rw [val_main_v92_apply, val_main_v91_apply, val_main_v89_apply, val_main_v90_apply, val_main_call0_v0_apply,
    val_main_cst_20_apply, val_main_call0_cst_apply, dpos_eq x0 x2 h, thr_eq x1 x2 x3 h]
  rw [Ideal.ofBits_def, Ideal.ofBits_def, Ideal.ofBits_zero_f32]
  rfl

/-- The negative terms. -/
theorem neg_eq (h : InRange x2) (k : Fin 4) (t : Fin 100000) :
    val_main_v96 (F := Ideal) x0 x1 x2 x3 (ix2 k t) = negT x0 x1 x2 x3 k t := by
  rw [val_main_v96_apply, val_main_v95_apply, val_main_v93_apply, val_main_v94_apply, val_main_call1_v0_apply,
    val_main_cst_21_apply, val_main_call1_cst_apply, dneg_eq x0 x2 h, thr_eq x1 x2 x3 h]
  rw [Ideal.ofBits_def, Ideal.ofBits_def, Ideal.ofBits_zero_f32]
  rfl

/-! ## A group's summed terms -/

/-- The summed terms of a group. -/
theorem total_eq (h : InRange x2) (k : Fin 4) :
    val_main_v106 (F := Ideal) x0 x1 x2 x3 (ix1 k) = totalOf x0 x1 x2 x3 k := by
  have hs : ∀ t : Fin 100000, val_main_v105 (F := Ideal) x0 x1 x2 x3 (idx_main_v106 (ix1 k) t)
      = posT x0 x1 x2 x3 k t + negT x0 x1 x2 x3 k t := by
    intro t
    rw [show idx_main_v106 (ix1 k) t = ix2 k t from funext fun a => by match a with | ⟨0, _⟩ => rfl | ⟨1, _⟩ => rfl,
      val_main_v105_apply, pos_eq x0 x1 x2 x3 h, neg_eq x0 x1 x2 x3 h]
    rfl
  rw [val_main_v106_apply, val_main_cst_25_apply]
  simp only [hs]
  rw [Ideal.ofBits_def, Ideal.ofBits_zero_f32, zero_add]
  rfl

end Cert.Margin.RefValue

end
-- ==== Proof.RefCount.lean ====
/-
  The reference's count and result. The count of a group is an integer sum of zeros and ones along the triplets,
  converted to a float: the number of triplets with a positive term. A group's loss is its summed terms when the
  count is zero, else the sum divided by max(count, 1); the result is the four losses added and divided by four.
-/
import proofs.«402186_j57732950393273_3_alg».proof.Proof.RefRead
import proofs.«402186_j57732950393273_3_alg».proof.Proof.Spec
import proofs.«402186_j57732950393273_3_alg».proof.Proof.RefValue
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Margin.RefCount

open Idealize.ShloMosaic Idealize.ShloMosaic.ValueIdx Cert.ReferenceIdeal Cert.ReferenceIdeal.ReadP Cert.Margin

variable (x0 : (⟨S4096x4x128, .f32⟩ : BufTy).Contents (Elt Ideal)) (x1 : (⟨S4096, .i32⟩ : BufTy).Contents (Elt Ideal))
  (x2 : (⟨S4x100000x3, .i32⟩ : BufTy).Contents (Elt Ideal)) (x3 : (⟨S4x100, .f32⟩ : BufTy).Contents (Elt Ideal))

/-- A sum over the indices of a one-axis shape is the sum over the axis. -/
private theorem sum_ix1 {n : Nat} (f : (⟨1, ![n]⟩ : Shape).Idx → EReal) : ∑ i, f i = ∑ a : Fin n, f (ix1 a) :=
  (Fintype.sum_equiv ⟨fun a => ix1 a, fun i => i 0, fun _ => rfl, fun i => (eq_ix1 i).symm⟩ (fun a => f (ix1 a)) f
    fun _ => rfl).symm

/-- The "or" of two truth bits is set exactly when one of them is true. -/
private theorem ori_bits (a b : Bool) : IntOp.ori (BitVec.ofBool a) (BitVec.ofBool b) = 1#1 ↔ (a = true ∨ b = true) := by
  cases a <;> cases b <;> decide

/-- Selecting by the truth bit of a proposition is the choice the proposition makes. -/
private theorem select_decide {α : Type} (p : Prop) [Decidable p] (a b : α) :
    Scalar.select (BitVec.ofBool (decide p)) a b = if p then a else b := by
  by_cases hp : p
  · rw [decide_eq_true hp, if_pos hp]; exact select_one a b
  · rw [decide_eq_false hp, if_neg hp]; exact select_zero a b

/-- A triplet's bit of the mask is set exactly when one of its two terms is positive. -/
private theorem mask_bit (h : InRange x2) (k : Fin 4) (t : Fin 100000) :
    val_main_v101 (F := Ideal) x0 x1 x2 x3 (ix2 k t) = 1#1 ↔ counted (posT x0 x1 x2 x3 k t) (negT x0 x1 x2 x3 k t) := by
  rw [val_main_v101_apply, val_main_v98_apply, val_main_v100_apply, val_main_v97_apply, val_main_v99_apply,
    val_main_cst_22_apply, val_main_cst_23_apply, RefValue.pos_eq x0 x1 x2 x3 h, RefValue.neg_eq x0 x1 x2 x3 h,
    Ideal.cmpf_def, Ideal.cmpf_def, Ideal.ofBits_def, Ideal.ofBits_zero_f32]
  show IntOp.ori (BitVec.ofBool (decide (0 < posT x0 x1 x2 x3 k t))) (BitVec.ofBool (decide (0 < negT x0 x1 x2 x3 k t))) = 1#1 ↔ _
  rw [ori_bits, decide_eq_true_eq, decide_eq_true_eq]
  rfl

/-- The count of a group. -/
theorem count_eq (h : InRange x2) (k : Fin 4) :
    val_main_v104 (F := Ideal) x0 x1 x2 x3 (ix1 k) = countOf x0 x1 x2 x3 k := by
  have hcard : (val_main_v103 (F := Ideal) x0 x1 x2 x3 (ix1 k)).toNat
      = (Finset.univ.filter fun t : Fin 100000 => counted (posT x0 x1 x2 x3 k t) (negT x0 x1 x2 x3 k t)).card := by
    unfold val_main_v103 val_main_v102 val_main_c_24
    rw [StableHlo.Predicate.toNat_reduce_count_cols (n := 4) (m := 100000) (by decide)
      (val_main_v101 (F := Ideal) x0 x1 x2 x3) Facts₀.natLt_1_32 Facts₀.reducesTo_S4x100000_S4_d1 Facts₀.h_S_ (ix1 k)]
    refine congrArg Finset.card (Finset.filter_congr fun t _ => ?_)
    exact mask_bit x0 x1 x2 x3 h k t
  have hsmall : (val_main_v103 (F := Ideal) x0 x1 x2 x3 (ix1 k)).toNat < 2 ^ 31 := by
    rw [hcard]
    refine lt_of_le_of_lt (Finset.card_le_univ _) ?_
    rw [Fintype.card_fin]
    decide
  rw [val_main_v104_apply]
  show (((val_main_v103 (F := Ideal) x0 x1 x2 x3 (ix1 k)).toInt : ℝ) : EReal) = _
  rw [StableHlo.Predicate.toInt_eq_toNat_of_lt hsmall, hcard, Int.cast_natCast]
  rfl

/-- A group's loss: its summed terms when nothing is counted, else the sum over max(count, 1). -/
private theorem group_loss (h : InRange x2) (k : Fin 4) :
    val_main_v112 (F := Ideal) x0 x1 x2 x3 (ix1 k) = lossK (totalOf x0 x1 x2 x3 k) (countOf x0 x1 x2 x3 k) := by
  rw [val_main_v112_apply, val_main_v108_apply, val_main_v111_apply, val_main_v110_apply, val_main_v107_apply,
    val_main_v109_apply, val_main_cst_26_apply, val_main_cst_27_apply, RefValue.total_eq x0 x1 x2 x3 h,
    count_eq x0 x1 x2 x3 h, Ideal.cmpf_def, Ideal.ofBits_def, Ideal.ofBits_def, Ideal.ofBits_zero_f32]
  show Scalar.select (BitVec.ofBool (decide (countOf x0 x1 x2 x3 k = 0))) _ _ = _
  rw [select_decide]
  rfl

/-- The reference's result is the loss. -/
theorem result_eq (h : InRange x2) :
    val_main_v114 (F := Ideal) x0 x1 x2 x3 = fun _ => loss x0 x1 x2 x3 := by
  funext i
  rw [val_main_v114_apply, val_main_v113_apply, val_main_cst_28_apply, val_main_cst_29_apply, sum_ix1]
  simp only [group_loss x0 x1 x2 x3 h]
  rw [Ideal.ofBits_def, Ideal.ofBits_def, Ideal.ofBits_zero_f32, zero_add]
  rfl

end Cert.Margin.RefCount

end
-- ==== Proof.SumLaws.lean ====
/-
  Sums over a padded, blocked index range. 100000 positions are laid out as 98 blocks of 1024 (100352 places); the 352
  places past the end carry zero. Summing block by block over all places is summing over the 100000 positions; a
  family of zeros and ones summed this way is the number of ones. A one-hot row times a table column is the table's
  entry at the hot index.
-/
import Mathlib.Data.EReal.Basic
import Mathlib.Algebra.BigOperators.Fin
import Mathlib.Algebra.BigOperators.Intervals

noncomputable section

open scoped BigOperators

namespace Cert.Margin.SumLaws

/-- The first `n` blocks of 1024 places, summed block by block, are the first `1024 * n` places summed in order. -/
private theorem blocks_range (g : ℕ → EReal) (n : ℕ) :
    (∑ j ∈ Finset.range n, ∑ r ∈ Finset.range 1024, g (1024 * j + r))
      = ∑ T ∈ Finset.range (1024 * n), g T := by
  induction n with
  | zero => simp
  | succ k ih =>
    rw [Finset.sum_range_succ, ih, Nat.mul_succ, Finset.sum_range_add]

/-- Block by block over the padded range is position by position over the true range. -/
theorem sum_blocks_eq (f : Fin 100000 → EReal) (g : ℕ → EReal)
    (hg : ∀ (T : ℕ) (h : T < 100000), g T = f ⟨T, h⟩) (hz : ∀ T : ℕ, 100000 ≤ T → g T = 0) :
    (∑ j ∈ Finset.range 98, ∑ r : Fin 1024, g (1024 * j + r.val)) = ∑ t : Fin 100000, f t := by
  have h1 : ∀ j : ℕ, (∑ r : Fin 1024, g (1024 * j + r.val))
      = ∑ r ∈ Finset.range 1024, g (1024 * j + r) := fun j =>
    Fin.sum_univ_eq_sum_range (fun r => g (1024 * j + r)) 1024
  simp only [h1]
  rw [blocks_range g 98]
  have h2 : (1024 * 98 : ℕ) = 100000 + 352 := by norm_num
  rw [h2, Finset.sum_range_add]
  have h3 : (∑ x ∈ Finset.range 352, g (100000 + x)) = 0 :=
    Finset.sum_eq_zero (fun x _ => hz _ (Nat.le_add_right _ _))
  rw [h3, add_zero, Finset.sum_range]
  exact Finset.sum_congr rfl (fun t _ => hg t.val t.isLt)

/-- Zeros and ones summed over a finite set: the number of ones, as a real number inside the extended reals. -/
private theorem sum_ite_one_zero {ι : Type*} (s : Finset ι) (P : ι → Prop) [DecidablePred P] :
    (∑ t ∈ s, (if P t then (1 : EReal) else 0)) = (((s.filter P).card : ℝ) : EReal) := by
  classical
  induction s using Finset.induction_on with
  | empty => simp
  | insert a s ha ih =>
    rw [Finset.sum_insert ha, ih, Finset.filter_insert]
    by_cases hP : P a
    · have hna : a ∉ s.filter P := fun h => ha (Finset.mem_of_mem_filter a h)
      rw [if_pos hP, if_pos hP, Finset.card_insert_of_notMem hna, Nat.cast_succ, EReal.coe_add,
        EReal.coe_one, add_comm]
    · rw [if_neg hP, if_neg hP, zero_add]

/-- Zeros and ones summed block by block over the padded range: the number of ones among the true positions. -/
theorem count_blocks_eq (P : Fin 100000 → Prop) [DecidablePred P] (g : ℕ → EReal)
    (hg : ∀ (T : ℕ) (h : T < 100000), g T = if P ⟨T, h⟩ then 1 else 0) (hz : ∀ T : ℕ, 100000 ≤ T → g T = 0) :
    (∑ j ∈ Finset.range 98, ∑ r : Fin 1024, g (1024 * j + r.val))
      = (((Finset.univ.filter P).card : ℝ) : EReal) := by
  rw [sum_blocks_eq (fun t => if P t then (1 : EReal) else 0) g hg hz]
  exact sum_ite_one_zero Finset.univ P

/-- A one-hot row against a column: the column's entry at the hot index. -/
theorem sum_onehot_mul {N : ℕ} (a : Fin N) (f : Fin N → EReal) :
    (∑ n : Fin N, (if n = a then (1 : EReal) else 0) * f n) = f a := by
  rw [Finset.sum_eq_single a]
  · rw [if_pos rfl, one_mul]
  · intro b _ hb
    rw [if_neg hb, zero_mul]
  · intro h
    exact absurd (Finset.mem_univ a) h

/-- A sum started from zero accumulated over the first `n` blocks is the sum over those blocks. -/
theorem fold_blocks (s : ℕ → EReal) (n : ℕ) :
    (Nat.rec (motive := fun _ => EReal) 0 (fun j acc => acc + s j) n) = ∑ j ∈ Finset.range n, s j := by
  induction n with
  | zero => simp
  | succ k ih =>
    rw [Finset.sum_range_succ, ← ih]

end Cert.Margin.SumLaws

end
-- ==== Proof.KPayload.lean ====
/-
  What one grid step of the kernel adds, as a function of the blocks it loads. The step loads a table block of 4096
  rows, 1024 thresholds, three times 1024 row numbers and 1024 mask values; it selects rows by multiplying a one-hot
  matrix against the table, forms the two hinge terms of each of the 1024 triplets, multiplies them by the mask, and
  sums the terms and the indicator of "some term is positive" over the 1024 triplets.
-/
import proofs.«402186_j57732950393273_3_alg».proof.Proof.Gen.KernelIdeal.Skeleton
import proofs.«402186_j57732950393273_3_alg».proof.Proof.Spec
import proofs.«402186_j57732950393273_3_alg».proof.Proof.SumLaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Margin.KPayload

open Idealize.ShloMosaic Idealize.ShloMosaic.ValueIdx Cert.KernelIdeal Cert.KernelIdeal.Gen Cert.Margin

variable {F : FTy → Type} [FloatOps F]

/-- The sum of masked terms one step computes from its loaded blocks (any float family). -/
def stepT (x0 : Vec F S1x4096x128 .bf16) (x1 : Vec F S1x1x1024 .f32) (x2 x3 x4 : Vec F S1x1x1024 .i32)
    (x5 : Vec F S1x1x1024 .f32) : FVec F S1x1 .f32 :=
  k0_pay13 (k0_pay6 x0 x2) (k0_pay7 x0 x4) (k0_pay8 x0 x2 x3) x1 x5

/-- The count one step computes from its loaded blocks (any float family). -/
def stepC (x0 : Vec F S1x4096x128 .bf16) (x1 : Vec F S1x1x1024 .f32) (x2 x3 x4 : Vec F S1x1x1024 .i32)
    (x5 : Vec F S1x1x1024 .f32) : FVec F S1x1 .f32 :=
  k0_pay14 (k0_pay6 x0 x2) (k0_pay7 x0 x4) (k0_pay8 x0 x2 x3) x1 x5

/-- Row `n` of a loaded table block. -/
def trow (x0 : Vec Ideal S1x4096x128 .bf16) (n : Fin 4096) : Fin 128 → EReal := fun d => x0 (ix3 0 n d)

/-! ## Layout operations the lanes pass through, read at an index -/

section Layout
variable {α : Type}

/-- A `[1, 1, a]` array cast to `[a]` reads, at `i`, the operand at `(0, 0, i)`. -/
private theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums, read at an index -/

/-- Summing a `[1024, 128]` array along its rows' entries: at `r`, the sum over `d` of the entries `(r, d)`. -/
private theorem rowSum_apply (src : FVec Ideal S1024x128 .f32) (hacc : (0x00000000#32 : BitVec 32) = 0x00000000#32)
    (r : Fin 1024) :
    multiReduction (F := Ideal) .add [1] S1024 src 0x00000000#32 reduces_S1024x128_S1024 (.inl rfl) hacc (ix1 r)
      = ∑ d : Fin 128, src (ix2 r d) := by
  refine (Ideal.multiReduction_add_single src 0x00000000#32 reduces_S1024x128_S1024 (.inl rfl) hacc (ix1 r)).trans ?_
  refine Finset.sum_congr rfl fun d _ => congrArg src ?_
  funext c
  refine Fin.ext ?_
  match c with
  | ⟨0, _⟩ => rfl
  | ⟨1, _⟩ => rfl

/-- Summing a column `[1024, 1]` down its 1024 entries: the sum over `r` of the entries `(r, 0)`. -/
private theorem colSum_apply (src : FVec Ideal S1024x1 .f32) (hacc : (0x00000000#32 : BitVec 32) = 0x00000000#32) :
    multiReduction (F := Ideal) .add [0] S1 src 0x00000000#32 reduces_S1024x1_S1 (.inl rfl) hacc (ix1 0)
      = ∑ r : Fin 1024, src (ix2 r 0) := by
  refine (Ideal.multiReduction_add_single src 0x00000000#32 reduces_S1024x1_S1 (.inl rfl) hacc (ix1 0)).trans ?_
  refine Finset.sum_congr rfl fun r _ => congrArg src ?_
  funext c
  refine Fin.ext ?_
  match c with
  | ⟨0, _⟩ => rfl
  | ⟨1, _⟩ => rfl

/-! ## The product of a one-hot matrix with the table: a selected row -/

/-- The left operand's index at output `j` and contraction position `k`: on axis 0, the row of `j`. -/
private theorem lhs_axis0 (j : S1024x128.Idx) (k : dot_S1024x4096_S4096x128_S1024x128_1_0_0_1_n_n.contr.Idx) :
    (dot_S1024x4096_S4096x128_S1024x128_1_0_0_1_n_n.lhsIdx j k 0 : ℕ) = j 0 := by
  simp [DotDims.lhsIdx, dot_S1024x4096_S4096x128_S1024x128_1_0_0_1_n_n]; rfl
/-- The left operand's index on axis 1: the contraction position. -/
private theorem lhs_axis1 (j : S1024x128.Idx) (k : dot_S1024x4096_S4096x128_S1024x128_1_0_0_1_n_n.contr.Idx) :
    (dot_S1024x4096_S4096x128_S1024x128_1_0_0_1_n_n.lhsIdx j k 1 : ℕ) = k ⟨0, by decide⟩ := by
  simp [DotDims.lhsIdx, dot_S1024x4096_S4096x128_S1024x128_1_0_0_1_n_n]; rfl
/-- The right operand's index on axis 0: the contraction position. -/
private theorem rhs_axis0 (j : S1024x128.Idx) (k : dot_S1024x4096_S4096x128_S1024x128_1_0_0_1_n_n.contr.Idx) :
    (dot_S1024x4096_S4096x128_S1024x128_1_0_0_1_n_n.rhsIdx j k 0 : ℕ) = k ⟨0, by decide⟩ := by
  simp [DotDims.rhsIdx, dot_S1024x4096_S4096x128_S1024x128_1_0_0_1_n_n]; rfl
/-- The right operand's index on axis 1: the column of `j`. -/
private theorem rhs_axis1 (j : S1024x128.Idx) (k : dot_S1024x4096_S4096x128_S1024x128_1_0_0_1_n_n.contr.Idx) :
    (dot_S1024x4096_S4096x128_S1024x128_1_0_0_1_n_n.rhsIdx j k 1 : ℕ) = j 1 := by
  simp [DotDims.rhsIdx, dot_S1024x4096_S4096x128_S1024x128_1_0_0_1_n_n]; rfl

/-- The `[1024, 4096] × [4096, 128]` product into zero, at `(r, d)`: the sum over `n` of left `(r, n)` times right `(n, d)`. -/
private theorem matmul_at (lhs : FVec Ideal S1024x4096 .bf16) (rhs : FVec Ideal S4096x128 .bf16) (r : Fin 1024) (d : Fin 128) :
    matmul dot_S1024x4096_S4096x128_S1024x128_1_0_0_1_n_n none lhs rhs (constant (F := Ideal) S1024x128 .f32 0x00000000#32) (ix2 r d)
      = ∑ n : Fin 4096, lhs (ix2 r n) * rhs (ix2 n d) := by
  refine (Ideal.matmul_constant_zero_apply dot_S1024x4096_S4096x128_S1024x128_1_0_0_1_n_n none lhs rhs (ix2 r d)).trans ?_
  rw [← Equiv.sum_comp (contrEquiv1 dot_S1024x4096_S4096x128_S1024x128_1_0_0_1_n_n 4096 rfl rfl).symm]
  refine Finset.sum_congr rfl fun n _ => ?_
  have hl : dot_S1024x4096_S4096x128_S1024x128_1_0_0_1_n_n.lhsIdx (ix2 r d)
      ((contrEquiv1 dot_S1024x4096_S4096x128_S1024x128_1_0_0_1_n_n 4096 rfl rfl).symm n) = ix2 r n := by
    funext a
    refine Fin.ext ?_
    match a with
    | ⟨0, _⟩ => exact lhs_axis0 _ _
    | ⟨1, _⟩ => exact (lhs_axis1 _ _).trans (contrEquiv1_symm_val dot_S1024x4096_S4096x128_S1024x128_1_0_0_1_n_n 4096 rfl rfl n)
  have hr : dot_S1024x4096_S4096x128_S1024x128_1_0_0_1_n_n.rhsIdx (ix2 r d)
      ((contrEquiv1 dot_S1024x4096_S4096x128_S1024x128_1_0_0_1_n_n 4096 rfl rfl).symm n) = ix2 n d := by
    funext a
    refine Fin.ext ?_
    match a with
    | ⟨0, _⟩ => exact (rhs_axis0 _ _).trans (contrEquiv1_symm_val dot_S1024x4096_S4096x128_S1024x128_1_0_0_1_n_n 4096 rfl rfl n)
    | ⟨1, _⟩ => exact rhs_axis1 _ _
  rw [hl, hr]

/-- The one-hot matrix of a block of row numbers: entry `(r, n)` is one where `n` is the number lane `r` holds. -/
private def hot (x : Vec Ideal S1x1x1024 .i32) : FVec Ideal S1024x4096 .bf16 :=
  truncf .bf16 (sitofp .f32 (extui 32 (cmpi .eq
    (broadcastTo S1024x4096 (iota .tc S1x4096 32 [1] iota_S1x4096_d1_w32) broadcasts_S1x4096_S1024x4096)
    (broadcastTo S1024x4096 (shapeCast S1024x1 (shapeCast S1024 x shapeCasts_S1x1x1024_S1024) shapeCasts_S1024_S1024x1)
      broadcasts_S1024x1_S1024x4096)) natLt_1_32)) bitsLt_bf16_f32

/-- A one-bit word widened and read signed, as a real: one for the set bit, zero for the clear one. -/
private theorem bit_real (b : BitVec 1) : (((b.setWidth 32).toInt : ℝ) : EReal) = if b = 1#1 then 1 else 0 := by
  rcases BitVec.eq_zero_or_eq_one b with rfl | rfl
  · rw [if_neg (by decide)]
    have : ((0#1 : BitVec 1).setWidth 32).toInt = 0 := by decide
    rw [this]; simp
  · rw [if_pos rfl]
    have : ((1#1 : BitVec 1).setWidth 32).toInt = 1 := by decide
    rw [this]; simp

/-- Entry `(r, n)` of the one-hot matrix of row numbers below 4096: one exactly when `n` is the number lane `r` holds. -/
private theorem hot_apply (x : Vec Ideal S1x1x1024 .i32) (r : Fin 1024) (n : Fin 4096) (h : (x (ix3 0 0 r)).toNat < 4096) :
    hot x (ix2 r n) = if n = ⟨(x (ix3 0 0 r)).toNat, h⟩ then 1 else 0 := by
  have e1 : broadcastTo S1024x4096 (iota .tc S1x4096 32 [1] iota_S1x4096_d1_w32) broadcasts_S1x4096_S1024x4096 (ix2 r n)
      = BitVec.ofNat 32 n.val := by
    refine (broadcastTo_1b_ab_apply _ _ r n).trans ?_
    show BitVec.ofNat 32 (0 * 4096 + n.val) = _
    rw [Nat.zero_mul, Nat.zero_add]
  have e2 : broadcastTo S1024x4096 (shapeCast S1024x1 (shapeCast S1024 x shapeCasts_S1x1x1024_S1024) shapeCasts_S1024_S1024x1)
      broadcasts_S1024x1_S1024x4096 (ix2 r n) = x (ix3 0 0 r) := by
    refine (broadcastTo_a1_ab_apply _ _ r n).trans ?_
    refine (shapeCast_a_a1_apply _ _ r 0).trans ?_
    exact shapeCast_11a_a_apply x _ r
  unfold hot
  show ((((IntOp.cmpi .eq
    (broadcastTo S1024x4096 (iota .tc S1x4096 32 [1] iota_S1x4096_d1_w32) broadcasts_S1x4096_S1024x4096 (ix2 r n))
    (broadcastTo S1024x4096 (shapeCast S1024x1 (shapeCast S1024 x shapeCasts_S1x1x1024_S1024) shapeCasts_S1024_S1024x1)
      broadcasts_S1024x1_S1024x4096 (ix2 r n))).setWidth 32).toInt : ℝ) : EReal) = _
  rw [e1, e2, bit_real]
  by_cases hn : n = ⟨(x (ix3 0 0 r)).toNat, h⟩
  · rw [if_pos hn, if_pos]
    refine StableHlo.Predicate.cmpi_eq_iff.mpr (BitVec.eq_of_toNat_eq ?_)
    rw [BitVec.toNat_ofNat, hn]
    exact Nat.mod_eq_of_lt (by omega)
  · rw [if_neg hn, if_neg]
    intro hc
    refine hn (Fin.ext ?_)
    have := congrArg BitVec.toNat (StableHlo.Predicate.cmpi_eq_iff.mp hc)
    rw [BitVec.toNat_ofNat, Nat.mod_eq_of_lt (by have := n.isLt; omega)] at this
    exact this

/-- The one-hot product selects, for lane `r`, the table row whose number the lane holds. -/
private theorem hot_matmul_apply (x0 : Vec Ideal S1x4096x128 .bf16) (x : Vec Ideal S1x1x1024 .i32) (r : Fin 1024) (d : Fin 128)
    (h : (x (ix3 0 0 r)).toNat < 4096) :
    matmul dot_S1024x4096_S4096x128_S1024x128_1_0_0_1_n_n none (hot x) (k0_pay5 x0)
      (constant (F := Ideal) S1024x128 .f32 0x00000000#32) (ix2 r d) = trow x0 ⟨(x (ix3 0 0 r)).toNat, h⟩ d := by
  refine (matmul_at _ _ r d).trans ?_
  refine (Finset.sum_congr rfl fun n _ => ?_).trans
    (SumLaws.sum_onehot_mul (⟨(x (ix3 0 0 r)).toNat, h⟩ : Fin 4096) (fun n => trow x0 n d))
  rw [hot_apply x r n h]
  refine congrArg (fun z : EReal => (if n = (⟨(x (ix3 0 0 r)).toNat, h⟩ : Fin 4096) then (1 : EReal) else 0) * z) ?_
  unfold k0_pay5
  exact shapeCast_1ab_ab_apply x0 _ n d

/-- The first product at `(r, d)`: entry `d` of the table row that lane `r` of its row numbers names. -/
private theorem pay6_apply (x0 : Vec Ideal S1x4096x128 .bf16) (x2 : Vec Ideal S1x1x1024 .i32) (r : Fin 1024) (d : Fin 128)
    (h : (x2 (ix3 0 0 r)).toNat < 4096) :
    k0_pay6 x0 x2 (ix2 r d) = trow x0 ⟨(x2 (ix3 0 0 r)).toNat, h⟩ d :=
  hot_matmul_apply x0 x2 r d h

/-- The second product at `(r, d)`, likewise. -/
private theorem pay7_apply (x0 : Vec Ideal S1x4096x128 .bf16) (x4 : Vec Ideal S1x1x1024 .i32) (r : Fin 1024) (d : Fin 128)
    (h : (x4 (ix3 0 0 r)).toNat < 4096) :
    k0_pay7 x0 x4 (ix2 r d) = trow x0 ⟨(x4 (ix3 0 0 r)).toNat, h⟩ d :=
  hot_matmul_apply x0 x4 r d h

/-! ## The lanes' arithmetic, read at an index -/

/-- The squared difference of two arrays, at an index. -/
private theorem sqdiff_apply (a b : FVec Ideal S1024x128 .f32) (i : S1024x128.Idx) :
    mulf (subf a b) (subf a b) i = (a i - b i) * (a i - b i) := rfl

/-- The sum over a row's entries of the squared differences of the two selected rows. -/
private theorem pay8_apply (x0 : Vec Ideal S1x4096x128 .bf16) (x2 x3 : Vec Ideal S1x1x1024 .i32) (r : Fin 1024)
    (h2 : (x2 (ix3 0 0 r)).toNat < 4096) (h3 : (x3 (ix3 0 0 r)).toNat < 4096) :
    k0_pay8 x0 x2 x3 (ix1 r)
      = ∑ d : Fin 128, (trow x0 ⟨(x2 (ix3 0 0 r)).toNat, h2⟩ d - trow x0 ⟨(x3 (ix3 0 0 r)).toNat, h3⟩ d)
          * (trow x0 ⟨(x2 (ix3 0 0 r)).toNat, h2⟩ d - trow x0 ⟨(x3 (ix3 0 0 r)).toNat, h3⟩ d) := by
  unfold k0_pay8
  refine (rowSum_apply _ rfl r).trans ?_
  refine Finset.sum_congr rfl fun d _ => ?_
  refine (sqdiff_apply _ _ _).trans ?_
  exact congrArg₂ (fun u v : EReal => (u - v) * (u - v)) (pay6_apply x0 x2 r d h2) (hot_matmul_apply x0 x3 r d h3)

/-- A block of 1024 values laid out as a column, at `(r, 0)`: the value of lane `r`. -/
private theorem pay9_apply (v50 : Vec Ideal S1x1x1024 .f32) (r : Fin 1024) (u : Fin 1) :
    k0_pay9 v50 (ix2 r u) = v50 (ix3 0 0 r) := by
  unfold k0_pay9
  refine (shapeCast_a_a1_apply _ _ r u).trans ?_
  exact shapeCast_11a_a_apply v50 _ r

/-- The same for the second such column. -/
private theorem pay10_apply (v63 : Vec Ideal S1x1x1024 .f32) (r : Fin 1024) (u : Fin 1) :
    k0_pay10 v63 (ix2 r u) = v63 (ix3 0 0 r) := by
  unfold k0_pay10
  refine (shapeCast_a_a1_apply _ _ r u).trans ?_
  exact shapeCast_11a_a_apply v63 _ r

/-- The masked positive hinge term of lane `r` from the lane's squared distance. -/
private theorem pay11_apply (v38 : FVec Ideal S1024 .f32) (v50 v63 : Vec Ideal S1x1x1024 .f32) (r : Fin 1024) :
    k0_pay11 v38 v50 v63 (ix2 r 0)
      = max (Ideal.sqrt (v38 (ix1 r) + epsE) - v50 (ix3 0 0 r) + mgE) 0 * v63 (ix3 0 0 r) := by
  unfold k0_pay11
  show max (Ideal.sqrt (shapeCast S1024x1 v38 shapeCasts_S1024_S1024x1 (ix2 r 0) + epsE) - k0_pay9 v50 (ix2 r 0) + mgE)
      (Ideal.ofBits .f32 0x00000000#32) * k0_pay10 v63 (ix2 r 0) = _
  rw [Ideal.ofBits_zero_f32, shapeCast_a_a1_apply v38 _ r 0, pay9_apply, pay10_apply]

/-- The masked negative hinge term of lane `r` from the two selected rows. -/
private theorem pay12_apply (v15 v35 : FVec Ideal S1024x128 .f32) (v50 v63 : Vec Ideal S1x1x1024 .f32) (r : Fin 1024) :
    k0_pay12 v15 v35 v50 v63 (ix2 r 0)
      = max (v50 (ix3 0 0 r)
          - Ideal.sqrt ((∑ d : Fin 128, (v15 (ix2 r d) - v35 (ix2 r d)) * (v15 (ix2 r d) - v35 (ix2 r d))) + epsE) + mgE) 0
        * v63 (ix3 0 0 r) := by
  unfold k0_pay12
  show max (k0_pay9 v50 (ix2 r 0)
      - Ideal.sqrt (shapeCast S1024x1 (multiReduction (F := Ideal) .add [1] S1024 (mulf (subf v15 v35) (subf v15 v35)) 0x00000000#32
          reduces_S1024x128_S1024 (.inl rfl) rfl) shapeCasts_S1024_S1024x1 (ix2 r 0) + epsE) + mgE)
      (Ideal.ofBits .f32 0x00000000#32) * k0_pay10 v63 (ix2 r 0) = _
  rw [Ideal.ofBits_zero_f32, shapeCast_a_a1_apply _ _ r 0, rowSum_apply _ rfl r, pay9_apply, pay10_apply]
  rfl

/-- The indicator of "one of the two values is positive" at an index: the two comparisons against zero joined by "or",
    widened and converted, are one exactly when one of the values is positive. -/
private theorem count_apply (a b : FVec Ideal S1024x1 .f32) (i : S1024x1.Idx) :
    (sitofp (F := Ideal) .f32 (extui 32 (ori (cmpf .ogt a (broadcast S1024x1 (Scalar.ofBits (F := Ideal) .f32 0x00000000#32)))
      (cmpf .ogt b (broadcast S1024x1 (Scalar.ofBits (F := Ideal) .f32 0x00000000#32)))) natLt_1_32)) i
      = if counted (a i) (b i) then 1 else 0 := by
  show ((((IntOp.ori (Ideal.cmp .ogt (a i) (Ideal.ofBits .f32 0x00000000#32))
    (Ideal.cmp .ogt (b i) (Ideal.ofBits .f32 0x00000000#32))).setWidth 32).toInt : ℝ) : EReal) = _
  rw [Ideal.ofBits_zero_f32, bit_real]
  have hc : ∀ z : EReal, Ideal.cmp .ogt z 0 = BitVec.ofBool (decide (0 < z)) := fun _ => rfl
  rw [hc, hc]
  by_cases hp : 0 < a i
  · have hcnt : counted (a i) (b i) := Or.inl hp
    rw [if_pos hcnt, if_pos]
    rw [decide_eq_true hp]
    cases decide (0 < b i) <;> decide
  · by_cases hn : 0 < b i
    · have hcnt : counted (a i) (b i) := Or.inr hn
      rw [if_pos hcnt, if_pos]
      rw [decide_eq_false hp, decide_eq_true hn]
      decide
    · rw [if_neg (show ¬ counted (a i) (b i) from fun h => h.elim hp hn), if_neg]
      rw [decide_eq_false hp, decide_eq_false hn]
      decide

section
variable (x0 : Vec Ideal S1x4096x128 .bf16) (x1 : Vec Ideal S1x1x1024 .f32) (x2 x3 x4 : Vec Ideal S1x1x1024 .i32)
  (x5 : Vec Ideal S1x1x1024 .f32)
  (h2 : ∀ r : Fin 1024, (x2 (ix3 0 0 r)).toNat < 4096) (h3 : ∀ r : Fin 1024, (x3 (ix3 0 0 r)).toNat < 4096)
  (h4 : ∀ r : Fin 1024, (x4 (ix3 0 0 r)).toNat < 4096)

/-- The masked positive term of lane `r`. -/
def lanePos (r : Fin 1024) : EReal :=
  posL (trow x0 ⟨(x2 (ix3 0 0 r)).toNat, h2 r⟩) (trow x0 ⟨(x3 (ix3 0 0 r)).toNat, h3 r⟩) (x1 (ix3 0 0 r)) * x5 (ix3 0 0 r)

/-- The masked negative term of lane `r`. -/
def laneNeg (r : Fin 1024) : EReal :=
  negL (trow x0 ⟨(x2 (ix3 0 0 r)).toNat, h2 r⟩) (trow x0 ⟨(x4 (ix3 0 0 r)).toNat, h4 r⟩) (x1 (ix3 0 0 r)) * x5 (ix3 0 0 r)

/-- The positive payload at lane `r` is the lane's masked positive term. -/
private theorem lanePos_eq (r : Fin 1024) :
    k0_pay11 (k0_pay8 x0 x2 x3) x1 x5 (ix2 r 0) = lanePos x0 x1 x2 x3 x5 h2 h3 r := by
  rw [pay11_apply, pay8_apply x0 x2 x3 r (h2 r) (h3 r)]
  rfl

/-- The negative payload at lane `r` is the lane's masked negative term. -/
private theorem laneNeg_eq (r : Fin 1024) :
    k0_pay12 (k0_pay6 x0 x2) (k0_pay7 x0 x4) x1 x5 (ix2 r 0) = laneNeg x0 x1 x2 x4 x5 h2 h4 r := by
  have e6 : ∀ d : Fin 128, k0_pay6 x0 x2 (ix2 r d) = trow x0 ⟨(x2 (ix3 0 0 r)).toNat, h2 r⟩ d :=
    fun d => pay6_apply x0 x2 r d (h2 r)
  have e7 : ∀ d : Fin 128, k0_pay7 x0 x4 (ix2 r d) = trow x0 ⟨(x4 (ix3 0 0 r)).toNat, h4 r⟩ d :=
    fun d => pay7_apply x0 x4 r d (h4 r)
  rw [pay12_apply]
  simp only [e6, e7]
  rfl

/-- One step's sum: the masked terms of its 1024 lanes, summed. -/
theorem stepT_eq :
    stepT (F := Ideal) x0 x1 x2 x3 x4 x5 (ix2 0 0)
      = ∑ r : Fin 1024, (lanePos x0 x1 x2 x3 x5 h2 h3 r + laneNeg x0 x1 x2 x4 x5 h2 h4 r) := by
  unfold stepT k0_pay13
  refine (shapeCast_a_1a_apply _ _ 0 0).trans ?_
  refine (colSum_apply _ rfl).trans ?_
  refine Finset.sum_congr rfl fun r _ => ?_
  exact congrArg₂ (fun u v : EReal => u + v) (lanePos_eq x0 x1 x2 x3 x5 h2 h3 r) (laneNeg_eq x0 x1 x2 x4 x5 h2 h4 r)

/-- One step's count: the number of its lanes with a positive masked term. -/
theorem stepC_eq :
    stepC (F := Ideal) x0 x1 x2 x3 x4 x5 (ix2 0 0)
      = ∑ r : Fin 1024, (if counted (lanePos x0 x1 x2 x3 x5 h2 h3 r) (laneNeg x0 x1 x2 x4 x5 h2 h4 r) then (1 : EReal) else 0) := by
  unfold stepC k0_pay14
  refine (shapeCast_a_1a_apply _ _ 0 0).trans ?_
  refine (colSum_apply _ rfl).trans ?_
  refine Finset.sum_congr rfl fun r _ => ?_
  refine (count_apply _ _ _).trans ?_
  rw [lanePos_eq x0 x1 x2 x3 x5 h2 h3 r, laneNeg_eq x0 x1 x2 x4 x5 h2 h4 r]

end

/-- Adding a step's value to what the buffer held: the one element of the stored block. -/
theorem pay1_apply (v77 : FVec Ideal S1x1 .f32) (v80 : Vec Ideal S1x1x1 .f32) :
    k0_pay1 (F := Ideal) v77 v80 (ix3 0 0 0) = v80 (ix3 0 0 0) + v77 (ix2 0 0) := by
  unfold k0_pay1
  refine (shapeCast_ab_1ab_apply _ _ 0 0 0).trans ?_
  exact congrArg (· + v77 (ix2 0 0)) (shapeCast_1ab_ab_apply v80 _ 0 0)

theorem pay2_apply (v79 : FVec Ideal S1x1 .f32) (v86 : Vec Ideal S1x1x1 .f32) :
    k0_pay2 (F := Ideal) v79 v86 (ix3 0 0 0) = v86 (ix3 0 0 0) + v79 (ix2 0 0) := by
  unfold k0_pay2
  refine (shapeCast_ab_1ab_apply _ _ 0 0 0).trans ?_
  exact congrArg (· + v79 (ix2 0 0)) (shapeCast_1ab_ab_apply v86 _ 0 0)

/-- The reset value is zero. -/
theorem pay3_apply : k0_pay3 (F := Ideal) (ix3 0 0 0) = 0 := by
  unfold k0_pay3
  refine (shapeCast_ab_1ab_apply _ _ 0 0 0).trans ?_
  exact Ideal.ofBits_zero_f32

theorem pay4_apply : k0_pay4 (F := Ideal) (ix3 0 0 0) = 0 := by
  unfold k0_pay4
  refine (shapeCast_ab_1ab_apply _ _ 0 0 0).trans ?_
  exact Ideal.ofBits_zero_f32

end Cert.Margin.KPayload

end
-- ==== Proof.KHost.lean ====
/-
  The arrays the pallas call finds at its entry, read at an index. The host lines before the call transpose the
  table to [group, row, entry], split the triplets into three [group, position] arrays of row numbers, look up each
  triplet's threshold (the group's threshold at the label of the anchor's row), pad the position axis from 100000 to
  100352 with zeros (the mask: ones padded with zeros), and insert a unit axis.
-/
import proofs.«402186_j57732950393273_3_alg».proof.Proof.Gen.KernelIdeal.Frame
import proofs.«402186_j57732950393273_3_alg».proof.Proof.Spec
import proofs.«402186_j57732950393273_3_alg».proof.Proof.Gathers
import Idealize.ShloMosaic.Lib.StableHlo.Predicate
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.Margin.KHost

open Idealize.ShloMosaic Idealize.ShloMosaic.ValueIdx Idealize.SL.Sem Cert.KernelIdeal Cert.KernelIdeal.Gen Cert.Margin

variable (m : (ℓ : Loc nD τ sig) → Buf (Elt Ideal) ℓ) (c : Dev nD)

/-- The table argument on core `c`. -/
abbrev argX : S4096x4x128.Idx → EReal := m ((c.tc : Thread nD τ).loc main_arg0)
/-- The labels argument. -/
abbrev argL : S4096.Idx → BitVec 32 := m ((c.tc : Thread nD τ).loc main_arg1)
/-- The triplets argument. -/
abbrev argT : S4x100000x3.Idx → BitVec 32 := m ((c.tc : Thread nD τ).loc main_arg2)
/-- The thresholds argument. -/
abbrev argB : S4x100.Idx → EReal := m ((c.tc : Thread nD τ).loc main_arg3)

/-- A column of the [group, position, member] array, sliced off and flattened to [group, position], read at an index. -/
private theorem slice_col_apply {α : Type} (x : S4x100000x3.Idx → α) (off : Fin 3 → Nat)
    (h : S4x100000x3.Slices off S4x100000x1) (j : Fin 3) (h0 : off 0 = 0) (h1 : off 1 = 0) (h2 : off 2 = j.val)
    (hc : S4x100000x1.ShapeCasts S4x100000) (k : Fin 4) (t : Fin 100000) :
    shapeCast S4x100000 (extractStridedSlice S4x100000x1 off x h) hc (ix2 k t) = x (ix3 k t j) := by
  refine (shapeCast_apply _ hc (ix2 k t) (ix3 k t 0) ?_).trans ?_
  · rw [Shape.rowMajor_val_three, Shape.rowMajor_val_two]
    show (k.val * 100000 + t.val) * 1 + 0 = k.val * 100000 + t.val
    omega
  · refine extractStridedSlice_apply off x h (ix3 k t 0) (ix3 k t j) (fun a => ?_)
    match a with
    | ⟨0, _⟩ => show k.val = off 0 + k.val; omega
    | ⟨1, _⟩ => show t.val = off 1 + t.val; omega
    | ⟨2, _⟩ => show j.val = off 2 + 0; omega

/-- A [group, position] array padded from 100000 to 100352 positions and given a unit middle axis, read at an index:
    the array at the true positions, the padding value past them. -/
private theorem pad_unit_apply {α : Type} (x : S4x100000.Idx → α) (v : S_.Idx → α)
    (hp : S4x100000.Pads (![0, 0] : Fin 2 → Nat) ![0, 352] ![0, 0] S4x100352) (hu : 0 < S_.numel)
    (hb : S4x100352.BroadcastsInDim S4x1x100352 (![0, 2] : Fin 2 → Fin S4x1x100352.rank)) (k : Fin 4) (T : Fin 100352) :
    broadcastInDim S4x1x100352 ![0, 2] hb (pad S4x100352 ![0, 0] ![0, 352] ![0, 0] x v hp hu) (ix3 k 0 T)
      = if h : T.val < 100000 then x (ix2 k ⟨T.val, h⟩) else v ix0 := by
  refine (broadcastInDim_apply _ hb _ (ix3 k 0 T) (ix2 k T) (fun a => ?_)).trans ?_
  · match a with
    | ⟨0, _⟩ => rfl
    | ⟨1, _⟩ => rfl
  · by_cases h : T.val < 100000
    · rw [dif_pos h]
      refine pad_apply_of_inside _ _ _ x v hp hu (ix2 k T) (ix2 k ⟨T.val, h⟩) (fun a => ?_)
      match a with
      | ⟨0, _⟩ => show k.val = 0 + k.val * (0 + 1); omega
      | ⟨1, _⟩ => show T.val = 0 + T.val * (0 + 1); omega
    · rw [dif_neg h]
      refine (pad_apply_of_not_inside _ _ _ x v hp hu (ix2 k T) 1 (fun hin => ?_)).trans
        (congrArg v (funext fun d => d.elim0))
      have h3 : (T.val - 0) / (0 + 1) < 100000 := hin.2.2
      omega

/-- A left fold by `and` that starts at one and meets only ones is one. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, _, hi, h =>
    foldl_andi_one f l _ (IntOp.andi_eq_one.2 ⟨hi, h a List.mem_cons_self⟩)
      (fun n hn => h n (List.mem_cons_of_mem _ hn))

/-- A reduction by `and` from one of an array of ones is one. -/
private theorem reduce_andi_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl]
  exact foldl_andi_one x _ _ hinit (fun i _ => hx i)

/-- A choice whose condition is one takes its first operand. -/
private theorem select_one {α : Type} (cnd : BitVec 1) (a b : α) (h : cnd = 1#1) : Scalar.select cnd a b = a := by
  subst h; rfl

/-- A word below 4096 read unsigned is not negative read signed (so counting it from the end of 4096 rows leaves it),
    and lies between 0 and 4095. -/
private theorem word_facts (w : BitVec 32) (hw : w.toNat < 4096) :
    Scalar.select (IntOp.cmpi .slt w 0#32) (IntOp.addi w 4096#32) w = w
      ∧ IntOp.cmpi .sge w 0#32 = 1#1 ∧ IntOp.cmpi .sle w 4095#32 = 1#1 := by
  have hi : w.toInt = (w.toNat : ℤ) := StableHlo.Predicate.toInt_eq_toNat_of_lt (by omega)
  have e0 : (0#32 : BitVec 32).toInt = 0 := by decide
  have e1 : (4095#32 : BitVec 32).toInt = 4095 := by decide
  refine ⟨?_, ?_, ?_⟩
  · have hn : ¬ IntOp.cmpi .slt w 0#32 = 1#1 := by
      rw [IntOp.cmpi_slt, hi, e0]; omega
    exact if_neg hn
  · rw [IntOp.cmpi_sge, hi, e0]; omega
  · rw [IntOp.cmpi_sle, hi, e1]; omega

/-- The anchors' row numbers, each counted from the end when negative, as a [group, position, 1] array: for in-range
    triplets the anchor's word itself. -/
private theorem norm_anchor_apply (Tr : S4x100000x3.Idx → BitVec 32) (hR : InRange Tr) (i : S4x100000x1.Idx) :
    shapeCast S4x100000x1
        (select
          (cmpi .slt (shapeCast S4x100000 (extractStridedSlice S4x100000x1 ![0, 0, 0] Tr slices_S4x100000x3_S4x100000x1_0_0_0)
              shapeCasts_S4x100000x1_S4x100000)
            (broadcastInDim S4x100000 ![] bcast_S_S4x100000 (constantI S_ 32 0#32)))
          (addi (shapeCast S4x100000 (extractStridedSlice S4x100000x1 ![0, 0, 0] Tr slices_S4x100000x3_S4x100000x1_0_0_0)
              shapeCasts_S4x100000x1_S4x100000)
            (broadcastInDim S4x100000 ![] bcast_S_S4x100000 (constantI S_ 32 4096#32)))
          (shapeCast S4x100000 (extractStridedSlice S4x100000x1 ![0, 0, 0] Tr slices_S4x100000x3_S4x100000x1_0_0_0)
            shapeCasts_S4x100000x1_S4x100000))
        shapeCasts_S4x100000_S4x100000x1 i
      = Tr (ix3 (i 0) (i 1) 0) := by
  refine (shapeCast_apply _ shapeCasts_S4x100000_S4x100000x1 i (ix2 (i 0) (i 1)) ?_).trans ?_
  · rw [Shape.rowMajor_val_two, Shape.rowMajor_val_three]
    have h2 : (i 2).val < 1 := (i 2).isLt
    show (i 0).val * 100000 + (i 1).val = ((i 0).val * 100000 + (i 1).val) * 1 + (i 2).val
    omega
  · have e3 := slice_col_apply Tr ![0, 0, 0] slices_S4x100000x3_S4x100000x1_0_0_0 0 rfl rfl rfl
      shapeCasts_S4x100000x1_S4x100000 (i 0) (i 1)
    show Scalar.select (IntOp.cmpi .slt (shapeCast S4x100000 _ _ (ix2 (i 0) (i 1))) 0#32)
      (IntOp.addi (shapeCast S4x100000 _ _ (ix2 (i 0) (i 1))) 4096#32) (shapeCast S4x100000 _ _ (ix2 (i 0) (i 1))) = _
    rw [e3]
    exact (word_facts _ (hR _)).1

/-- The per-row thresholds [group, row]: the group's threshold at the row's label, a negative label counted from the
    end of the 100 labels. -/
private theorem thr_rows_apply (B : S4x100.Idx → EReal) (L : S4096.Idx → BitVec 32) (k : Fin 4) (r : Fin 4096) :
    Host.gather gather_S4x100_S4096x1_S4x4096_0_1_n_n_1_1_41 B
        (broadcastInDim S4096x1 ![0] bcast_S4096_S4096x1_0
          (select (cmpi .slt L (broadcastInDim S4096 ![] bcast_S_S4096 (constantI S_ 32 0#32)))
            (addi L (broadcastInDim S4096 ![] bcast_S_S4096 (constantI S_ 32 100#32))) L)) (ix2 k r)
      = B (ix2 k (colIx (normLabel (L (ix1 r))))) := by
  refine (Gathers.gather_cols_apply (K := 4) (C := 100) (n := 4096) (by decide)
    gather_S4x100_S4096x1_S4x4096_0_1_n_n_1_1_41_wf B _ k r).trans ?_
  rw [broadcastInDim_apply _ bcast_S4096_S4096x1_0 _ (ix2 r 0) (ix1 r) (fun a => by match a with | ⟨0, _⟩ => rfl)]
  rfl

/-- One cell of the per-triplet thresholds: the in-bounds test of the anchor's row number is one, and the row's
    threshold is the one the specification names. -/
private theorem thr_cell_apply (Tr : S4x100000x3.Idx → BitVec 32) (hR : InRange Tr) (L : S4096.Idx → BitVec 32)
    (B : S4x100.Idx → EReal) (V5 : S4x100000x1.Idx → BitVec 32) (hV5 : ∀ i, V5 i = Tr (ix3 (i 0) (i 1) 0))
    (V14 : S4x4096.Idx → EReal) (hV14 : ∀ k r, V14 (ix2 k r) = B (ix2 k (colIx (normLabel (L (ix1 r))))))
    (fill : S4x100000.Idx → EReal) (k : Fin 4) (t : Fin 100000) :
    select
        (Host.reduce IntOp.andi
          (andi (cmpi .sge V5 (broadcastInDim S4x100000x1 ![] bcast_S_S4x100000x1 (constantI S_ 32 0#32)))
            (cmpi .sle V5 (broadcastInDim S4x100000x1 ![0, 1, 2] bcast_S1x1x1_S4x100000x1_0_1_2
              (broadcastInDim S1x1x1 ![2] bcast_S1_S1x1x1_2 (constantI S1 32 4095#32)))))
          (constantI S_ 1 1#1) reducesTo_S4x100000x1_S4x100000_d2 h_S_)
        (Host.gather gather_S4x4096_S4x100000x1_S4x100000_n_1_0_0_1_2_11 V14 V5) fill (ix2 k t)
      = thr L Tr B k t := by
  refine (select_one _ _ _ ?_).trans ?_
  · refine reduce_andi_one _ _ _ _ _ rfl (fun i => ?_)
    refine IntOp.andi_eq_one.2 ⟨?_, ?_⟩
    · show IntOp.cmpi .sge (V5 i) 0#32 = 1#1
      rw [hV5]
      exact (word_facts _ (hR _)).2.1
    · show IntOp.cmpi .sle (V5 i) 4095#32 = 1#1
      rw [hV5]
      exact (word_facts _ (hR _)).2.2
  · refine (Gathers.gather_along_apply (K := 4) (N := 4096) (T := 100000) (by decide)
      gather_S4x4096_S4x100000x1_S4x100000_n_1_0_0_1_2_11_wf V14 V5 k t).trans ?_
    rw [hV5, hV14]
    rfl

/-- The table as the call finds it: groups first. -/
theorem table_eq (k : Fin 4) (n : Fin 4096) (d : Fin 128) :
    (V m c main_v1 : S4x4096x128.Idx → EReal) (ix3 k n d) = argX m c (ix3 n k d) := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rw [truncf_apply]
  refine transpose_apply _ _ _ _ (ix3 n k d) (fun b => ?_)
  match b with
  | ⟨0, _⟩ => rfl
  | ⟨1, _⟩ => rfl
  | ⟨2, _⟩ => rfl

/-- The anchors' row numbers, padded with zeros. -/
theorem aidx_eq (k : Fin 4) (T : Fin 100352) :
    (V m c main_v23 : S4x1x100352.Idx → BitVec 32) (ix3 k 0 T)
      = if h : T.val < 100000 then argT m c (ix3 k ⟨T.val, h⟩ 0) else 0#32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  simp only [StableHlo.TRef.ofBuf, StableHlo.TRef.toBuf, cast_eq]
  refine (pad_unit_apply _ _ _ _ _ k T).trans ?_
  by_cases h : T.val < 100000
  · rw [dif_pos h, dif_pos h]
    exact slice_col_apply (argT m c) ![0, 0, 0] _ 0 rfl rfl rfl _ k ⟨T.val, h⟩
  · rw [dif_neg h, dif_neg h]
    rfl

/-- The positives' row numbers, padded with zeros. -/
theorem pidx_eq (k : Fin 4) (T : Fin 100352) :
    (V m c main_v24 : S4x1x100352.Idx → BitVec 32) (ix3 k 0 T)
      = if h : T.val < 100000 then argT m c (ix3 k ⟨T.val, h⟩ 1) else 0#32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  simp only [StableHlo.TRef.ofBuf, StableHlo.TRef.toBuf, cast_eq]
  refine (pad_unit_apply _ _ _ _ _ k T).trans ?_
  by_cases h : T.val < 100000
  · rw [dif_pos h, dif_pos h]
    exact slice_col_apply (argT m c) ![0, 0, 1] _ 1 rfl rfl rfl _ k ⟨T.val, h⟩
  · rw [dif_neg h, dif_neg h]
    rfl

/-- The negatives' row numbers, padded with zeros. -/
theorem nidx_eq (k : Fin 4) (T : Fin 100352) :
    (V m c main_v25 : S4x1x100352.Idx → BitVec 32) (ix3 k 0 T)
      = if h : T.val < 100000 then argT m c (ix3 k ⟨T.val, h⟩ 2) else 0#32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  simp only [StableHlo.TRef.ofBuf, StableHlo.TRef.toBuf, cast_eq]
  refine (pad_unit_apply _ _ _ _ _ k T).trans ?_
  by_cases h : T.val < 100000
  · rw [dif_pos h, dif_pos h]
    exact slice_col_apply (argT m c) ![0, 0, 2] _ 2 rfl rfl rfl _ k ⟨T.val, h⟩
  · rw [dif_neg h, dif_neg h]
    rfl

/-- The mask: one at the true positions, zero at the padding. -/
theorem mask_eq (k : Fin 4) (T : Fin 100352) :
    (V m c main_v26 : S4x1x100352.Idx → EReal) (ix3 k 0 T) = if T.val < 100000 then oneE else 0 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  simp only [StableHlo.TRef.ofBuf, StableHlo.TRef.toBuf, cast_eq]
  refine (pad_unit_apply _ _ _ _ _ k T).trans ?_
  by_cases h : T.val < 100000
  · rw [dif_pos h, if_pos h]
    rfl
  · rw [dif_neg h, if_neg h]
    exact sitofp_zero (φ := .f32)

/-- The thresholds per triplet, padded with zeros. -/
theorem thr_eq (hR : InRange (argT m c)) (k : Fin 4) (T : Fin 100352) :
    (V m c main_v22 : S4x1x100352.Idx → EReal) (ix3 k 0 T)
      = if h : T.val < 100000 then thr (argL m c) (argT m c) (argB m c) k ⟨T.val, h⟩ else 0 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  simp only [StableHlo.TRef.ofBuf, StableHlo.TRef.toBuf, cast_eq]
  refine (pad_unit_apply _ _ _ _ _ k T).trans ?_
  by_cases h : T.val < 100000
  · rw [dif_pos h, dif_pos h]
    refine thr_cell_apply (argT m c) hR (argL m c) (argB m c) _ ?_ _ ?_ _ k ⟨T.val, h⟩
    · intro i
      exact norm_anchor_apply (argT m c) hR i
    · intro k' r
      exact thr_rows_apply (argB m c) (argL m c) k' r
  · rw [dif_neg h, dif_neg h]
    exact sitofp_zero (φ := .f32)

end Cert.Margin.KHost

end
-- ==== Proof.KBlocks.lean ====
/-
  The blocks a grid point loads, read at an index. Point `t` of the 4 × 98 grid is group t / 98, step t % 98: its
  table block is the group's whole [4096 × 128] table, and each of its five [1024] blocks is positions
  1024 · (t % 98) … 1024 · (t % 98) + 1023 of the group's row of the padded [group, 1, position] array.
-/
import proofs.«402186_j57732950393273_3_alg».proof.Proof.Gen.KernelIdeal.Frame
import Idealize.ShloMosaic.Lib.Pipeline.Value
import Idealize.ShloMosaic.Lib.ValueIdx

noncomputable section

namespace Cert.Margin.KBlocks

open Idealize.ShloMosaic Idealize.ShloMosaic.ValueIdx Idealize.SL.Sem Cert.KernelIdeal Cert.KernelIdeal.Gen

variable {F : FTy → Type} [FloatOps F]
variable (m : (ℓ : Loc nD τ sig) → Buf (Elt F) ℓ) (c : Dev nD)

/-- The group of a grid point. -/
def grp (t : Fin cfg0.N) : Fin 4 := ⟨t.val / 98, by have := t.isLt; have : cfg0.N = 392 := N_0; omega⟩

/-- The position in the padded axis of lane `r` at a grid point. -/
def pos (t : Fin cfg0.N) (r : Fin 1024) : Fin 100352 := ⟨1024 * (t.val % 98) + r.val, by have := r.isLt; omega⟩

/-- The table window's block index at a grid point: the group, and the whole of the other two axes. -/
private theorem idx_facts0 : ∀ t : Fin cfg0.N, win0_0.index t (0 : Fin 3) = t.val / 98
    ∧ win0_0.index t (1 : Fin 3) = 0 ∧ win0_0.index t (2 : Fin 3) = 0 :=
  (by decide +kernel : ∀ t : Fin grid0.N, _)

/-- Window 1's block index at a grid point: the group, the one row, the step. -/
private theorem idx_facts1 : ∀ t : Fin cfg0.N, win0_1.index t (0 : Fin 3) = t.val / 98
    ∧ win0_1.index t (1 : Fin 3) = 0 ∧ win0_1.index t (2 : Fin 3) = t.val % 98 :=
  (by decide +kernel : ∀ t : Fin grid0.N, _)

/-- Window 2's block index at a grid point: the group, the one row, the step. -/
private theorem idx_facts2 : ∀ t : Fin cfg0.N, win0_2.index t (0 : Fin 3) = t.val / 98
    ∧ win0_2.index t (1 : Fin 3) = 0 ∧ win0_2.index t (2 : Fin 3) = t.val % 98 :=
  (by decide +kernel : ∀ t : Fin grid0.N, _)

/-- Window 3's block index at a grid point: the group, the one row, the step. -/
private theorem idx_facts3 : ∀ t : Fin cfg0.N, win0_3.index t (0 : Fin 3) = t.val / 98
    ∧ win0_3.index t (1 : Fin 3) = 0 ∧ win0_3.index t (2 : Fin 3) = t.val % 98 :=
  (by decide +kernel : ∀ t : Fin grid0.N, _)

/-- Window 4's block index at a grid point: the group, the one row, the step. -/
private theorem idx_facts4 : ∀ t : Fin cfg0.N, win0_4.index t (0 : Fin 3) = t.val / 98
    ∧ win0_4.index t (1 : Fin 3) = 0 ∧ win0_4.index t (2 : Fin 3) = t.val % 98 :=
  (by decide +kernel : ∀ t : Fin grid0.N, _)

/-- Window 5's block index at a grid point: the group, the one row, the step. -/
private theorem idx_facts5 : ∀ t : Fin cfg0.N, win0_5.index t (0 : Fin 3) = t.val / 98
    ∧ win0_5.index t (1 : Fin 3) = 0 ∧ win0_5.index t (2 : Fin 3) = t.val % 98 :=
  (by decide +kernel : ∀ t : Fin grid0.N, _)

theorem blk0 (t : Fin cfg0.N) (n : Fin 4096) (d : Fin 128) :
    (iblk m c 0 t : S1x4096x128.Idx → Elt F .bf16) (ix3 0 n d)
      = (V m c main_v1 : S4x4096x128.Idx → Elt F .bf16) (ix3 (grp t) n d) := by
  obtain ⟨e0, e1, e2⟩ := idx_facts0 t
  show V m c main_v1 (((cfg0.win 0).blk t).view.emb (ix3 0 n d)) = V m c main_v1 (ix3 (grp t) n d)
  congr 1
  funext a; apply Fin.ext
  -- a block's coordinate on an axis is its block index times the block's size plus the coordinate inside the block
  match a with
  | ⟨0, _⟩ => show win0_0.index t (0 : Fin 3) * 1 + 1 * 0 = t.val / 98; omega
  | ⟨1, _⟩ => show win0_0.index t (1 : Fin 3) * 4096 + 1 * n.val = n.val; omega
  | ⟨2, _⟩ => show win0_0.index t (2 : Fin 3) * 128 + 1 * d.val = d.val; omega

theorem blk1 (t : Fin cfg0.N) (r : Fin 1024) :
    (iblk m c 1 t : S1x1x1024.Idx → Elt F .f32) (ix3 0 0 r)
      = (V m c main_v22 : S4x1x100352.Idx → Elt F .f32) (ix3 (grp t) 0 (pos t r)) := by
  obtain ⟨e0, e1, e2⟩ := idx_facts1 t
  show V m c main_v22 (((cfg0.win 1).blk t).view.emb (ix3 0 0 r)) = V m c main_v22 (ix3 (grp t) 0 (pos t r))
  congr 1
  funext a; apply Fin.ext
  match a with
  | ⟨0, _⟩ => show win0_1.index t (0 : Fin 3) * 1 + 1 * 0 = t.val / 98; omega
  | ⟨1, _⟩ => show win0_1.index t (1 : Fin 3) * 1 + 1 * 0 = 0; omega
  | ⟨2, _⟩ => show win0_1.index t (2 : Fin 3) * 1024 + 1 * r.val = 1024 * (t.val % 98) + r.val; omega

theorem blk2 (t : Fin cfg0.N) (r : Fin 1024) :
    (iblk m c 2 t : S1x1x1024.Idx → Elt F .i32) (ix3 0 0 r)
      = (V m c main_v23 : S4x1x100352.Idx → Elt F .i32) (ix3 (grp t) 0 (pos t r)) := by
  obtain ⟨e0, e1, e2⟩ := idx_facts2 t
  show V m c main_v23 (((cfg0.win 2).blk t).view.emb (ix3 0 0 r)) = V m c main_v23 (ix3 (grp t) 0 (pos t r))
  congr 1
  funext a; apply Fin.ext
  match a with
  | ⟨0, _⟩ => show win0_2.index t (0 : Fin 3) * 1 + 1 * 0 = t.val / 98; omega
  | ⟨1, _⟩ => show win0_2.index t (1 : Fin 3) * 1 + 1 * 0 = 0; omega
  | ⟨2, _⟩ => show win0_2.index t (2 : Fin 3) * 1024 + 1 * r.val = 1024 * (t.val % 98) + r.val; omega

theorem blk3 (t : Fin cfg0.N) (r : Fin 1024) :
    (iblk m c 3 t : S1x1x1024.Idx → Elt F .i32) (ix3 0 0 r)
      = (V m c main_v24 : S4x1x100352.Idx → Elt F .i32) (ix3 (grp t) 0 (pos t r)) := by
  obtain ⟨e0, e1, e2⟩ := idx_facts3 t
  show V m c main_v24 (((cfg0.win 3).blk t).view.emb (ix3 0 0 r)) = V m c main_v24 (ix3 (grp t) 0 (pos t r))
  congr 1
  funext a; apply Fin.ext
  match a with
  | ⟨0, _⟩ => show win0_3.index t (0 : Fin 3) * 1 + 1 * 0 = t.val / 98; omega
  | ⟨1, _⟩ => show win0_3.index t (1 : Fin 3) * 1 + 1 * 0 = 0; omega
  | ⟨2, _⟩ => show win0_3.index t (2 : Fin 3) * 1024 + 1 * r.val = 1024 * (t.val % 98) + r.val; omega

theorem blk4 (t : Fin cfg0.N) (r : Fin 1024) :
    (iblk m c 4 t : S1x1x1024.Idx → Elt F .i32) (ix3 0 0 r)
      = (V m c main_v25 : S4x1x100352.Idx → Elt F .i32) (ix3 (grp t) 0 (pos t r)) := by
  obtain ⟨e0, e1, e2⟩ := idx_facts4 t
  show V m c main_v25 (((cfg0.win 4).blk t).view.emb (ix3 0 0 r)) = V m c main_v25 (ix3 (grp t) 0 (pos t r))
  congr 1
  funext a; apply Fin.ext
  match a with
  | ⟨0, _⟩ => show win0_4.index t (0 : Fin 3) * 1 + 1 * 0 = t.val / 98; omega
  | ⟨1, _⟩ => show win0_4.index t (1 : Fin 3) * 1 + 1 * 0 = 0; omega
  | ⟨2, _⟩ => show win0_4.index t (2 : Fin 3) * 1024 + 1 * r.val = 1024 * (t.val % 98) + r.val; omega

theorem blk5 (t : Fin cfg0.N) (r : Fin 1024) :
    (iblk m c 5 t : S1x1x1024.Idx → Elt F .f32) (ix3 0 0 r)
      = (V m c main_v26 : S4x1x100352.Idx → Elt F .f32) (ix3 (grp t) 0 (pos t r)) := by
  obtain ⟨e0, e1, e2⟩ := idx_facts5 t
  show V m c main_v26 (((cfg0.win 5).blk t).view.emb (ix3 0 0 r)) = V m c main_v26 (ix3 (grp t) 0 (pos t r))
  congr 1
  funext a; apply Fin.ext
  match a with
  | ⟨0, _⟩ => show win0_5.index t (0 : Fin 3) * 1 + 1 * 0 = t.val / 98; omega
  | ⟨1, _⟩ => show win0_5.index t (1 : Fin 3) * 1 + 1 * 0 = 0; omega
  | ⟨2, _⟩ => show win0_5.index t (2 : Fin 3) * 1024 + 1 * r.val = 1024 * (t.val % 98) + r.val; omega

end Cert.Margin.KBlocks

end
-- ==== Proof.KStep.lean ====
/-
  One grid step's sum and count in terms of the inputs. Point `t` is group t / 98, step t % 98; its lanes are the
  positions 1024 · (t % 98) + r of the padded axis. At a true position the mask is one and the lane's terms are the
  triplet's; at a padded position the mask is zero and the lane contributes nothing.
-/
import proofs.«402186_j57732950393273_3_alg».proof.Proof.Gen.KernelIdeal.Frame
import proofs.«402186_j57732950393273_3_alg».proof.Proof.Spec
import proofs.«402186_j57732950393273_3_alg».proof.Proof.KPayload
import proofs.«402186_j57732950393273_3_alg».proof.Proof.KHost
import proofs.«402186_j57732950393273_3_alg».proof.Proof.KBlocks
import Idealize.ShloMosaic.Lib.ValueIdx
import Idealize.ShloMosaic.PureOps.Ideal.Laws

noncomputable section

open scoped BigOperators

namespace Cert.Margin.KStep

open Idealize.ShloMosaic Idealize.ShloMosaic.ValueIdx Idealize.SL.Sem Cert.KernelIdeal Cert.KernelIdeal.Gen Cert.Margin
open Cert.Margin.KHost Cert.Margin.KBlocks

variable (m : (ℓ : Loc nD τ sig) → Buf (Elt Ideal) ℓ) (c : Dev nD)

/-- The terms of position `T` of group `k`: the triplet's two terms at a true position, zero at a padded one. -/
def gT (k : Fin 4) (T : ℕ) : EReal :=
  if h : T < 100000 then posT (argX m c) (argL m c) (argT m c) (argB m c) k ⟨T, h⟩
    + negT (argX m c) (argL m c) (argT m c) (argB m c) k ⟨T, h⟩ else 0

/-- The indicator of position `T` of group `k`: one when the triplet is counted, zero otherwise and at a padded position. -/
def gC (k : Fin 4) (T : ℕ) : EReal :=
  if h : T < 100000 then
    (if counted (posT (argX m c) (argL m c) (argT m c) (argB m c) k ⟨T, h⟩)
      (negT (argX m c) (argL m c) (argT m c) (argB m c) k ⟨T, h⟩) then 1 else 0) else 0

/-- The float pattern of one is one. -/
theorem oneE_eq : oneE = 1 := by
  rw [show (1 : EReal) = ((1 : ℝ) : EReal) by norm_cast]
  simp [oneE, Ideal.ofBits, Ideal.ieee, -EReal.coe_mul]; norm_num

/-! ## A lane's two terms from what its blocks read -/

section Lane
variable (x0 : Vec Ideal S1x4096x128 .bf16) (x1 : Vec Ideal S1x1x1024 .f32) (x2 x3 x4 : Vec Ideal S1x1x1024 .i32)
  (x5 : Vec Ideal S1x1x1024 .f32)
  (h2 : ∀ r : Fin 1024, (x2 (ix3 0 0 r)).toNat < 4096) (h3 : ∀ r : Fin 1024, (x3 (ix3 0 0 r)).toNat < 4096)
  (h4 : ∀ r : Fin 1024, (x4 (ix3 0 0 r)).toNat < 4096)

/-- The positive term of a lane whose two rows, threshold and mask entry are known. -/
private theorem lanePos_of (r : Fin 1024) (u v : Fin 128 → EReal) (b q : EReal)
    (eu : ∀ d, x0 (ix3 0 ⟨(x2 (ix3 0 0 r)).toNat, h2 r⟩ d) = u d)
    (ev : ∀ d, x0 (ix3 0 ⟨(x3 (ix3 0 0 r)).toNat, h3 r⟩ d) = v d)
    (e1 : x1 (ix3 0 0 r) = b) (e5 : x5 (ix3 0 0 r) = q) :
    KPayload.lanePos x0 x1 x2 x3 x5 h2 h3 r = posL u v b * q := by
  unfold KPayload.lanePos
  rw [e1, e5, show KPayload.trow x0 ⟨(x2 (ix3 0 0 r)).toNat, h2 r⟩ = u from funext eu,
    show KPayload.trow x0 ⟨(x3 (ix3 0 0 r)).toNat, h3 r⟩ = v from funext ev]

/-- The negative term of a lane whose two rows, threshold and mask entry are known. -/
private theorem laneNeg_of (r : Fin 1024) (u v : Fin 128 → EReal) (b q : EReal)
    (eu : ∀ d, x0 (ix3 0 ⟨(x2 (ix3 0 0 r)).toNat, h2 r⟩ d) = u d)
    (ev : ∀ d, x0 (ix3 0 ⟨(x4 (ix3 0 0 r)).toNat, h4 r⟩ d) = v d)
    (e1 : x1 (ix3 0 0 r) = b) (e5 : x5 (ix3 0 0 r) = q) :
    KPayload.laneNeg x0 x1 x2 x4 x5 h2 h4 r = negL u v b * q := by
  unfold KPayload.laneNeg
  rw [e1, e5, show KPayload.trow x0 ⟨(x2 (ix3 0 0 r)).toNat, h2 r⟩ = u from funext eu,
    show KPayload.trow x0 ⟨(x4 (ix3 0 0 r)).toNat, h4 r⟩ = v from funext ev]

/-- A lane whose mask entry is zero has a zero positive term. -/
private theorem lanePos_zero (r : Fin 1024) (e5 : x5 (ix3 0 0 r) = 0) : KPayload.lanePos x0 x1 x2 x3 x5 h2 h3 r = 0 := by
  unfold KPayload.lanePos
  rw [e5, mul_zero]

/-- A lane whose mask entry is zero has a zero negative term. -/
private theorem laneNeg_zero (r : Fin 1024) (e5 : x5 (ix3 0 0 r) = 0) : KPayload.laneNeg x0 x1 x2 x4 x5 h2 h4 r = 0 := by
  unfold KPayload.laneNeg
  rw [e5, mul_zero]

end Lane

/-! ## What a grid point's blocks read at a lane -/

section Point
variable (hR : InRange (argT m c)) (t : Fin cfg0.N)

include hR in
/-- Every anchor lane of a block holds a row number: a triplet entry at a true position, zero at a padded one. -/
private theorem idx2_lt (r : Fin 1024) : ((iblk m c 2 t : S1x1x1024.Idx → BitVec 32) (ix3 0 0 r)).toNat < 4096 := by
  rw [KBlocks.blk2, KHost.aidx_eq]
  split
  · exact hR _
  · decide

include hR in
/-- Every positive lane of a block holds a row number. -/
private theorem idx3_lt (r : Fin 1024) : ((iblk m c 3 t : S1x1x1024.Idx → BitVec 32) (ix3 0 0 r)).toNat < 4096 := by
  rw [KBlocks.blk3, KHost.pidx_eq]
  split
  · exact hR _
  · decide

include hR in
/-- Every negative lane of a block holds a row number. -/
private theorem idx4_lt (r : Fin 1024) : ((iblk m c 4 t : S1x1x1024.Idx → BitVec 32) (ix3 0 0 r)).toNat < 4096 := by
  rw [KBlocks.blk4, KHost.nidx_eq]
  split
  · exact hR _
  · decide

/-- At a true position the anchor lane holds the triplet's first entry. -/
private theorem idx2_true (r : Fin 1024) (hT : 1024 * (t.val % 98) + r.val < 100000) :
    (iblk m c 2 t : S1x1x1024.Idx → BitVec 32) (ix3 0 0 r)
      = argT m c (ix3 (grp t) (⟨1024 * (t.val % 98) + r.val, hT⟩ : Fin 100000) 0) := by
  rw [KBlocks.blk2, KHost.aidx_eq, dif_pos (show (pos t r).val < 100000 from hT)]
  rfl

/-- At a true position the positive lane holds the triplet's second entry. -/
private theorem idx3_true (r : Fin 1024) (hT : 1024 * (t.val % 98) + r.val < 100000) :
    (iblk m c 3 t : S1x1x1024.Idx → BitVec 32) (ix3 0 0 r)
      = argT m c (ix3 (grp t) (⟨1024 * (t.val % 98) + r.val, hT⟩ : Fin 100000) 1) := by
  rw [KBlocks.blk3, KHost.pidx_eq, dif_pos (show (pos t r).val < 100000 from hT)]
  rfl

/-- At a true position the negative lane holds the triplet's third entry. -/
private theorem idx4_true (r : Fin 1024) (hT : 1024 * (t.val % 98) + r.val < 100000) :
    (iblk m c 4 t : S1x1x1024.Idx → BitVec 32) (ix3 0 0 r)
      = argT m c (ix3 (grp t) (⟨1024 * (t.val % 98) + r.val, hT⟩ : Fin 100000) 2) := by
  rw [KBlocks.blk4, KHost.nidx_eq, dif_pos (show (pos t r).val < 100000 from hT)]
  rfl

/-- The table block's row named by a word that is a triplet entry is the input table's row that entry names, in the
    point's group. -/
private theorem row_of (wv : BitVec 32) (hlt : wv.toNat < 4096) (i : S4x100000x3.Idx) (e : wv = argT m c i) (d : Fin 128) :
    (iblk m c 0 t : S1x4096x128.Idx → EReal) (ix3 0 (⟨wv.toNat, hlt⟩ : Fin 4096) d)
      = argX m c (ix3 (rowIx (argT m c i)) (grp t) d) := by
  subst e
  rw [KBlocks.blk0, KHost.table_eq, rowIx_of_lt hlt]

include hR in
/-- At a true position the threshold lane holds the triplet's threshold. -/
private theorem thr_true (r : Fin 1024) (hT : 1024 * (t.val % 98) + r.val < 100000) :
    (iblk m c 1 t : S1x1x1024.Idx → EReal) (ix3 0 0 r)
      = thr (argL m c) (argT m c) (argB m c) (grp t) (⟨1024 * (t.val % 98) + r.val, hT⟩ : Fin 100000) := by
  rw [KBlocks.blk1, KHost.thr_eq m c hR, dif_pos (show (pos t r).val < 100000 from hT)]
  rfl

/-- At a true position the mask lane holds one. -/
private theorem mask_true (r : Fin 1024) (hT : 1024 * (t.val % 98) + r.val < 100000) :
    (iblk m c 5 t : S1x1x1024.Idx → EReal) (ix3 0 0 r) = (1 : EReal) := by
  rw [KBlocks.blk5, KHost.mask_eq, if_pos (show (pos t r).val < 100000 from hT), oneE_eq]

/-- At a padded position the mask lane holds zero. -/
private theorem mask_pad (r : Fin 1024) (hT : ¬ 1024 * (t.val % 98) + r.val < 100000) :
    (iblk m c 5 t : S1x1x1024.Idx → EReal) (ix3 0 0 r) = (0 : EReal) := by
  rw [KBlocks.blk5, KHost.mask_eq, if_neg (show ¬ (pos t r).val < 100000 from hT)]

include hR in
/-- At a true position the lane's positive term is the triplet's. -/
private theorem lanePos_true (r : Fin 1024) (hT : 1024 * (t.val % 98) + r.val < 100000)
    (h2 : ∀ r : Fin 1024, ((iblk m c 2 t : S1x1x1024.Idx → BitVec 32) (ix3 0 0 r)).toNat < 4096)
    (h3 : ∀ r : Fin 1024, ((iblk m c 3 t : S1x1x1024.Idx → BitVec 32) (ix3 0 0 r)).toNat < 4096) :
    KPayload.lanePos (iblk m c 0 t) (iblk m c 1 t) (iblk m c 2 t) (iblk m c 3 t) (iblk m c 5 t) h2 h3 r
      = posT (argX m c) (argL m c) (argT m c) (argB m c) (grp t) (⟨1024 * (t.val % 98) + r.val, hT⟩ : Fin 100000) := by
  rw [lanePos_of (iblk m c 0 t) (iblk m c 1 t) (iblk m c 2 t) (iblk m c 3 t) (iblk m c 5 t) h2 h3 r
    (rowOf (argX m c) (memIx (argT m c) (grp t) ⟨1024 * (t.val % 98) + r.val, hT⟩ 0) (grp t))
    (rowOf (argX m c) (memIx (argT m c) (grp t) ⟨1024 * (t.val % 98) + r.val, hT⟩ 1) (grp t))
    (thr (argL m c) (argT m c) (argB m c) (grp t) ⟨1024 * (t.val % 98) + r.val, hT⟩) 1
    (fun d => row_of m c t _ (h2 r) _ (idx2_true m c t r hT) d)
    (fun d => row_of m c t _ (h3 r) _ (idx3_true m c t r hT) d)
    (thr_true m c hR t r hT) (mask_true m c t r hT), mul_one]
  rfl

include hR in
/-- At a true position the lane's negative term is the triplet's. -/
private theorem laneNeg_true (r : Fin 1024) (hT : 1024 * (t.val % 98) + r.val < 100000)
    (h2 : ∀ r : Fin 1024, ((iblk m c 2 t : S1x1x1024.Idx → BitVec 32) (ix3 0 0 r)).toNat < 4096)
    (h4 : ∀ r : Fin 1024, ((iblk m c 4 t : S1x1x1024.Idx → BitVec 32) (ix3 0 0 r)).toNat < 4096) :
    KPayload.laneNeg (iblk m c 0 t) (iblk m c 1 t) (iblk m c 2 t) (iblk m c 4 t) (iblk m c 5 t) h2 h4 r
      = negT (argX m c) (argL m c) (argT m c) (argB m c) (grp t) (⟨1024 * (t.val % 98) + r.val, hT⟩ : Fin 100000) := by
  rw [laneNeg_of (iblk m c 0 t) (iblk m c 1 t) (iblk m c 2 t) (iblk m c 4 t) (iblk m c 5 t) h2 h4 r
    (rowOf (argX m c) (memIx (argT m c) (grp t) ⟨1024 * (t.val % 98) + r.val, hT⟩ 0) (grp t))
    (rowOf (argX m c) (memIx (argT m c) (grp t) ⟨1024 * (t.val % 98) + r.val, hT⟩ 2) (grp t))
    (thr (argL m c) (argT m c) (argB m c) (grp t) ⟨1024 * (t.val % 98) + r.val, hT⟩) 1
    (fun d => row_of m c t _ (h2 r) _ (idx2_true m c t r hT) d)
    (fun d => row_of m c t _ (h4 r) _ (idx4_true m c t r hT) d)
    (thr_true m c hR t r hT) (mask_true m c t r hT), mul_one]
  rfl

end Point

/-- One step's sum: the terms of its 1024 positions. -/
theorem stepT_at (hR : InRange (argT m c)) (t : Fin cfg0.N) :
    KPayload.stepT (F := Ideal) (iblk m c 0 t) (iblk m c 1 t) (iblk m c 2 t) (iblk m c 3 t) (iblk m c 4 t) (iblk m c 5 t) (ix2 0 0)
      = ∑ r : Fin 1024, gT m c (grp t) (1024 * (t.val % 98) + r.val) := by
  have h2 := idx2_lt m c hR t
  have h3 := idx3_lt m c hR t
  have h4 := idx4_lt m c hR t
  rw [KPayload.stepT_eq _ _ _ _ _ _ h2 h3 h4]
  refine Finset.sum_congr rfl fun r _ => ?_
  unfold gT
  by_cases hT : 1024 * (t.val % 98) + r.val < 100000
  · rw [lanePos_true m c hR t r hT h2 h3, laneNeg_true m c hR t r hT h2 h4, dif_pos hT]
  · rw [lanePos_zero _ _ _ _ _ h2 h3 r (mask_pad m c t r hT), laneNeg_zero _ _ _ _ _ h2 h4 r (mask_pad m c t r hT),
      dif_neg hT, add_zero]

/-- One step's count: the indicators of its 1024 positions. -/
theorem stepC_at (hR : InRange (argT m c)) (t : Fin cfg0.N) :
    KPayload.stepC (F := Ideal) (iblk m c 0 t) (iblk m c 1 t) (iblk m c 2 t) (iblk m c 3 t) (iblk m c 4 t) (iblk m c 5 t) (ix2 0 0)
      = ∑ r : Fin 1024, gC m c (grp t) (1024 * (t.val % 98) + r.val) := by
  have h2 := idx2_lt m c hR t
  have h3 := idx3_lt m c hR t
  have h4 := idx4_lt m c hR t
  rw [KPayload.stepC_eq _ _ _ _ _ _ h2 h3 h4]
  refine Finset.sum_congr rfl fun r _ => ?_
  unfold gC
  by_cases hT : 1024 * (t.val % 98) + r.val < 100000
  · rw [lanePos_true m c hR t r hT h2 h3, laneNeg_true m c hR t r hT h2 h4, dif_pos hT]
  · rw [lanePos_zero _ _ _ _ _ h2 h3 r (mask_pad m c t r hT), laneNeg_zero _ _ _ _ _ h2 h4 r (mask_pad m c t r hT),
      dif_neg hT, if_neg (fun h : counted 0 0 => h.elim (lt_irrefl _) (lt_irrefl _))]

end Cert.Margin.KStep

end
-- ==== Proof.KPieces.lean ====
/-
  What one grid point leaves in the two accumulators. At the first step of a group the kernel stores zero, reads it
  back and adds the step's value; at every later step it adds the step's value to what the point before left. Each
  accumulator is a single element written by stores that cover it, so what it holds is the last store's value.
-/
import proofs.«402186_j57732950393273_3_alg».proof.Proof.Gen.KernelIdeal.Frame
import Idealize.ShloMosaic.Lib.Pipeline.Value
import Idealize.ShloMosaic.Lib.Tactic

set_option maxRecDepth 16384

noncomputable section

namespace Cert.Margin.KPieces

open Idealize.ShloMosaic Idealize.ShloMosaic.TcCoe Idealize.SL.Sem Idealize.ShloMosaic.Tactic Cert.KernelIdeal Cert.KernelIdeal.Gen

variable {F : FTy → Type} [FloatOps F]

/-- Every offset of the whole-buffer accesses is zero. -/
theorem hz : (![0, 0, 0] : Fin 3 → Nat) = fun _ => 0 := funext fun a => by fin_cases a <;> rfl

/-- The sum of masked terms one step computes from its loaded blocks. -/
abbrev stepT (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) : FVec F S1x1 .f32 :=
  k0_pay13 (k0_pay6 x0 x2) (k0_pay7 x0 x4) (k0_pay8 x0 x2 x3) x1 x5

/-- The count one step computes from its loaded blocks. -/
abbrev stepC (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) : FVec F S1x1 .f32 :=
  k0_pay14 (k0_pay6 x0 x2) (k0_pay7 x0 x4) (k0_pay8 x0 x2 x3) x1 x5

/-- First step of a group, the sum: zero stored, read back, the step's sum added. -/
theorem outA6 (c : Dev nD) (i : grid0.Coords) (arg2 : Memref sig .tc .vmem S1x4096x128 .bf16) (harg2 : arg2.IsWhole) (arg3 : Memref sig .tc .vmem S1x1x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1x1x1024 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) :
    out0_A_6 c i arg2 harg2 arg3 harg3 arg4 harg4 arg5 harg5 arg6 harg6 arg7 harg7 arg8 harg8 arg9 harg9 hc0 x0 x1 x2 x3 x4 x5 = k0_pay1 (stepT x0 x1 x2 x3 x4 x5) k0_pay3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread, harg6.read_unread,
    harg7.read_unread, View.ld_unit_zero (S := S1x4096x128) hz, View.ld_unit_zero (S := S1x1x1024) hz]

/-- First step of a group, the count. -/
theorem outA7 (c : Dev nD) (i : grid0.Coords) (arg2 : Memref sig .tc .vmem S1x4096x128 .bf16) (harg2 : arg2.IsWhole) (arg3 : Memref sig .tc .vmem S1x1x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1x1x1024 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) :
    out0_A_7 c i arg2 harg2 arg3 harg3 arg4 harg4 arg5 harg5 arg6 harg6 arg7 harg7 arg8 harg8 arg9 harg9 hc0 x0 x1 x2 x3 x4 x5 = k0_pay2 (stepC x0 x1 x2 x3 x4 x5) k0_pay4 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread, harg6.read_unread,
    harg7.read_unread, View.ld_unit_zero (S := S1x4096x128) hz, View.ld_unit_zero (S := S1x1x1024) hz]

/-- A later step, the sum: the step's sum added to what the accumulator held. -/
theorem outB6 (c : Dev nD) (i : grid0.Coords) (arg2 : Memref sig .tc .vmem S1x4096x128 .bf16) (harg2 : arg2.IsWhole) (arg3 : Memref sig .tc .vmem S1x1x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1x1x1024 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) (xo6 : Vec F S1x1x1 .f32) (xo7 : Vec F S1x1x1 .f32) :
    out0_B_6 c i arg2 harg2 arg3 harg3 arg4 harg4 arg5 harg5 arg6 harg6 arg7 harg7 arg8 harg8 arg9 harg9 hc0 x0 x1 x2 x3 x4 x5 xo6 xo7 = k0_pay1 (stepT x0 x1 x2 x3 x4 x5) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, View.ld_unit_zero (S := S1x4096x128) hz, View.ld_unit_zero (S := S1x1x1024) hz,
    View.ld_unit_zero (S := S1x1x1) hz]

/-- A later step, the count. -/
theorem outB7 (c : Dev nD) (i : grid0.Coords) (arg2 : Memref sig .tc .vmem S1x4096x128 .bf16) (harg2 : arg2.IsWhole) (arg3 : Memref sig .tc .vmem S1x1x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1x1x1024 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 : Vec F S1x4096x128 .bf16) (x1 : Vec F S1x1x1024 .f32) (x2 : Vec F S1x1x1024 .i32) (x3 : Vec F S1x1x1024 .i32) (x4 : Vec F S1x1x1024 .i32) (x5 : Vec F S1x1x1024 .f32) (xo6 : Vec F S1x1x1 .f32) (xo7 : Vec F S1x1x1 .f32) :
    out0_B_7 c i arg2 harg2 arg3 harg3 arg4 harg4 arg5 harg5 arg6 harg6 arg7 harg7 arg8 harg8 arg9 harg9 hc0 x0 x1 x2 x3 x4 x5 xo6 xo7 = k0_pay2 (stepC x0 x1 x2 x3 x4 x5) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg9.read_unread, View.ld_unit_zero (S := S1x4096x128) hz, View.ld_unit_zero (S := S1x1x1024) hz,
    View.ld_unit_zero (S := S1x1x1) hz]

end Cert.Margin.KPieces

end
-- ==== Proof.KAccum.lean ====
/-
  The accumulators across the grid. Within a group the 98 steps run in order; the first stores zero and adds its
  step's value, each later one adds its own to what the step before left. So after step j of a group an accumulator
  holds the sum of the values of steps 0 … j, and the group's element of the result array, written back after step 97,
  is the sum over all 98 steps.
-/
import proofs.«402186_j57732950393273_3_alg».proof.Proof.Gen.KernelIdeal.Frame
import proofs.«402186_j57732950393273_3_alg».proof.Proof.KPieces
import proofs.«402186_j57732950393273_3_alg».proof.Proof.KPayload
import Idealize.ShloMosaic.Lib.Pipeline.Value
import Idealize.ShloMosaic.Lib.ValueIdx
import Idealize.ShloMosaic.PureOps.Ideal.Laws

noncomputable section

open scoped BigOperators

namespace Cert.Margin.KAccum

open Idealize.ShloMosaic Idealize.ShloMosaic.ValueIdx Idealize.SL.Sem Cert.KernelIdeal Cert.KernelIdeal.Gen
open Idealize.ShloMosaic.Pipeline (Dat)

variable (m : (ℓ : Loc nD τ sig) → Buf (Elt Ideal) ℓ) (c : Dev nD)

/-- The sum step `p` of the grid computes (zero past the grid's end). -/
def sT (p : ℕ) : EReal :=
  if h : p < cfg0.N then
    KPayload.stepT (F := Ideal) (iblk m c 0 ⟨p, h⟩) (iblk m c 1 ⟨p, h⟩) (iblk m c 2 ⟨p, h⟩) (iblk m c 3 ⟨p, h⟩) (iblk m c 4 ⟨p, h⟩)
      (iblk m c 5 ⟨p, h⟩) (ix2 0 0)
  else 0

/-- The count step `p` of the grid computes (zero past the grid's end). -/
def sC (p : ℕ) : EReal :=
  if h : p < cfg0.N then
    KPayload.stepC (F := Ideal) (iblk m c 0 ⟨p, h⟩) (iblk m c 1 ⟨p, h⟩) (iblk m c 2 ⟨p, h⟩) (iblk m c 3 ⟨p, h⟩) (iblk m c 4 ⟨p, h⟩)
      (iblk m c 5 ⟨p, h⟩) (ix2 0 0)
  else 0

/-- Inside the grid, the sum of step `p` is the step's sum of its loaded blocks. -/
private theorem sT_of_lt (p : ℕ) (h : p < cfg0.N) :
    sT m c p = KPayload.stepT (F := Ideal) (iblk m c 0 ⟨p, h⟩) (iblk m c 1 ⟨p, h⟩) (iblk m c 2 ⟨p, h⟩) (iblk m c 3 ⟨p, h⟩)
      (iblk m c 4 ⟨p, h⟩) (iblk m c 5 ⟨p, h⟩) (ix2 0 0) := by
  unfold sT; exact dif_pos h

/-- Inside the grid, the count of step `p` is the step's count of its loaded blocks. -/
private theorem sC_of_lt (p : ℕ) (h : p < cfg0.N) :
    sC m c p = KPayload.stepC (F := Ideal) (iblk m c 0 ⟨p, h⟩) (iblk m c 1 ⟨p, h⟩) (iblk m c 2 ⟨p, h⟩) (iblk m c 3 ⟨p, h⟩)
      (iblk m c 4 ⟨p, h⟩) (iblk m c 5 ⟨p, h⟩) (ix2 0 0) := by
  unfold sC; exact dif_pos h

/-- At the first step of a group the first accumulator holds zero plus that step's sum. -/
private theorem total_first (n : ℕ) (hn : n < cfg0.N) (h0 : n % 98 = 0) :
    (outsAt0 m c n hn).1 (ix3 0 0 0) = ∑ j ∈ Finset.range (n % 98 + 1), sT m c (98 * (n / 98) + j) := by
  have e1 : n % 98 + 1 = 1 := by omega
  have e2 : 98 * (n / 98) + 0 = n := by omega
  rw [e1, Finset.sum_range_one, e2, outsAt0_A m c ⟨n, hn⟩ h0]
  dsimp only
  rw [KPieces.outA6, KPayload.pay1_apply, KPayload.pay3_apply, zero_add, sT_of_lt m c n hn]
  rfl

/-- At the first step of a group the second accumulator holds zero plus that step's count. -/
private theorem count_first (n : ℕ) (hn : n < cfg0.N) (h0 : n % 98 = 0) :
    (outsAt0 m c n hn).2 (ix3 0 0 0) = ∑ j ∈ Finset.range (n % 98 + 1), sC m c (98 * (n / 98) + j) := by
  have e1 : n % 98 + 1 = 1 := by omega
  have e2 : 98 * (n / 98) + 0 = n := by omega
  rw [e1, Finset.sum_range_one, e2, outsAt0_A m c ⟨n, hn⟩ h0]
  dsimp only
  rw [KPieces.outA7, KPayload.pay2_apply, KPayload.pay4_apply, zero_add, sC_of_lt m c n hn]
  rfl

/-- After point `n` the first accumulator holds the sums of its group's steps so far. -/
theorem outs_total (n : ℕ) (hn : n < cfg0.N) :
    (outsAt0 m c n hn).1 (ix3 0 0 0) = ∑ j ∈ Finset.range (n % 98 + 1), sT m c (98 * (n / 98) + j) := by
  induction n with
  | zero => exact total_first m c 0 hn rfl
  | succ n ih =>
    by_cases h0 : (n + 1) % 98 = 0
    · exact total_first m c (n + 1) hn h0
    · have e1 : (n + 1) % 98 + 1 = (n % 98 + 1) + 1 := by omega
      have e2 : (n + 1) / 98 = n / 98 := by omega
      have e3 : 98 * (n / 98) + (n % 98 + 1) = n + 1 := by omega
      rw [outsAt0_B m c ⟨n + 1, hn⟩ h0]
      dsimp only
      rw [KPieces.outB6, KPayload.pay1_apply, e1, e2, Finset.sum_range_succ, e3, sT_of_lt m c (n + 1) hn,
        ← ih (Nat.lt_of_succ_lt hn)]
      rfl

/-- After point `n` the second accumulator holds the counts of its group's steps so far. -/
theorem outs_count (n : ℕ) (hn : n < cfg0.N) :
    (outsAt0 m c n hn).2 (ix3 0 0 0) = ∑ j ∈ Finset.range (n % 98 + 1), sC m c (98 * (n / 98) + j) := by
  induction n with
  | zero => exact count_first m c 0 hn rfl
  | succ n ih =>
    by_cases h0 : (n + 1) % 98 = 0
    · exact count_first m c (n + 1) hn h0
    · have e1 : (n + 1) % 98 + 1 = (n % 98 + 1) + 1 := by omega
      have e2 : (n + 1) / 98 = n / 98 := by omega
      have e3 : 98 * (n / 98) + (n % 98 + 1) = n + 1 := by omega
      rw [outsAt0_B m c ⟨n + 1, hn⟩ h0]
      dsimp only
      rw [KPieces.outB7, KPayload.pay2_apply, e1, e2, Finset.sum_range_succ, e3, sC_of_lt m c (n + 1) hn,
        ← ih (Nat.lt_of_succ_lt hn)]
      rfl

/-- A block of one element has one index. -/
private theorem unit_idx6 (i : grid0.Coords) (y : (win0_6.xblock i).Idx) : win0_6.xinj i y = ix3 0 0 0 := by
  funext a
  apply Fin.ext
  have h := (y a).isLt
  match a with
  | ⟨0, _⟩ => exact Nat.lt_one_iff.mp h
  | ⟨1, _⟩ => exact Nat.lt_one_iff.mp h
  | ⟨2, _⟩ => exact Nat.lt_one_iff.mp h

/-- The same for the second result array's block. -/
private theorem unit_idx7 (i : grid0.Coords) (y : (win0_7.xblock i).Idx) : win0_7.xinj i y = ix3 0 0 0 := by
  funext a
  apply Fin.ext
  have h := (y a).isLt
  match a with
  | ⟨0, _⟩ => exact Nat.lt_one_iff.mp h
  | ⟨1, _⟩ => exact Nat.lt_one_iff.mp h
  | ⟨2, _⟩ => exact Nat.lt_one_iff.mp h

/-- The block of the first result array at point `t` is the one of group `t / 98`. -/
private theorem idx6 : ∀ t : Fin cfg0.N, win0_6.index t (0 : Fin 3) = t.val / 98 ∧ win0_6.index t (1 : Fin 3) = 0 ∧ win0_6.index t (2 : Fin 3) = 0 :=
  (by decide +kernel : ∀ t : Fin grid0.N, win0_6.index t (0 : Fin 3) = t.val / 98 ∧ win0_6.index t (1 : Fin 3) = 0 ∧ win0_6.index t (2 : Fin 3) = 0)

/-- The block of the second result array at point `t` is the one of group `t / 98`. -/
private theorem idx7 : ∀ t : Fin cfg0.N, win0_7.index t (0 : Fin 3) = t.val / 98 ∧ win0_7.index t (1 : Fin 3) = 0 ∧ win0_7.index t (2 : Fin 3) = 0 :=
  (by decide +kernel : ∀ t : Fin grid0.N, win0_7.index t (0 : Fin 3) = t.val / 98 ∧ win0_7.index t (1 : Fin 3) = 0 ∧ win0_7.index t (2 : Fin 3) = 0)

/-- The first result array after the run: per group, the sum over its 98 steps. -/
theorem final_total (k : Fin 4) :
    ((dats m 0 c).arrAt 6 cfg0.N : S4x1x1.Idx → EReal) (ix3 k 0 0) = ∑ j ∈ Finset.range 98, sT m c (98 * k.val + j) := by
  have hN : cfg0.N = 392 := N_0
  let G : S4x1x1.Idx → EReal := fun i => ∑ j ∈ Finset.range 98, sT m c (98 * (i 0).val + j)
  have hG : ∀ t, (cfg0.win 6).flush t = true → (dats m 0 c).flushed 6 t = ((cfg0.win 6).blk t).view.read (Elt Ideal) G := by
    intro t hf
    have h97 : t.val % 98 = 97 := (flush0_6 t).mp hf
    funext y
    show (cfg0.win 6).cut (grid0.coords t) ((dats m 0 c).after 6 t) y = G ((win0_6.rect t).emb y)
    rw [after0_6]
    show (outsAt0 m c t.val t.isLt).1 (win0_6.xinj (grid0.coords t) y)
      = ∑ j ∈ Finset.range 98, sT m c (98 * ((win0_6.rect t).emb y 0).val + j)
    have hy : (y 0).val = 0 := Nat.lt_one_iff.mp (y 0).isLt
    have e : t.val / 98 * win0_6.size 0 + (y 0).val = t.val / 98 := by
      rw [hy]; show t.val / 98 * 1 + 0 = t.val / 98; omega
    rw [unit_idx6, outs_total, h97, Pipeline.Window.rect_emb_val, (idx6 t).1, e]
  have hk : 98 * k.val + 97 < cfg0.N := by have := k.isLt; omega
  have hf : (cfg0.win 6).flush ⟨98 * k.val + 97, hk⟩ = true :=
    (flush0_6 _).mpr (by show (98 * k.val + 97) % 98 = 97; omega)
  exact (dats m 0 c).arrAt_apply_of_mem 6 G hG cfg0.N ⟨98 * k.val + 97, hk⟩ (ix3 k 0 0) hk hf (by
    show ix3 k 0 0 ∈ ((View.whole main_v27_0).slice (win0_6.rect ⟨98 * k.val + 97, hk⟩)).set
    rw [View.set_slice_whole, Rect.mem_set_unit]
    intro a
    have hi := idx6 ⟨98 * k.val + 97, hk⟩
    have hd : (98 * k.val + 97) / 98 = k.val := by omega
    match a with
    | ⟨0, _⟩ =>
      show win0_6.index ⟨98 * k.val + 97, hk⟩ 0 * 1 ≤ k.val ∧ k.val < win0_6.index ⟨98 * k.val + 97, hk⟩ 0 * 1 + 1
      rw [hi.1]; dsimp only; omega
    | ⟨1, _⟩ =>
      show win0_6.index ⟨98 * k.val + 97, hk⟩ 1 * 1 ≤ 0 ∧ 0 < win0_6.index ⟨98 * k.val + 97, hk⟩ 1 * 1 + 1
      rw [hi.2.1]; omega
    | ⟨2, _⟩ =>
      show win0_6.index ⟨98 * k.val + 97, hk⟩ 2 * 1 ≤ 0 ∧ 0 < win0_6.index ⟨98 * k.val + 97, hk⟩ 2 * 1 + 1
      rw [hi.2.2]; omega)

/-- The second result array after the run: per group, the count over its 98 steps. -/
theorem final_count (k : Fin 4) :
    ((dats m 0 c).arrAt 7 cfg0.N : S4x1x1.Idx → EReal) (ix3 k 0 0) = ∑ j ∈ Finset.range 98, sC m c (98 * k.val + j) := by
  have hN : cfg0.N = 392 := N_0
  let G : S4x1x1.Idx → EReal := fun i => ∑ j ∈ Finset.range 98, sC m c (98 * (i 0).val + j)
  have hG : ∀ t, (cfg0.win 7).flush t = true → (dats m 0 c).flushed 7 t = ((cfg0.win 7).blk t).view.read (Elt Ideal) G := by
    intro t hf
    have h97 : t.val % 98 = 97 := (flush0_7 t).mp hf
    funext y
    show (cfg0.win 7).cut (grid0.coords t) ((dats m 0 c).after 7 t) y = G ((win0_7.rect t).emb y)
    rw [after0_7]
    show (outsAt0 m c t.val t.isLt).2 (win0_7.xinj (grid0.coords t) y)
      = ∑ j ∈ Finset.range 98, sC m c (98 * ((win0_7.rect t).emb y 0).val + j)
    have hy : (y 0).val = 0 := Nat.lt_one_iff.mp (y 0).isLt
    have e : t.val / 98 * win0_7.size 0 + (y 0).val = t.val / 98 := by
      rw [hy]; show t.val / 98 * 1 + 0 = t.val / 98; omega
    rw [unit_idx7, outs_count, h97, Pipeline.Window.rect_emb_val, (idx7 t).1, e]
  have hk : 98 * k.val + 97 < cfg0.N := by have := k.isLt; omega
  have hf : (cfg0.win 7).flush ⟨98 * k.val + 97, hk⟩ = true :=
    (flush0_7 _).mpr (by show (98 * k.val + 97) % 98 = 97; omega)
  exact (dats m 0 c).arrAt_apply_of_mem 7 G hG cfg0.N ⟨98 * k.val + 97, hk⟩ (ix3 k 0 0) hk hf (by
    show ix3 k 0 0 ∈ ((View.whole main_v27_1).slice (win0_7.rect ⟨98 * k.val + 97, hk⟩)).set
    rw [View.set_slice_whole, Rect.mem_set_unit]
    intro a
    have hi := idx7 ⟨98 * k.val + 97, hk⟩
    have hd : (98 * k.val + 97) / 98 = k.val := by omega
    match a with
    | ⟨0, _⟩ =>
      show win0_7.index ⟨98 * k.val + 97, hk⟩ 0 * 1 ≤ k.val ∧ k.val < win0_7.index ⟨98 * k.val + 97, hk⟩ 0 * 1 + 1
      rw [hi.1]; dsimp only; omega
    | ⟨1, _⟩ =>
      show win0_7.index ⟨98 * k.val + 97, hk⟩ 1 * 1 ≤ 0 ∧ 0 < win0_7.index ⟨98 * k.val + 97, hk⟩ 1 * 1 + 1
      rw [hi.2.1]; omega
    | ⟨2, _⟩ =>
      show win0_7.index ⟨98 * k.val + 97, hk⟩ 2 * 1 ≤ 0 ∧ 0 < win0_7.index ⟨98 * k.val + 97, hk⟩ 2 * 1 + 1
      rw [hi.2.2]; omega)

end Cert.Margin.KAccum

end
-- ==== Proof.KFinal.lean ====
/-
  The two result arrays in terms of the inputs: per group, the summed terms and the count of the specification.
  The 98 steps of a group cover the 100352 padded positions block by block; the padded positions contribute nothing.
-/
import proofs.«402186_j57732950393273_3_alg».proof.Proof.Gen.KernelIdeal.Frame
import proofs.«402186_j57732950393273_3_alg».proof.Proof.Spec
import proofs.«402186_j57732950393273_3_alg».proof.Proof.SumLaws
import proofs.«402186_j57732950393273_3_alg».proof.Proof.KStep
import proofs.«402186_j57732950393273_3_alg».proof.Proof.KAccum
import Idealize.ShloMosaic.Lib.ValueIdx

noncomputable section

open scoped BigOperators

namespace Cert.Margin.KFinal

open Idealize.ShloMosaic Idealize.ShloMosaic.ValueIdx Idealize.SL.Sem Cert.KernelIdeal Cert.KernelIdeal.Gen Cert.Margin
open Cert.Margin.KHost

variable (m : (ℓ : Loc nD τ sig) → Buf (Elt Ideal) ℓ) (c : Dev nD)

/-- The first result array holds each group's summed terms. -/
theorem total_eq (hR : InRange (argT m c)) (k : Fin 4) :
    ((dats m 0 c).arrAt 6 cfg0.N : S4x1x1.Idx → EReal) (ix3 k 0 0)
      = totalOf (argX m c) (argL m c) (argT m c) (argB m c) k := by
  rw [KAccum.final_total]
  -- step j of group k sums the 1024 positions of block j
  have hs : ∀ j ∈ Finset.range 98,
      KAccum.sT m c (98 * k.val + j) = ∑ r : Fin 1024, KStep.gT m c k (1024 * j + r.val) := by
    intro j hj
    have hj' : j < 98 := Finset.mem_range.mp hj
    have hk : k.val < 4 := k.isLt
    have hp : 98 * k.val + j < cfg0.N := by rw [show cfg0.N = 392 from N_0]; omega
    unfold KAccum.sT
    rw [dif_pos hp, KStep.stepT_at m c hR ⟨98 * k.val + j, hp⟩]
    have hg : KBlocks.grp ⟨98 * k.val + j, hp⟩ = k := Fin.ext (by show (98 * k.val + j) / 98 = k.val; omega)
    have hm : (98 * k.val + j) % 98 = j := by omega
    rw [hg]
    exact Finset.sum_congr rfl fun r _ => by show KStep.gT m c k (1024 * ((98 * k.val + j) % 98) + r.val) = _; rw [hm]
  rw [Finset.sum_congr rfl hs]
  -- the blocks cover the true positions; the padded ones carry zero
  unfold totalOf
  exact SumLaws.sum_blocks_eq _ (KStep.gT m c k) (fun T h => by unfold KStep.gT; rw [dif_pos h])
    (fun T h => by unfold KStep.gT; rw [dif_neg (by omega)])

/-- The second result array holds each group's count. -/
theorem count_eq (hR : InRange (argT m c)) (k : Fin 4) :
    ((dats m 0 c).arrAt 7 cfg0.N : S4x1x1.Idx → EReal) (ix3 k 0 0)
      = countOf (argX m c) (argL m c) (argT m c) (argB m c) k := by
  rw [KAccum.final_count]
  -- step j of group k counts the 1024 positions of block j
  have hs : ∀ j ∈ Finset.range 98,
      KAccum.sC m c (98 * k.val + j) = ∑ r : Fin 1024, KStep.gC m c k (1024 * j + r.val) := by
    intro j hj
    have hj' : j < 98 := Finset.mem_range.mp hj
    have hk : k.val < 4 := k.isLt
    have hp : 98 * k.val + j < cfg0.N := by rw [show cfg0.N = 392 from N_0]; omega
    unfold KAccum.sC
    rw [dif_pos hp, KStep.stepC_at m c hR ⟨98 * k.val + j, hp⟩]
    have hg : KBlocks.grp ⟨98 * k.val + j, hp⟩ = k := Fin.ext (by show (98 * k.val + j) / 98 = k.val; omega)
    have hm : (98 * k.val + j) % 98 = j := by omega
    rw [hg]
    exact Finset.sum_congr rfl fun r _ => by show KStep.gC m c k (1024 * ((98 * k.val + j) % 98) + r.val) = _; rw [hm]
  rw [Finset.sum_congr rfl hs]
  -- zeros and ones over the blocks: the number of counted triplets
  unfold countOf
  exact SumLaws.count_blocks_eq _ (KStep.gC m c k) (fun T h => by unfold KStep.gC; rw [dif_pos h])
    (fun T h => by unfold KStep.gC; rw [dif_neg (by omega)])

end Cert.Margin.KFinal

end
-- ==== Proof.KTail.lean ====
/-
  The kernel program's result. After the pallas call the host lines drop the unit axes of the two result arrays,
  form each group's loss (the sum when the count is zero, else the sum divided by max(count, 1)), add the four losses
  and divide by four: the specification's loss of the inputs.
-/
import proofs.«402186_j57732950393273_3_alg».proof.Proof.Gen.KernelIdeal.Frame
import proofs.«402186_j57732950393273_3_alg».proof.Proof.Spec
import proofs.«402186_j57732950393273_3_alg».proof.Proof.KFinal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Margin.KTail

open Idealize.ShloMosaic Idealize.ShloMosaic.ValueIdx Idealize.ShloMosaic.TcCoe Idealize.SL.Sem Cert.KernelIdeal Cert.KernelIdeal.Gen Cert.Margin
open Cert.Margin.KHost

variable (m : (ℓ : Loc nD τ sig) → Buf (Elt Ideal) ℓ) (ρ : Dev nD → PrngReg)

/-- An `[a, 1, 1]` array cast to `[a]` reads, at `i`, the operand at `(i, 0, 0)`. -/
private theorem shapeCast_a11_a_apply {α : Type} {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-- A rank-1 index set is the range of its one coordinate … -/
private def idxEquiv1 (n : ℕ) : Fin n ≃ (⟨1, ![n]⟩ : Shape).Idx where
  toFun k := ix1 k
  invFun j := j 0
  left_inv _ := rfl
  right_inv j := (eq_ix1 j).symm

/-- … so a sum over it is the sum over that coordinate. -/
private theorem sum_idx1 {M : Type*} [AddCommMonoid M] {n : ℕ} (f : (⟨1, ![n]⟩ : Shape).Idx → M) :
    ∑ j, f j = ∑ k : Fin n, f (ix1 k) :=
  ((idxEquiv1 n).sum_comp f).symm

/-- The lines after the call, as one function of the two result arrays: the unit axes dropped, each group's sum kept
    where its count is zero and divided by max(count, 1) elsewhere, the four added up and divided by four. -/
private def tailFn (A B : FVec Ideal S4x1x1 .f32) : FVec Ideal S_ .f32 :=
  Host.divf (F := Ideal)
    (Host.reduceAdd (F := Ideal)
      (select
        (cmpf (F := Ideal) .oeq (shapeCast S4 B shapeCasts_S4x1x1_S4)
          (broadcastInDim S4 ![] bcast_S_S4 (constant (F := Ideal) S_ .f32 0x00000000#32)))
        (shapeCast S4 A shapeCasts_S4x1x1_S4)
        (Host.divf (F := Ideal) (shapeCast S4 A shapeCasts_S4x1x1_S4)
          (maximumf (F := Ideal) (shapeCast S4 B shapeCasts_S4x1x1_S4)
            (broadcastInDim S4 ![] bcast_S_S4 (constant (F := Ideal) S_ .f32 0x3F800000#32)))))
      (constant (F := Ideal) S_ .f32 0x00000000#32) reducesTo_S4_S_d0 h_S_)
    (constant (F := Ideal) S_ .f32 0x40800000#32)

/-- The result buffer after the lines, from any contents: that function of the two result arrays' contents. -/
private theorem tail_after (W : Valuation τ sig (Elt Ideal)) :
    (StableHlo.after [hostOps1, hostOps1_1, hostOps1_2].flatten W (Proc.devRef .tc main_v37) : S_.Idx → EReal)
      = tailFn (W (Proc.devRef .tc main_v27_0)) (W (Proc.devRef .tc main_v27_1)) := by
  simp only [hostOps1, hostOps1_1, hostOps1_2, List.flatten_cons, List.flatten_nil, List.append_nil, List.cons_append, List.nil_append]
  after_results
  simp only [StableHlo.TRef.ofBuf, StableHlo.TRef.toBuf, cast_eq]
  rfl

/-- Comparing for equality with zero, as a one-bit word. -/
private theorem cmp_oeq_zero (x : EReal) : Ideal.cmp .oeq x 0 = if x = 0 then 1#1 else 0#1 := by
  unfold Ideal.cmp
  by_cases h : x = 0
  · simp [h]
  · simp [h]

/-- That function at arrays holding each group's sum and count: the mean of the four groups' losses. -/
private theorem tailFn_eq (A B : FVec Ideal S4x1x1 .f32) (tot cnt : Fin 4 → EReal)
    (hA : ∀ k : Fin 4, A (ix3 k 0 0) = tot k) (hB : ∀ k : Fin 4, B (ix3 k 0 0) = cnt k) :
    tailFn A B = fun _ => result tot cnt := by
  funext j
  unfold tailFn result
  show Ideal.div (Ideal.hostReduceAdd reducesTo_S4_S_d0 _ (Ideal.ofBits .f32 0x00000000#32) j) fourE = _
  rw [Ideal.hostReduceAdd_total reducesTo_S4_S_d0 (fun b => b.elim0), Ideal.ofBits_zero_f32, zero_add, sum_idx1]
  refine congrArg (fun s => Ideal.div s fourE) (Finset.sum_congr rfl fun k _ => ?_)
  show Scalar.select (Ideal.cmp .oeq (shapeCast S4 B shapeCasts_S4x1x1_S4 (ix1 k)) (Ideal.ofBits .f32 0x00000000#32))
      (shapeCast S4 A shapeCasts_S4x1x1_S4 (ix1 k))
      (Ideal.div (shapeCast S4 A shapeCasts_S4x1x1_S4 (ix1 k)) (max (shapeCast S4 B shapeCasts_S4x1x1_S4 (ix1 k)) oneE)) = _
  rw [shapeCast_a11_a_apply A, shapeCast_a11_a_apply B, hA, hB, Ideal.ofBits_zero_f32, cmp_oeq_zero]
  unfold lossK
  by_cases h : cnt k = 0
  · rw [if_pos h, if_pos h, select_one]
  · rw [if_neg h, if_neg h, select_zero]

/-- What the lines after the call leave in the result buffer. -/
theorem tail_eq (c : Dev nD) (hR : InRange (argT m c)) :
    (Pipeline.afterTail₀ cfgs (dats m) 0 (V0 m) [hostOps1, hostOps1_1, hostOps1_2] c main_v37 : S_.Idx → EReal)
      = fun _ => loss (argX m c) (argL m c) (argT m c) (argB m c) := by
  unfold Pipeline.afterTail₀
  refine (tail_after _).trans ?_
  unfold loss
  -- the two result arrays end at what the call leaves in them: each group's sum and count
  exact tailFn_eq _ _ _ _
    (fun k => (congrFun (Pipeline.withArrays_arr spec0 launch0.win.arr_inj c _ _ 6) (ix3 k 0 0)).trans
      (KFinal.total_eq m c hR k))
    (fun k => (congrFun (Pipeline.withArrays_arr spec0 launch0.win.arr_inj c _ _ 7) (ix3 k 0 0)).trans
      (KFinal.count_eq m c hR k))

/-- The kernel program's run: the result buffer ends at the loss of the inputs, the arguments unchanged. -/
theorem run (hR : ∀ c : Dev nD, InRange (argT m c)) :
    θ_run defs (onTc (τ := τ) (main (F := Ideal))) ⟨m, fun _ => 0, ρ⟩ (fun r => ∀ c : Dev nD,
      r.2.mem ((c.tc : Thread nD τ).loc main_v37) = (fun _ => loss (argX m c) (argL m c) (argT m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  -- the result buffer and the four arguments are no array of the call: each ends as the lines after it leave it
  exact (θ_run defs _ _).mono (fun _ h c =>
    ⟨((h c).2 main_v37 (Pipeline.mem_restRefs_of main_v37 (by decide) (by decide))).trans (tail_eq m c (hR c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Margin.KTail

end
-- ==== Proof.lean ====
/-
  The margin loss over triplets: the kernel and its reference compute the same number.

  Inputs: a table of 4096 rows in 4 groups of 128 entries, a label per row, for each group 100000 triplets
  (anchor, positive, negative) of row numbers, and a threshold per (group, label). Under the precondition that every
  triplet entry is a row number (0 ≤ entry < 4096) both programs return the mean over the groups of
  (sum of hinge terms) / max(count of triplets with a positive term, 1)  (Proof/Spec.lean).

  The reference gathers the rows and thresholds and reduces along the triplets (Proof/RefValue.lean). The kernel
  selects rows by one-hot products, walks each group's triplets in 98 blocks of 1024 (the last block padded with
  masked-out positions) and accumulates the sum and the count across the blocks (Proof/KPayload.lean, KPieces.lean,
  KHost.lean, KBlocks.lean, KStep.lean, KAccum.lean, KFinal.lean, KTail.lean). The idealization rewrote nothing.
-/
import proofs.«402186_j57732950393273_3_alg».proof.Defs
import proofs.«402186_j57732950393273_3_alg».proof.Proof.Gen.Kernel
import proofs.«402186_j57732950393273_3_alg».proof.Proof.Gen.Kernel.Frame
import proofs.«402186_j57732950393273_3_alg».proof.Proof.Gen.KernelIdeal
import proofs.«402186_j57732950393273_3_alg».proof.Proof.Gen.KernelIdeal.Frame
import proofs.«402186_j57732950393273_3_alg».proof.Proof.Gen.ReferenceIdeal
import proofs.«402186_j57732950393273_3_alg».proof.Proof.Gen.Pre_finite_inputs
import proofs.«402186_j57732950393273_3_alg».proof.Proof.RefRun
import proofs.«402186_j57732950393273_3_alg».proof.Proof.RefRead
import proofs.«402186_j57732950393273_3_alg».proof.Proof.Spec
import proofs.«402186_j57732950393273_3_alg».proof.Proof.PreDecode
import proofs.«402186_j57732950393273_3_alg».proof.Proof.RefValue
import proofs.«402186_j57732950393273_3_alg».proof.Proof.RefCount
import proofs.«402186_j57732950393273_3_alg».proof.Proof.KTail
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k [Cert.Kernel.Facts] [Cert.Pre_finite_inputs.Facts] : Cert.frame_Kernel :=
  fun m ρ _ => Cert.Kernel.Gen.frame m ρ

/-- The idealized kernel runs and keeps its arguments. -/
theorem frame_ki [Cert.KernelIdeal.Facts] [Cert.Pre_finite_inputs.Facts] : Cert.frame_KernelIdeal :=
  fun m ρ _ => Cert.KernelIdeal.Gen.frame m ρ

/-- The reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- Under the precondition the triplets of every core name rows. -/
theorem inRange_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : Cert.Margin.InRange (Cert.Margin.KHost.argT m c) :=
  Cert.Margin.PreDecode.inRange_of_pre (F := Ideal) _ _ _ _ (h c)

/-- Both idealized programs end at the loss of the inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (fun _ => Cert.Margin.loss (Cert.Margin.KHost.argX m c) (Cert.Margin.KHost.argL m c)
    (Cert.Margin.KHost.argT m c) (Cert.Margin.KHost.argB m c)), Cert.Margin.KTail.run m ρ (inRange_of_pre m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v114_eq, (hagree c).1, (hagree c).2.1, (hagree c).2.2.1, (hagree c).2.2.2]
  exact Cert.Margin.RefCount.result_eq _ _ _ _ (inRange_of_pre m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
